-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v61) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S262144x16 : Shape := ⟨2, ![262144, 16]⟩
abbrev S4096 : Shape := ⟨1, ![4096]⟩
abbrev S2x262144 : Shape := ⟨2, ![2, 262144]⟩
abbrev S256x256 : Shape := ⟨2, ![256, 256]⟩
abbrev S256 : Shape := ⟨1, ![256]⟩
abbrev S256x16 : Shape := ⟨2, ![256, 16]⟩
abbrev S5x256 : Shape := ⟨2, ![5, 256]⟩
abbrev S5 : Shape := ⟨1, ![5]⟩
abbrev S144x256 : Shape := ⟨2, ![144, 256]⟩
abbrev S144 : Shape := ⟨1, ![144]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S5x256 : S_.BroadcastsInDim S5x256 (![] : Fin 0 → Fin S5x256.rank)
  reducesTo_S5x256_S_d0_1 : S5x256.ReducesTo [0, 1] S_
  bcast_S_S5 : S_.BroadcastsInDim S5 (![] : Fin 0 → Fin S5.rank)
  reducesTo_S5_S_d0 : S5.ReducesTo [0] S_
  bcast_S_S144x256 : S_.BroadcastsInDim S144x256 (![] : Fin 0 → Fin S144x256.rank)
  reducesTo_S144x256_S_d0_1 : S144x256.ReducesTo [0, 1] S_
  bcast_S_S144 : S_.BroadcastsInDim S144 (![] : Fin 0 → Fin S144.rank)
  reducesTo_S144_S_d0 : S144.ReducesTo [0] S_

variable [Facts]

def fn_part2 {F : FTy → Type} [FloatOps F] (main_arg9 : FVec F S5 .f32) (main_arg10 : FVec F S144x256 .f32) (main_arg11 : FVec F S144 .f32) (main_v33 : IVec S_ 1) : IVec S_ 1 :=
  let main_v34 : FVec F S5 .f32 := Host.absf main_arg9
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S144x256 .f32 := Host.absf main_arg10
  let main_cst_14 : FVec F S_ .f32 := constant S_ .f32 0x7F800000#32
  let main_v40 : FVec F S144x256 .f32 := broadcastInDim S144x256 ![] bcast_S_S144x256 main_cst_14
  let main_v41 : IVec S144x256 1 := cmpf .olt main_v39 main_v40
  let main_c_15 : IVec S_ 1 := constantI S_ 1 1#1
  let main_v42 : IVec S_ 1 := (fun x v => Host.reduce IntOp.andi x v reducesTo_S144x256_S_d0_1 h_S_) main_v41 main_c_15
  let main_v43 : IVec S_ 1 := andi main_v38 main_v42
  let main_v44 : FVec F S144 .f32 := Host.absf main_arg11
  let main_cst_16 : FVec F S_ .f32 := constant S_ .f32 0x7F800000#32
  let main_v45 : FVec F S144 .f32 := broadcastInDim S144 ![] bcast_S_S144 main_cst_16
  let main_v46 : IVec S144 1 := cmpf .olt main_v44 main_v45
  let main_c_17 : IVec S_ 1 := constantI S_ 1 1#1
  let main_v47 : IVec S_ 1 := (fun x v => Host.reduce IntOp.andi x v reducesTo_S144_S_d0 h_S_) main_v46 main_c_17
  let main_v48 : IVec S_ 1 := andi main_v43 main_v47
  main_v48

def fn_part1 {F : FTy → Type} [FloatOps F] (main_arg6 : FVec F S256x16 .f32) (main_arg7 : FVec F S256 .f32) (main_arg8 : FVec F S5x256 .f32) (main_arg9 : FVec F S5 .f32) (main_arg10 : FVec F S144x256 .f32) (main_arg11 : FVec F S144 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg6
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S5x256 .f32 := Host.absf main_arg8
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S4096x256 .f32) (main_arg1 : FVec F S262144x16 .f32) (main_arg2 : IVec S4096 32) (main_arg3 : IVec S2x262144 32) (main_arg4 : FVec F S256x256 .f32) (main_arg5 : FVec F S256 .f32) (main_arg6 : FVec F S256x16 .f32) (main_arg7 : FVec F S256 .f32) (main_arg8 : FVec F S5x256 .f32) (main_arg9 : FVec F S5 .f32) (main_arg10 : FVec F S144x256 .f32) (main_arg11 : FVec F S144 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S262144x16 .f32 := Host.absf main_arg1
  let main_cst_0 : FVec F S_ .f32 := constant S_ .f32 0x7F800000#32
  let main_v5 : FVec F S262144x16 .f32 := broadcastInDim S262144x16 ![] bcast_S_S262144x16 main_cst_0
  let main_v6 : IVec S262144x16 1 := cmpf .olt main_v4 main_v5
  let main_c_1 : IVec S_ 1 := constantI S_ 1 1#1
  let main_v7 : IVec S_ 1 := (fun x v => Host.reduce IntOp.andi x v reducesTo_S262144x16_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S4096x256 : Shape := ⟨2, ![4096, 256]⟩
abbrev S262144x16 : Shape := ⟨2, ![262144, 16]⟩
abbrev S4096 : Shape := ⟨1, ![4096]⟩
abbrev S2x262144 : Shape := ⟨2, ![2, 262144]⟩
abbrev S256x256 : Shape := ⟨2, ![256, 256]⟩
abbrev S256 : Shape := ⟨1, ![256]⟩
abbrev S256x16 : Shape := ⟨2, ![256, 16]⟩
abbrev S5x256 : Shape := ⟨2, ![5, 256]⟩
abbrev S5 : Shape := ⟨1, ![5]⟩
abbrev S144x256 : Shape := ⟨2, ![144, 256]⟩
abbrev S144 : Shape := ⟨1, ![144]⟩
abbrev S1x262144 : Shape := ⟨2, ![1, 262144]⟩
abbrev S262144 : Shape := ⟨1, ![262144]⟩
abbrev S256x144 : Shape := ⟨2, ![256, 144]⟩
abbrev S1x256 : Shape := ⟨2, ![1, 256]⟩
abbrev S1x144 : Shape := ⟨2, ![1, 144]⟩
abbrev S4096x144 : Shape := ⟨2, ![4096, 144]⟩
abbrev S1024x256 : Shape := ⟨2, ![1024, 256]⟩
abbrev S1024x144 : Shape := ⟨2, ![1024, 144]⟩
abbrev S4096x16 : Shape := ⟨2, ![4096, 16]⟩
abbrev S4096x128 : Shape := ⟨2, ![4096, 128]⟩
abbrev S_ : Shape := ⟨0, ![]⟩
abbrev S4096x4096x16 : Shape := ⟨3, ![4096, 4096, 16]⟩
abbrev S262144x1 : Shape := ⟨2, ![262144, 1]⟩
abbrev S262144x2 : Shape := ⟨2, ![262144, 2]⟩
abbrev S16x4096x4096 : Shape := ⟨3, ![16, 4096, 4096]⟩
abbrev S16x256x256 : Shape := ⟨3, ![16, 256, 256]⟩
abbrev S16x262144 : Shape := ⟨2, ![16, 262144]⟩
abbrev S262144x256 : Shape := ⟨2, ![262144, 256]⟩
abbrev S16x256 : Shape := ⟨2, ![16, 256]⟩
abbrev S256x5 : Shape := ⟨2, ![256, 5]⟩
abbrev S1x5 : Shape := ⟨2, ![1, 5]⟩
abbrev S262144x5 : Shape := ⟨2, ![262144, 5]⟩
abbrev S2048x256 : Shape := ⟨2, ![2048, 256]⟩
abbrev S2048x16 : Shape := ⟨2, ![2048, 16]⟩
abbrev S2048x5 : Shape := ⟨2, ![2048, 5]⟩

abbrev nBuf : Space → Nat
  | .hbm => 88
  | .vmem => 28
  | .smem => 0
  | _ => 0

abbrev bufTy : (tb : Table) → Fin (tcTables nBuf tb) → BufTy
  | .hbm, ⟨0, _⟩ => ⟨S4096x256, .f32⟩
  | .hbm, ⟨1, _⟩ => ⟨S262144x16, .f32⟩
  | .hbm, ⟨2, _⟩ => ⟨S4096, .i32⟩
  | .hbm, ⟨3, _⟩ => ⟨S2x262144, .i32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S256, .f32⟩
  | .hbm, ⟨8, _⟩ => ⟨S5x256, .f32⟩
  | .hbm, ⟨9, _⟩ => ⟨S5, .f32⟩
  | .hbm, ⟨10, _⟩ => ⟨S144x256, .f32⟩
  | .hbm, ⟨11, _⟩ => ⟨S144, .f32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S256x256, .f32⟩
  | .hbm, ⟨17, _⟩ => ⟨S256x144, .f32⟩
  | .hbm, ⟨18, _⟩ => ⟨S1x256, .f32⟩
  | .hbm, ⟨19, _⟩ => ⟨S1x144, .f32⟩
  | .hbm, ⟨20, _⟩ => ⟨S4096x256, .f32⟩
  | .hbm, ⟨21, _⟩ => ⟨S4096x144, .f32⟩
  | .hbm, ⟨22, _⟩ => ⟨S4096x16, .f32⟩
  | .hbm, ⟨23, _⟩ => ⟨S4096x128, .f32⟩
  | .hbm, ⟨24, _⟩ => ⟨S_, .f32⟩
  | .hbm, ⟨25, _⟩ => ⟨S4096x4096x16, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x1, .i32⟩
  | .hbm, ⟨42, _⟩ => ⟨S262144x2, .i32⟩
  | .hbm, ⟨43, _⟩ => ⟨S4096x4096x16, .f32⟩
  | .hbm, ⟨44, _⟩ => ⟨S16x4096x4096, .f32⟩
  | .hbm, ⟨45, _⟩ => ⟨S16x4096x4096, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S262144x1, .i32⟩
  | .hbm, ⟨62, _⟩ => ⟨S262144x2, .i32⟩
  | .hbm, ⟨63, _⟩ => ⟨S16x262144, .f32⟩
  | .hbm, ⟨64, _⟩ => ⟨S262144x16, .f32⟩
  | .hbm, ⟨65, _⟩ => ⟨S_, .i32⟩
  | .hbm, ⟨66, _⟩ => ⟨S262144, .i32⟩
  | .hbm, ⟨67, _⟩ => ⟨S262144, .i1⟩
  | .hbm, ⟨68, _⟩ => ⟨S_, .i32⟩
  | .hbm, ⟨69, _⟩ => ⟨S262144, .i32⟩
  | .hbm, ⟨70, _⟩ => ⟨S262144, .i32⟩
  | .hbm, ⟨71, _⟩ => ⟨S262144, .i32⟩
  | .hbm, ⟨72, _⟩ => ⟨S262144x1, .i32⟩
  | .hbm, ⟨73, _⟩ => ⟨S262144x256, .f32⟩
  | .hbm, ⟨74, _⟩ => ⟨S_, .i32⟩
  | .hbm, ⟨75, _⟩ => ⟨S262144, .i32⟩
  | .hbm, ⟨76, _⟩ => ⟨S262144, .i1⟩
  | .hbm, ⟨77, _⟩ => ⟨S_, .i32⟩
  | .hbm, ⟨78, _⟩ => ⟨S262144, .i32⟩
  | .hbm, ⟨79, _⟩ => ⟨S262144, .i32⟩
  | .hbm, ⟨80, _⟩ => ⟨S262144, .i32⟩
  | .hbm, ⟨81, _⟩ => ⟨S262144x1, .i32⟩
  | .hbm, ⟨82, _⟩ => ⟨S262144x256, .f32⟩
  | .hbm, ⟨83, _⟩ => ⟨S16x256, .f32⟩
  | .hbm, ⟨84, _⟩ => ⟨S256x5, .f32⟩
  | .hbm, ⟨85, _⟩ => ⟨S1x256, .f32⟩
  | .hbm, ⟨86, _⟩ => ⟨S1x5, .f32⟩
  | .hbm, ⟨87, _⟩ => ⟨S262144x5, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S256x144, .f32⟩
  | .local _ .vmem, ⟨5, _⟩ => ⟨S1x144, .f32⟩
  | .local _ .vmem, ⟨6, _⟩ => ⟨S1024x256, .f32⟩
  | .local _ .vmem, ⟨7, _⟩ => ⟨S1024x256, .f32⟩
  | .local _ .vmem, ⟨8, _⟩ => ⟨S1024x144, .f32⟩
  | .local _ .vmem, ⟨9, _⟩ => ⟨S1024x144, .f32⟩
  | .local _ .vmem, ⟨10, _⟩ => ⟨S16x256x256, .f32⟩
  | .local _ .vmem, ⟨11, _⟩ => ⟨S16x256x256, .f32⟩
  | .local _ .vmem, ⟨12, _⟩ => ⟨S16x256x256, .f32⟩
  | .local _ .vmem, ⟨13, _⟩ => ⟨S16x256x256, .f32⟩
  | .local _ .vmem, ⟨14, _⟩ => ⟨S16x256x256, .f32⟩
  | .local _ .vmem, ⟨15, _⟩ => ⟨S16x256x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x16, .f32⟩
  | .local _ .vmem, ⟨21, _⟩ => ⟨S2048x16, .f32⟩
  | .local _ .vmem, ⟨22, _⟩ => ⟨S16x256, .f32⟩
  | .local _ .vmem, ⟨23, _⟩ => ⟨S1x256, .f32⟩
  | .local _ .vmem, ⟨24, _⟩ => ⟨S256x5, .f32⟩
  | .local _ .vmem, ⟨25, _⟩ => ⟨S1x5, .f32⟩
  | .local _ .vmem, ⟨26, _⟩ => ⟨S2048x5, .f32⟩
  | .local _ .vmem, ⟨27, _⟩ => ⟨S2048x5, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x5 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x5 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x5 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  transposes_S256x256_S256x256_1_0 : S256x256.Transposes [1, 0] S256x256
  transposes_S144x256_S256x144_1_0 : S144x256.Transposes [1, 0] S256x144
  shapeCasts_S256_S1x256 : S256.ShapeCasts S1x256
  shapeCasts_S144_S1x144 : S144.ShapeCasts S1x144
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x144_S256x144_0_0 : ∀ a, (![0, 0] : Fin 2 → Nat) a + S256x144.size a ≤ S256x144.size a
  h_S256x144 : 0 < S256x144.numel
  shapeCasts_S256x144_S256x144 : S256x144.ShapeCasts S256x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S1024x144 : S1x144.Broadcasts S1024x144
  inb_S1024x144_S1024x144_0_0 : ∀ a, (![0, 0] : Fin 2 → Nat) a + S1024x144.size a ≤ S1024x144.size a
  h_S1024x144 : 0 < S1024x144.numel
  slices_S4096x144_S4096x16_0_0 : S4096x144.Slices ![0, 0] S4096x16
  slices_S4096x144_S4096x128_0_16 : S4096x144.Slices ![0, 16] S4096x128
  bcast_S_S4096x4096x16 : S_.BroadcastsInDim S4096x4096x16 (![] : Fin 0 → Fin S4096x4096x16.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  transposes_S4096x4096x16_S16x4096x4096_2_0_1 : S4096x4096x16.Transposes [2, 0, 1] S16x4096x4096
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  transposes_S16x256x256_p0_2_1_S16x256x256 : S16x256x256.Transposes [0, 2, 1] S16x256x256
  transposes_S16x262144_S262144x16_1_0 : S16x262144.Transposes [1, 0] S262144x16
  transposes_S256x16_S16x256_1_0 : S256x16.Transposes [1, 0] S16x256
  transposes_S5x256_S256x5_1_0 : S5x256.Transposes [1, 0] S256x5
  shapeCasts_S5_S1x5 : S5.ShapeCasts S1x5
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  broadcasts_S1x256_S2048x256 : S1x256.Broadcasts S2048x256
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2048x5 : S1x5.Broadcasts S2048x5
  inb_S2048x5_S2048x5_0_0 : ∀ a, (![0, 0] : Fin 2 → Nat) a + S2048x5.size a ≤ S2048x5.size a
  h_S2048x5 : 0 < S2048x5.numel
  dot_S1024x256_S256x256_S1024x256_1_0_0_1_n_n_wf : DotDims.WF S1024x256 S256x256 S1024x256 [1] [0] [0] [1] [] []
  dot_S1024x256_S256x144_S1024x144_1_0_0_1_n_n_wf : DotDims.WF S1024x256 S256x144 S1024x144 [1] [0] [0] [1] [] []
  scatter_S4096x4096x16_S262144x2_S262144x16_1_01_01_1_wf : ScatterDims.WF S4096x4096x16 S262144x2 S262144x16 [1] [0, 1] [0, 1] 1
  gather_S16x4096x4096_S262144x2_S16x262144_0_12_n_n_12_1_1611_wf : GatherDims.WF S16x4096x4096 S262144x2 S16x262144 [0] [1, 2] [] [1, 2] [] 1 ![16, 1, 1]
  gather_S4096x256_S262144x1_S262144x256_1_0_n_n_0_1_1256_wf : GatherDims.WF S4096x256 S262144x1 S262144x256 [1] [0] [] [0] [] 1 ![1, 256]
  dot_S2048x16_S16x256_S2048x256_1_0_0_1_n_n_wf : DotDims.WF S2048x16 S16x256 S2048x256 [1] [0] [0] [1] [] []
  dot_S2048x256_S256x5_S2048x5_1_0_0_1_n_n_wf : DotDims.WF S2048x256 S256x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x144.size a ≤ S256x144.size a
  hwx0_3 : ∀ i : grid0.Coords, EltTy.bits .f32 = 32 ∨ (Rect.block (s := S256x144) S256x144.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x144.size a ≤ S1x144.size a
  hwx0_4 : ∀ i : grid0.Coords, EltTy.bits .f32 = 32 ∨ (Rect.block (s := S1x144) S1x144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x256.size a
  hwx0_5 : ∀ i : grid0.Coords, EltTy.bits .f32 = 32 ∨ (Rect.block (s := S4096x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x144.size a ≤ S4096x144.size a
  hwx0_6 : ∀ i : grid0.Coords, EltTy.bits .f32 = 32 ∨ (Rect.block (s := S4096x144) S1024x144.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x256.size a ≤ S16x4096x4096.size a
  hwx1_0 : ∀ i : grid1.Coords, EltTy.bits .f32 = 32 ∨ (Rect.block (s := S16x4096x4096) S16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256x256.size a ≤ S16x4096x4096.size a
  hwx1_1 : ∀ i : grid1.Coords, EltTy.bits .f32 = 32 ∨ (Rect.block (s := S16x4096x4096) S16x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256x256.size a ≤ S16x4096x4096.size a
  hwx1_2 : ∀ i : grid1.Coords, EltTy.bits .f32 = 32 ∨ (Rect.block (s := S16x4096x4096) S16x256x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S262144x256.size a
  hwx2_0 : ∀ i : grid2.Coords, EltTy.bits .f32 = 32 ∨ (Rect.block (s := S262144x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S262144x256.size a
  hwx2_1 : ∀ i : grid2.Coords, EltTy.bits .f32 = 32 ∨ (Rect.block (s := S262144x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S262144x16.size a
  hwx2_2 : ∀ i : grid2.Coords, EltTy.bits .f32 = 32 ∨ (Rect.block (s := S262144x16) S2048x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x256.size a ≤ S16x256.size a
  hwx2_3 : ∀ i : grid2.Coords, EltTy.bits .f32 = 32 ∨ (Rect.block (s := S16x256) S16x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x5.size a ≤ S256x5.size a
  hwx2_5 : ∀ i : grid2.Coords, EltTy.bits .f32 = 32 ∨ (Rect.block (s := S256x5) S256x5.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x5.size a ≤ S1x5.size a
  hwx2_6 : ∀ i : grid2.Coords, EltTy.bits .f32 = 32 ∨ (Rect.block (s := S1x5) S1x5.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x5.size a ≤ S262144x5.size a
  hwx2_7 : ∀ i : grid2.Coords, EltTy.bits .f32 = 32 ∨ (Rect.block (s := S262144x5) S2048x5.size (cc2_transform_7 i) (hinb2_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x144_S1024x144_1_0_0_1_n_n : DotDims S1024x256 S256x144 S1024x144 where
  lhsContracting := [1]
  rhsContracting := [0]
  lhsNonContracting := [0]
  rhsNonContracting := [1]
  lhsBatch := []
  rhsBatch := []
  wf := dot_S1024x256_S256x144_S1024x144_1_0_0_1_n_n_wf
def scatter_S4096x4096x16_S262144x2_S262144x16_1_01_01_1 : ScatterDims S4096x4096x16 S262144x2 S262144x16 where
  updateWindowDims := [1]
  insertedWindowDims := [0, 1]
  scatterDimsToOperandDims := [0, 1]
  indexVectorDim := 1
  wf := scatter_S4096x4096x16_S262144x2_S262144x16_1_01_01_1_wf
def gather_S16x4096x4096_S262144x2_S16x262144_0_12_n_n_12_1_1611 : GatherDims S16x4096x4096 S262144x2 S16x262144 where
  offsetDims := [0]
  collapsedSliceDims := [1, 2]
  operandBatchingDims := []
  startIndicesBatchingDims := []
  startIndexMap := [1, 2]
  indexVectorDim := 1
  sliceSizes := ![16, 1, 1]
  wf := gather_S16x4096x4096_S262144x2_S16x262144_0_12_n_n_12_1_1611_wf
def gather_S4096x256_S262144x1_S262144x256_1_0_n_n_0_1_1256 : GatherDims S4096x256 S262144x1 S262144x256 where
  offsetDims := [1]
  collapsedSliceDims := [0]
  operandBatchingDims := []
  startIndicesBatchingDims := []
  startIndexMap := [0]
  indexVectorDim := 1
  sliceSizes := ![1, 256]
  wf := gather_S4096x256_S262144x1_S262144x256_1_0_n_n_0_1_1256_wf
def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S256x5_S2048x5_1_0_0_1_n_n : DotDims S2048x256 S256x5 S2048x5 where
  lhsContracting := [1]
  rhsContracting := [0]
  lhsNonContracting := [0]
  rhsNonContracting := [1]
  lhsBatch := []
  rhsBatch := []
  wf := dot_S2048x256_S256x5_S2048x5_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1024x144.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S16x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S16x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S2048x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S16x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S256x5.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x5.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S2048x5.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S4096x256 : Shape := ⟨2, ![4096, 256]⟩
abbrev S262144x16 : Shape := ⟨2, ![262144, 16]⟩
abbrev S4096 : Shape := ⟨1, ![4096]⟩
abbrev S2x262144 : Shape := ⟨2, ![2, 262144]⟩
abbrev S256x256 : Shape := ⟨2, ![256, 256]⟩
abbrev S256 : Shape := ⟨1, ![256]⟩
abbrev S256x16 : Shape := ⟨2, ![256, 16]⟩
abbrev S5x256 : Shape := ⟨2, ![5, 256]⟩
abbrev S5 : Shape := ⟨1, ![5]⟩
abbrev S144x256 : Shape := ⟨2, ![144, 256]⟩
abbrev S144 : Shape := ⟨1, ![144]⟩
abbrev S1x256 : Shape := ⟨2, ![1, 256]⟩
abbrev S_ : Shape := ⟨0, ![]⟩
abbrev S1x262144 : Shape := ⟨2, ![1, 262144]⟩
abbrev S262144 : Shape := ⟨1, ![262144]⟩
abbrev S256x144 : Shape := ⟨2, ![256, 144]⟩
abbrev S4096x144 : Shape := ⟨2, ![4096, 144]⟩
abbrev S1x144 : Shape := ⟨2, ![1, 144]⟩
abbrev S4096x16 : Shape := ⟨2, ![4096, 16]⟩
abbrev S4096x128 : Shape := ⟨2, ![4096, 128]⟩
abbrev S4096x4096x16 : Shape := ⟨3, ![4096, 4096, 16]⟩
abbrev S262144x1 : Shape := ⟨2, ![262144, 1]⟩
abbrev S262144x2 : Shape := ⟨2, ![262144, 2]⟩
abbrev S262144x256 : Shape := ⟨2, ![262144, 256]⟩
abbrev S16x256 : Shape := ⟨2, ![16, 256]⟩
abbrev S256x5 : Shape := ⟨2, ![256, 5]⟩
abbrev S262144x5 : Shape := ⟨2, ![262144, 5]⟩
abbrev S1x5 : Shape := ⟨2, ![1, 5]⟩

abbrev nBuf : Space → Nat
  | .hbm => 119
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S262144x16, .f32⟩
  | .hbm, ⟨2, _⟩ => ⟨S4096, .i32⟩
  | .hbm, ⟨3, _⟩ => ⟨S2x262144, .i32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S256, .f32⟩
  | .hbm, ⟨8, _⟩ => ⟨S5x256, .f32⟩
  | .hbm, ⟨9, _⟩ => ⟨S5, .f32⟩
  | .hbm, ⟨10, _⟩ => ⟨S144x256, .f32⟩
  | .hbm, ⟨11, _⟩ => ⟨S144, .f32⟩
  | .hbm, ⟨12, _⟩ => ⟨S256x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S1x262144, .i32⟩
  | .hbm, ⟨27, _⟩ => ⟨S262144, .i32⟩
  | .hbm, ⟨28, _⟩ => ⟨S1x262144, .i32⟩
  | .hbm, ⟨29, _⟩ => ⟨S262144, .i32⟩
  | .hbm, ⟨30, _⟩ => ⟨S256x144, .f32⟩
  | .hbm, ⟨31, _⟩ => ⟨S4096x144, .f32⟩
  | .hbm, ⟨32, _⟩ => ⟨S1x144, .f32⟩
  | .hbm, ⟨33, _⟩ => ⟨S4096x144, .f32⟩
  | .hbm, ⟨34, _⟩ => ⟨S4096x144, .f32⟩
  | .hbm, ⟨35, _⟩ => ⟨S4096x16, .f32⟩
  | .hbm, ⟨36, _⟩ => ⟨S4096x128, .f32⟩
  | .hbm, ⟨37, _⟩ => ⟨S_, .f32⟩
  | .hbm, ⟨38, _⟩ => ⟨S4096x4096x16, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x1, .i32⟩
  | .hbm, ⟨55, _⟩ => ⟨S262144x2, .i32⟩
  | .hbm, ⟨56, _⟩ => ⟨S4096x4096x16, .f32⟩
  | .hbm, ⟨57, _⟩ => ⟨S4096x4096x16, .f32⟩
  | .hbm, ⟨58, _⟩ => ⟨S4096x4096x16, .f32⟩
  | .hbm, ⟨59, _⟩ => ⟨S_, .f32⟩
  | .hbm, ⟨60, _⟩ => ⟨S4096x4096x16, .f32⟩
  | .hbm, ⟨61, _⟩ => ⟨S4096x4096x16, .f32⟩
  | .hbm, ⟨62, _⟩ => ⟨S_, .i32⟩
  | .hbm, ⟨63, _⟩ => ⟨S262144, .i32⟩
  | .hbm, ⟨64, _⟩ => ⟨S262144, .i1⟩
  | .hbm, ⟨65, _⟩ => ⟨S_, .i32⟩
  | .hbm, ⟨66, _⟩ => ⟨S262144, .i32⟩
  | .hbm, ⟨67, _⟩ => ⟨S262144, .i32⟩
  | .hbm, ⟨68, _⟩ => ⟨S262144, .i32⟩
  | .hbm, ⟨69, _⟩ => ⟨S_, .i32⟩
  | .hbm, ⟨70, _⟩ => ⟨S262144, .i32⟩
  | .hbm, ⟨71, _⟩ => ⟨S262144, .i1⟩
  | .hbm, ⟨72, _⟩ => ⟨S_, .i32⟩
  | .hbm, ⟨73, _⟩ => ⟨S262144, .i32⟩
  | .hbm, ⟨74, _⟩ => ⟨S262144, .i32⟩
  | .hbm, ⟨75, _⟩ => ⟨S262144, .i32⟩
  | .hbm, ⟨76, _⟩ => ⟨S262144x1, .i32⟩
  | .hbm, ⟨77, _⟩ => ⟨S262144x1, .i32⟩
  | .hbm, ⟨78, _⟩ => ⟨S262144x2, .i32⟩
  | .hbm, ⟨79, _⟩ => ⟨S262144x16, .f32⟩
  | .hbm, ⟨80, _⟩ => ⟨S_, .i32⟩
  | .hbm, ⟨81, _⟩ => ⟨S262144, .i32⟩
  | .hbm, ⟨82, _⟩ => ⟨S262144, .i1⟩
  | .hbm, ⟨83, _⟩ => ⟨S_, .i32⟩
  | .hbm, ⟨84, _⟩ => ⟨S262144, .i32⟩
  | .hbm, ⟨85, _⟩ => ⟨S262144, .i32⟩
  | .hbm, ⟨86, _⟩ => ⟨S262144, .i32⟩
  | .hbm, ⟨87, _⟩ => ⟨S262144x1, .i32⟩
  | .hbm, ⟨88, _⟩ => ⟨S262144x256, .f32⟩
  | .hbm, ⟨89, _⟩ => ⟨S_, .i32⟩
  | .hbm, ⟨90, _⟩ => ⟨S262144, .i32⟩
  | .hbm, ⟨91, _⟩ => ⟨S262144, .i1⟩
  | .hbm, ⟨92, _⟩ => ⟨S_, .i32⟩
  | .hbm, ⟨93, _⟩ => ⟨S262144, .i32⟩
  | .hbm, ⟨94, _⟩ => ⟨S262144, .i32⟩
  | .hbm, ⟨95, _⟩ => ⟨S262144, .i32⟩
  | .hbm, ⟨96, _⟩ => ⟨S262144x1, .i32⟩
  | .hbm, ⟨97, _⟩ => ⟨S262144x256, .f32⟩
  | .hbm, ⟨98, _⟩ => ⟨S262144x256, .f32⟩
  | .hbm, ⟨99, _⟩ => ⟨S16x256, .f32⟩
  | .hbm, ⟨100, _⟩ => ⟨S262144x256, .f32⟩
  | .hbm, ⟨101, _⟩ => ⟨S262144x256, .f32⟩
  | .hbm, ⟨102, _⟩ => ⟨S1x256, .f32⟩
  | .hbm, ⟨103, _⟩ => ⟨S262144x256, .f32⟩
  | .hbm, ⟨104, _⟩ => ⟨S262144x256, .f32⟩
  | .hbm, ⟨105, _⟩ => ⟨S262144x256, .f32⟩
  | .hbm, ⟨106, _⟩ => ⟨S262144x256, .f32⟩
  | .hbm, ⟨107, _⟩ => ⟨S_, .f32⟩
  | .hbm, ⟨108, _⟩ => ⟨S262144x256, .f32⟩
  | .hbm, ⟨109, _⟩ => ⟨S262144x256, .f32⟩
  | .hbm, ⟨110, _⟩ => ⟨S_, .f32⟩
  | .hbm, ⟨111, _⟩ => ⟨S262144x256, .f32⟩
  | .hbm, ⟨112, _⟩ => ⟨S262144x256, .f32⟩
  | .hbm, ⟨113, _⟩ => ⟨S262144x256, .f32⟩
  | .hbm, ⟨114, _⟩ => ⟨S256x5, .f32⟩
  | .hbm, ⟨115, _⟩ => ⟨S262144x5, .f32⟩
  | .hbm, ⟨116, _⟩ => ⟨S1x5, .f32⟩
  | .hbm, ⟨117, _⟩ => ⟨S262144x5, .f32⟩
  | .hbm, ⟨118, _⟩ => ⟨S262144x5, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_1 : Ref sig .tc := ⟨.hbm, 46, rfl⟩
abbrev main_v23 : Ref sig .tc := ⟨.hbm, 47, rfl⟩
abbrev main_v24 : Ref sig .tc := ⟨.hbm, 48, rfl⟩
abbrev main_c_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_c_4 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_6 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_call1_v5 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  transposes_S144x256_S256x144_1_0 : S144x256.Transposes [1, 0] S256x144
  bcast_S144_S1x144_1 : S144.BroadcastsInDim S1x144 (![1] : Fin 1 → Fin S1x144.rank)
  bcast_S1x144_S4096x144_0_1 : S1x144.BroadcastsInDim S4096x144 (![0, 1] : Fin 2 → Fin S4096x144.rank)
  slices_S4096x144_S4096x16_0_0 : S4096x144.Slices ![0, 0] S4096x16
  slices_S4096x144_S4096x128_0_16 : S4096x144.Slices ![0, 16] S4096x128
  bcast_S_S4096x4096x16 : S_.BroadcastsInDim S4096x4096x16 (![] : Fin 0 → Fin S4096x4096x16.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  transposes_S4096x4096x16_S4096x4096x16_1_0_2 : S4096x4096x16.Transposes [1, 0, 2] S4096x4096x16
  transposes_S256x16_S16x256_1_0 : S256x16.Transposes [1, 0] S16x256
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S5x256_S256x5_1_0 : S5x256.Transposes [1, 0] S256x5
  bcast_S5_S1x5_1 : S5.BroadcastsInDim S1x5 (![1] : Fin 1 → Fin S1x5.rank)
  bcast_S1x5_S262144x5_0_1 : S1x5.BroadcastsInDim S262144x5 (![0, 1] : Fin 2 → Fin S262144x5.rank)
  dot_S4096x256_S256x256_S4096x256_1_0_0_1_n_n_wf : DotDims.WF S4096x256 S256x256 S4096x256 [1] [0] [0] [1] [] []
  dot_S4096x256_S256x144_S4096x144_1_0_0_1_n_n_wf : DotDims.WF S4096x256 S256x144 S4096x144 [1] [0] [0] [1] [] []
  scatter_S4096x4096x16_S262144x2_S262144x16_1_01_01_1_wf : ScatterDims.WF S4096x4096x16 S262144x2 S262144x16 [1] [0, 1] [0, 1] 1
  gather_S4096x4096x16_S262144x2_S262144x16_1_01_n_n_01_1_1116_wf : GatherDims.WF S4096x4096x16 S262144x2 S262144x16 [1] [0, 1] [] [0, 1] [] 1 ![1, 1, 16]
  gather_S4096x256_S262144x1_S262144x256_1_0_n_n_0_1_1256_wf : GatherDims.WF S4096x256 S262144x1 S262144x256 [1] [0] [] [0] [] 1 ![1, 256]
  dot_S262144x16_S16x256_S262144x256_1_0_0_1_n_n_wf : DotDims.WF S262144x16 S16x256 S262144x256 [1] [0] [0] [1] [] []
  dot_S262144x256_S256x5_S262144x5_1_0_0_1_n_n_wf : DotDims.WF S262144x256 S256x5 S262144x5 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x144_S4096x144_1_0_0_1_n_n : DotDims S4096x256 S256x144 S4096x144 where
  lhsContracting := [1]
  rhsContracting := [0]
  lhsNonContracting := [0]
  rhsNonContracting := [1]
  lhsBatch := []
  rhsBatch := []
  wf := dot_S4096x256_S256x144_S4096x144_1_0_0_1_n_n_wf
def scatter_S4096x4096x16_S262144x2_S262144x16_1_01_01_1 : ScatterDims S4096x4096x16 S262144x2 S262144x16 where
  updateWindowDims := [1]
  insertedWindowDims := [0, 1]
  scatterDimsToOperandDims := [0, 1]
  indexVectorDim := 1
  wf := scatter_S4096x4096x16_S262144x2_S262144x16_1_01_01_1_wf
def gather_S4096x4096x16_S262144x2_S262144x16_1_01_n_n_01_1_1116 : GatherDims S4096x4096x16 S262144x2 S262144x16 where
  offsetDims := [1]
  collapsedSliceDims := [0, 1]
  operandBatchingDims := []
  startIndicesBatchingDims := []
  startIndexMap := [0, 1]
  indexVectorDim := 1
  sliceSizes := ![1, 1, 16]
  wf := gather_S4096x4096x16_S262144x2_S262144x16_1_01_n_n_01_1_1116_wf
def gather_S4096x256_S262144x1_S262144x256_1_0_n_n_0_1_1256 : GatherDims S4096x256 S262144x1 S262144x256 where
  offsetDims := [1]
  collapsedSliceDims := [0]
  operandBatchingDims := []
  startIndicesBatchingDims := []
  startIndexMap := [0]
  indexVectorDim := 1
  sliceSizes := ![1, 256]
  wf := gather_S4096x256_S262144x1_S262144x256_1_0_n_n_0_1_1256_wf
def dot_S262144x16_S16x256_S262144x256_1_0_0_1_n_n : DotDims S262144x16 S16x256 S262144x256 where
  lhsContracting := [1]
  rhsContracting := [0]
  lhsNonContracting := [0]
  rhsNonContracting := [1]
  lhsBatch := []
  rhsBatch := []
  wf := dot_S262144x16_S16x256_S262144x256_1_0_0_1_n_n_wf
def dot_S262144x256_S256x5_S262144x5_1_0_0_1_n_n : DotDims S262144x256 S256x5 S262144x5 where
  lhsContracting := [1]
  rhsContracting := [0]
  lhsNonContracting := [0]
  rhsNonContracting := [1]
  lhsBatch := []
  rhsBatch := []
  wf := dot_S262144x256_S256x5_S262144x5_1_0_0_1_n_n_wf

class Facts : Prop extends Facts₀ where

variable [Facts]
-- ==== Proof.KR0.lean ====
/- The first kernel region of the program, at a parameter `V`: the contents of the core's buffers when the
   region is entered. The kernel reads a block of 1024 rows of the activations and the four parameter arrays
   whole, and writes a block of 1024 rows of each of its two results. This module states, for that region, the
   block each window holds at a grid point, what the kernel body leaves in the two result buffers as a function
   of the five blocks it read, the body's triple, and the pipeline's proof data with its body obligation. -/
import proofs.«156641_j38199439130848_1_alg».proof.Proof.Gen.Kernel.Launch
import proofs.«156641_j38199439130848_1_alg».proof.Proof.Gen.Kernel.Skeleton
import proofs.«156641_j38199439130848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, whether the pipeline
    fetched it at that point (window 0, whose block moves with the point) or left it in place since the first
    point (windows 1 to 4, whose block is the whole array at every point): for ANY proof data whose array is
    `V`'s and whose body leaves the block where it was. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S256x144 := Rect.unit (s := S256x144) ![0, 0] S256x144.size inb_S256x144_S256x144_0_0
abbrev r0_4 : Rect S1x144 := Rect.unit (s := S1x144) ![0, 0] S1x144.size inb_S1x144_S1x144_0_0
abbrev r0_5 : Rect S1024x144 := Rect.unit (s := S1024x144) ![0, 0] S1024x144.size inb_S1024x144_S1024x144_0_0

/-! ## What the body leaves in each output window's buffer -/

/-- Window 5's buffer after the body, from the blocks of windows 0, 1, 2: its one store, of the gated
    activation of the block. -/
def out0_5 (x0 : Vec F S1024x256 .f32) (x1 : Vec F S256x256 .f32) (x2 : Vec F S1x256 .f32) : Vec F S1024x256 .f32 :=
  View.canon [⟨r0_0, k0_pay1 (View.ld x0 r0_0) (View.ld x1 r0_1) (View.ld x2 r0_2)⟩]

/-- Window 6's buffer after the body, from the blocks of the five input windows: its one store, of the second
    affine layer applied to the gated activation. -/
def out0_6 (x0 : Vec F S1024x256 .f32) (x1 : Vec F S256x256 .f32) (x2 : Vec F S1x256 .f32) (x3 : Vec F S256x144 .f32) (x4 : Vec F S1x144 .f32) : Vec F S1024x144 .f32 :=
  View.canon [⟨r0_5, k0_pay2 (View.ld x0 r0_0) (View.ld x1 r0_1) (View.ld x2 r0_2) (View.ld x3 r0_3) (View.ld x4 r0_4)⟩]

/-- The one store into window 5's buffer is of the whole buffer, so it covers it. -/
theorem cover0_5 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-- The one store into window 6's buffer is of the whole buffer, so it covers it. -/
theorem cover0_6 (p0 : Vec F S1024x144 .f32) (y : S1024x144.Idx) :
    ∃ pc ∈ ([⟨r0_5, p0⟩] : List (View.Piece (Elt F) S1024x144 .f32)), y ∈ pc.1.set :=
  View.cover_of_tiled [⟨r0_5, p0⟩] S1024x144.size (by rfl) y

/-! ## The body's triple -/

set_option maxHeartbeats 1000000 in
/-- The kernel body on whole staging buffers, the five inputs' at read contents `xW` and the two outputs' at
    anything, runs to the continuation holding the inputs' as they were and each output's at `out0_W` of the
    inputs'. The body reads each output buffer once before it overwrites it; what it read is used nowhere. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x144 .f32) (harg4 : arg4.IsWhole)
    (arg5 : Memref sig .tc .vmem S1x144 .f32) (harg5 : arg5.IsWhole) (arg6 : Memref sig .tc .vmem S1024x256 .f32) (harg6 : arg6.IsWhole)
    (arg7 : Memref sig .tc .vmem S1024x144 .f32) (harg7 : arg7.IsWhole)
    (x0 : Vec F S1024x256 .f32) (x1 : Vec F S256x256 .f32) (x2 : Vec F S1x256 .f32) (x3 : Vec F S256x144 .f32) (x4 : Vec F S1x144 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__shared_atoms_kernel i arg1 harg1 arg2 harg2 arg3 harg3 arg4 harg4 arg5 harg5 arg6 harg6 arg7 harg7) K := by
  simp only [cc0__shared_atoms_kernel_eq_skeleton]; unfold cc0__shared_atoms_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the region's pipeline on core `c`: the arrays as the region finds them (`V`); after the
    body at point `t` each input's buffer at its block and each output's at `out0_W` of the input blocks; the
    invariant is the untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/-
  Region 1 of the program: the kernel that symmetrises a channel-first stack of square matrices, block by block.
  At grid point (ib, jb) it reads block (0, ib, jb) and block (0, jb, ib) of ONE array and writes, to block
  (0, ib, jb) of another, half the sum of the first and the transpose (in the last two axes) of the second.

  This module is the region's resource half, at any float model: the blocks the two input windows hold at a point,
  the body's triple (two loads, one unused load of the output buffer, one store of the whole buffer), the pipeline's
  proof data and its body obligation. Because the two input windows read one array, the proof data holds that array's
  full share dealt in two: the left half for the first window, the right half for the second.
-/
import proofs.«156641_j38199439130848_1_alg».proof.Proof.Gen.Kernel.Launch
import proofs.«156641_j38199439130848_1_alg».proof.Proof.Gen.Kernel.Skeleton
import proofs.«156641_j38199439130848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the symmetrising kernel, on a 16 x 16 grid of 16 x 256 x 256 blocks

Both input windows stage the SAME array, at transposed block positions; the output window stages another.
The proof data therefore deals the full share of the common array between the two input windows
(its left and right halves), so that the two separately conjoined input resources add up to the whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is `V`'s and whose body leaves the block in place: the window is uncut, never idle, and fetched
    at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the transposed block of the same array). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 16 x 256 x 256 buffer as one rectangle: every load and the one store of the body use it. -/
abbrev r1_0 : Rect S16x256x256 := Rect.unit (s := S16x256x256) ![0, 0, 0] S16x256x256.size inb_S16x256x256_S16x256x256_0_0_0

/-! ## What the body leaves in the output window's buffer -/

/-- Window 2's staging buffer after the body, from the two input blocks: its one store, as a piece. -/
def out1_2 (x0 x1 : Vec F S16x256x256 .f32) : Vec F S16x256x256 .f32 :=
  View.canon [⟨r1_0, k1_pay1 (View.ld x0 r1_0) (View.ld x1 r1_0)⟩]

/-- The one store is of the whole buffer, so it covers it. -/
theorem cover1_2 (p0 : Vec F S16x256x256 .f32) (y : S16x256x256.Idx) :
    ∃ pc ∈ ([⟨r1_0, p0⟩] : List (View.Piece (Elt F) S16x256x256 .f32)), y ∈ pc.1.set :=
  View.cover_of_tiled [⟨r1_0, p0⟩] S16x256x256.size (by rfl) y

/-! ## The body's triple -/

set_option maxHeartbeats 1000000 in
/-- The kernel body on whole staging memrefs, the two inputs' at read contents `x0`, `x1` and the output's at
    anything, runs to the continuation holding the inputs' as they were and the output's at `out1_2` of the
    inputs'. The body reads the output buffer once (a value it never uses) before its one store; that load needs
    only that the buffer is held. -/
theorem sound_kernel1 (c : Dev nD) (E : Set ℕ) (i : grid1.Coords)
    (arg2 : Memref sig .tc .vmem S16x256x256 .f32) (harg2 : arg2.IsWhole)
    (arg3 : Memref sig .tc .vmem S16x256x256 .f32) (harg3 : arg3.IsWhole)
    (arg4 : Memref sig .tc .vmem S16x256x256 .f32) (harg4 : arg4.IsWhole)
    (x0 x1 : Vec F S16x256x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__symmetrize_cf_kernel i arg2 harg2 arg3 harg3 arg4 harg4) K := by
  simp only [cc1__symmetrize_cf_kernel_eq_skeleton]; unfold cc1__symmetrize_cf_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the two input blocks; the
    invariant is the scoped rest and the generator register, untouched; nothing owed. The two input windows
    read ONE array, so each holds half of the full share of it (the left half, the right half: together the
    whole); the output's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares the core holds the three windows' arrays at: the two halves for the inputs, the whole for the output. -/
theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.KR2.lean ====
/- Region 2 of the program: the edge head's pipeline (128 points, blocks of 2048 rows). For the pipeline's proof data
   at any entry contents `V`: each window's block at a point, what the body leaves in the output buffer, the body's
   triple, and the body obligation at every point. Generic in the float interpretation. -/
import proofs.«156641_j38199439130848_1_alg».proof.Proof.Gen.Kernel.Launch
import proofs.«156641_j38199439130848_1_alg».proof.Proof.Gen.Kernel.Skeleton
import proofs.«156641_j38199439130848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The third kernel region (the edge head), at the contents `V` its pipeline finds on entry

Eight windows: the row-blocked inputs 0, 1, 2 (two feature blocks of 2048 rows by 256 and one of 2048 rows by 16), the
four whole-array inputs 3..6 (a 16 by 256 weight, a 1 by 256 bias, a 256 by 5 weight, a 1 by 5 bias), and the
row-blocked output 7 (2048 rows by 5). The body reads every input buffer whole, reads the output buffer (a value it
never uses), and overwrites the output buffer whole with one payload of the seven values read. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there or
    not: where it did not, the block index has not moved since the point before (for the row-blocked windows this case
    never occurs; for the whole-array windows it is every point but the first). This holds for ANY proof data whose
    array is `V`'s and whose body hands the block back as found. No window here is cut at an array edge, none idles. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/
abbrev r2_0 : Rect S2048x256 := Rect.unit (s := S2048x256) ![0, 0] S2048x256.size inb_S2048x256_S2048x256_0_0
abbrev r2_1 : Rect S2048x256 := Rect.unit (s := S2048x256) ![0, 0] S2048x256.size inb_S2048x256_S2048x256_0_0
abbrev r2_2 : Rect S2048x16 := Rect.unit (s := S2048x16) ![0, 0] S2048x16.size inb_S2048x16_S2048x16_0_0
abbrev r2_3 : Rect S16x256 := Rect.unit (s := S16x256) ![0, 0] S16x256.size inb_S16x256_S16x256_0_0
abbrev r2_4 : Rect S1x256 := Rect.unit (s := S1x256) ![0, 0] S1x256.size inb_S1x256_S1x256_0_0
abbrev r2_5 : Rect S256x5 := Rect.unit (s := S256x5) ![0, 0] S256x5.size inb_S256x5_S256x5_0_0
abbrev r2_6 : Rect S1x5 := Rect.unit (s := S1x5) ![0, 0] S1x5.size inb_S1x5_S1x5_0_0
abbrev r2_7 : Rect S2048x5 := Rect.unit (s := S2048x5) ![0, 0] S2048x5.size inb_S2048x5_S2048x5_0_0

/-! ## What the body leaves in the output window's buffer -/

/-- Window 7's staging buffer after the body, from the seven input blocks: its single store, which takes the whole
    buffer, of the payload at the seven values loaded. -/
def out2_7 (x0 x1 : Vec F S2048x256 .f32) (x2 : Vec F S2048x16 .f32) (x3 : Vec F S16x256 .f32) (x4 : Vec F S1x256 .f32)
    (x5 : Vec F S256x5 .f32) (x6 : Vec F S1x5 .f32) : Vec F S2048x5 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store's rectangle is the whole buffer (its cell count is the buffer's), so every index is covered. -/
theorem cover2_7 (p0 : Vec F S2048x5 .f32) (y : S2048x5.Idx) :
    ∃ pc ∈ ([⟨r2_7, p0⟩] : List (View.Piece (Elt F) S2048x5 .f32)), y ∈ pc.1.set :=
  View.cover_of_tiled [⟨r2_7, p0⟩] S2048x5.size (by rfl) y

/-! ## The body's triple -/

set_option maxHeartbeats 1000000 in
/-- The kernel body on whole staging memrefs — the seven inputs' at contents `x0 … x6`, the output's at anything —
    runs to a continuation that holds the inputs' as they were and the output's at `out2_7` of them. The body is a
    straight line of eight whole-buffer loads (the last one of the output buffer itself, whose value is dropped) and
    one whole-buffer store. -/
theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S2048x16 .f32) (harg3 : arg3.IsWhole) (arg4 : Memref sig .tc .vmem S16x256 .f32) (harg4 : arg4.IsWhole)
    (arg5 : Memref sig .tc .vmem S1x256 .f32) (harg5 : arg5.IsWhole) (arg6 : Memref sig .tc .vmem S256x5 .f32) (harg6 : arg6.IsWhole)
    (arg7 : Memref sig .tc .vmem S1x5 .f32) (harg7 : arg7.IsWhole) (arg8 : Memref sig .tc .vmem S2048x5 .f32) (harg8 : arg8.IsWhole)
    (x0 x1 : Vec F S2048x256 .f32) (x2 : Vec F S2048x16 .f32) (x3 : Vec F S16x256 .f32) (x4 : Vec F S1x256 .f32)
    (x5 : Vec F S256x5 .f32) (x6 : Vec F S1x5 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E
          (cc2__edge_mlp_kernel i arg1 harg1 arg2 harg2 arg3 harg3 arg4 harg4 arg5 harg5 arg6 harg6 arg7 harg7 arg8 harg8) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this pipeline on core `c`: the arrays as the region finds them (`V`); after the body at point
    `t` each input's buffer still at its block and the output's at `out2_7` of the seven input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-! What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and each window's current staging
    buffer at its contents before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRunCond.lean ====
/-
  The run of the program's three kernel regions among its host stretches, with every buffer read at the end.

  Between two items of @main a core holds every unscoped buffer whole at a valuation: the launch contents, then each
  host stretch applied, then what each region leaves, at unknowns `outs`.  Given, for each kernel region, a segment
  record entered from the thread state before it and left at the one after it, every weakly fair execution of @main
  terminates, nothing faulting, and in every final memory every unscoped buffer of every core holds the last
  valuation's contents.  The results of @main are read there, and so are the arguments, which no item writes.
-/
import proofs.«156641_j38199439130848_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN. Under the hypotheses of the conditional frame — per region a segment record entered from the thread
    state before it and left at the one after it — every weakly fair execution of @main from memory `m` with zero counters
    terminates, and every final memory holds EVERY unscoped buffer of every core at the last valuation `V6 m outs c`: the
    results of @main among them, and the arguments, which no item writes. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.Kernel.Hand

end
-- ==== Proof.KRun.lean ====
/-
  The three kernel regions of the program as segments of its run, and the run.

  Between two items of @main a core holds every unscoped buffer whole at a valuation.  A kernel region takes the
  buffers behind its windows' arrays out of that state, runs its pipeline over them, and puts them back with each output
  array at what the write-backs of all grid points leave.  The first and the last region hold every array at the
  full share.  The middle region hands ONE array to two windows: the full share of the buffer behind it is cut in
  two halves, one for each window, both at the buffer's entry contents, and the halves are joined again at the exit,
  where an input array still holds what it held.
-/
import proofs.«156641_j38199439130848_1_alg».proof.Proof.KR0
import proofs.«156641_j38199439130848_1_alg».proof.Proof.KR1
import proofs.«156641_j38199439130848_1_alg».proof.Proof.KR2
import proofs.«156641_j38199439130848_1_alg».proof.Proof.KRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Region 0's entry contents, read at the TensorCore's references. -/
abbrev U1 (c : Dev nD) (b : Ref sig .tc) : Buf (Elt F) ((c : Thread nD τ).loc b) := Gen.V1 m c b
/-- After region 0: its two output arrays at what the write-backs of its four points leave. -/
def X2 (c : Dev nD) : Valuation τ sig (Elt F) :=
  Function.update (Function.update (Gen.V1 m c) main_v8_0 ((dat0 (U1 m) c).arrAt 5 cfg0.N)) main_v8_1 ((dat0 (U1 m) c).arrAt 6 cfg0.N)
/-- Region 1's entry contents. -/
abbrev U3 (c : Dev nD) (b : Ref sig .tc) : Buf (Elt F) ((c : Thread nD τ).loc b) := StableHlo.after hostOps1 (X2 m c) b
/-- After region 1: its output array at what the write-backs of its 256 points leave. -/
def X4 (c : Dev nD) : Valuation τ sig (Elt F) :=
  Function.update (StableHlo.after hostOps1 (X2 m c)) main_v27 ((dat1 (U3 m) c).arrAt 2 cfg1.N)
/-- Region 2's entry contents. -/
abbrev U5 (c : Dev nD) (b : Ref sig .tc) : Buf (Elt F) ((c : Thread nD τ).loc b) := StableHlo.after hostOps2 (X4 m c) b
/-- After region 2: its output array at what the write-backs of its 128 points leave. -/
def X6 (c : Dev nD) : Valuation τ sig (Elt F) :=
  Function.update (StableHlo.after hostOps2 (X4 m c)) main_v61 ((dat2 (U5 m) c).arrAt 7 cfg2.N)

/-- What the regions leave, as the unknowns of the generated fold: after item 1 the contents `X2`, after item 3
    `X4`, after item 5 `X6`. -/
def outs : Gen.Outs (F := F) := fun n r c =>
  match n with
  | 2 => X2 m c r
  | 4 => X4 m c r
  | 6 => X6 m c r
  | _ => Gen.V0 m c r

theorem outs2_v8_0 (c : Dev nD) : outs m 2 main_v8_0 c = (dat0 (U1 m) c).arrAt 5 cfg0.N := by
  show X2 m c main_v8_0 = _
  unfold X2
  rw [Function.update_of_ne (StableHlo.devRef_ne_of_ne (by decide)), Function.update_self]
theorem outs2_v8_1 (c : Dev nD) : outs m 2 main_v8_1 c = (dat0 (U1 m) c).arrAt 6 cfg0.N := by
  show X2 m c main_v8_1 = _
  unfold X2
  rw [Function.update_self]

/-- The generated fold at these unknowns is the fold above, item by item. -/
theorem V2_eq (c : Dev nD) : Gen.V2 m (outs m) c = X2 m c := by
  show Function.update (Function.update (Gen.V1 m c) main_v8_0 (outs m 2 main_v8_0 c)) main_v8_1 (outs m 2 main_v8_1 c) = X2 m c
  rw [outs2_v8_0, outs2_v8_1]; rfl
theorem V3_eq (c : Dev nD) : Gen.V3 m (outs m) c = StableHlo.after hostOps1 (X2 m c) := by
  show StableHlo.after hostOps1 (Gen.V2 m (outs m) c) = _
  rw [V2_eq]
theorem outs4_v27 (c : Dev nD) : outs m 4 main_v27 c = (dat1 (U3 m) c).arrAt 2 cfg1.N := by
  show X4 m c main_v27 = _
  unfold X4
  rw [Function.update_self]
theorem V4_eq (c : Dev nD) : Gen.V4 m (outs m) c = X4 m c := by
  show Function.update (Gen.V3 m (outs m) c) main_v27 (outs m 4 main_v27 c) = X4 m c
  rw [outs4_v27, V3_eq]; rfl
theorem V5_eq (c : Dev nD) : Gen.V5 m (outs m) c = StableHlo.after hostOps2 (X4 m c) := by
  show StableHlo.after hostOps2 (Gen.V4 m (outs m) c) = _
  rw [V4_eq]
theorem outs6_v61 (c : Dev nD) : outs m 6 main_v61 c = (dat2 (U5 m) c).arrAt 7 cfg2.N := by
  show X6 m c main_v61 = _
  unfold X6
  rw [Function.update_self]
theorem V6_eq (c : Dev nD) : Gen.V6 m (outs m) c = X6 m c := by
  show Function.update (Gen.V5 m (outs m) c) main_v61 (outs m 6 main_v61 c) = X6 m c
  rw [outs6_v61, V5_eq]; rfl

/-- The contents after each region, read at the TensorCore's references. -/
abbrev U2 (c : Dev nD) (b : Ref sig .tc) : Buf (Elt F) ((c : Thread nD τ).loc b) := Gen.V2 m (outs m) c b
abbrev U4 (c : Dev nD) (b : Ref sig .tc) : Buf (Elt F) ((c : Thread nD τ).loc b) := Gen.V4 m (outs m) c b
abbrev U6 (c : Dev nD) (b : Ref sig .tc) : Buf (Elt F) ((c : Thread nD τ).loc b) := Gen.V6 m (outs m) c b

/-! ## What each region leaves in its arrays, and nothing else -/

/-- Region 0: each output array at the write-backs' result, each input array as entered. -/
theorem hF0 (c : Dev nD) (w : Fin cfg0.W) : (dat0 (U1 m) c).arrAt w cfg0.N = U2 m c (Pipeline.arrRef spec0 w) :=
  match w with
  | ⟨0, _⟩ => (((dat0 (U1 m) c).arrAt_in 0 rfl _).trans (A_eq0 (U1 m) c 0)).trans (Gen.V2_of m (outs m) c main_arg0 (by decide)).symm
  | ⟨1, _⟩ => (((dat0 (U1 m) c).arrAt_in 1 rfl _).trans (A_eq0 (U1 m) c 1)).trans (Gen.V2_of m (outs m) c main_v4 (by decide)).symm
  | ⟨2, _⟩ => (((dat0 (U1 m) c).arrAt_in 2 rfl _).trans (A_eq0 (U1 m) c 2)).trans (Gen.V2_of m (outs m) c main_v6 (by decide)).symm
  | ⟨3, _⟩ => (((dat0 (U1 m) c).arrAt_in 3 rfl _).trans (A_eq0 (U1 m) c 3)).trans (Gen.V2_of m (outs m) c main_v5 (by decide)).symm
  | ⟨4, _⟩ => (((dat0 (U1 m) c).arrAt_in 4 rfl _).trans (A_eq0 (U1 m) c 4)).trans (Gen.V2_of m (outs m) c main_v7 (by decide)).symm
  | ⟨5, _⟩ => (outs2_v8_0 m c).symm.trans (by
      show outs m 2 main_v8_0 c = Function.update (Function.update (Gen.V1 m c) main_v8_0 (outs m 2 main_v8_0 c)) main_v8_1 (outs m 2 main_v8_1 c) main_v8_0
      rw [Function.update_of_ne (StableHlo.devRef_ne_of_ne (by decide)), Function.update_self])
  | ⟨6, _⟩ => (outs2_v8_1 m c).symm.trans (by
      show outs m 2 main_v8_1 c = Function.update (Function.update (Gen.V1 m c) main_v8_0 (outs m 2 main_v8_0 c)) main_v8_1 (outs m 2 main_v8_1 c) main_v8_1
      rw [Function.update_self])
theorem hrest0 (c : Dev nD) : ∀ b, b ∉ Finset.univ.image (Pipeline.arrRef spec0) → U2 m c b = U1 m c b := fun b hb =>
  Gen.V2_of m (outs m) c b (by
    intro hmem
    simp only [List.mem_cons, List.mem_nil_iff, or_false] at hmem
    rcases hmem with rfl | rfl
    · exact hb (Finset.mem_image.mpr ⟨5, Finset.mem_univ _, rfl⟩)
    · exact hb (Finset.mem_image.mpr ⟨6, Finset.mem_univ _, rfl⟩))

/-- Region 1: the output array at the write-backs' result, the shared input array as entered. -/
theorem hF1_in (c : Dev nD) : U4 m c main_v26 = U3 m c main_v26 :=
  (Gen.V4_of m (outs m) c main_v26 (by decide)).trans (congrFun (V3_eq m c) _)
theorem hF1_out (c : Dev nD) : U4 m c main_v27 = (dat1 (U3 m) c).arrAt 2 cfg1.N := by
  show Function.update (Gen.V3 m (outs m) c) main_v27 (outs m 4 main_v27 c) main_v27 = _
  rw [Function.update_self, outs4_v27]
theorem hrest1 (c : Dev nD) : ∀ b, b ∉ Finset.univ.image (Pipeline.arrRef spec1) → U4 m c b = U3 m c b := fun b hb =>
  (Gen.V4_of m (outs m) c b (by
    intro hmem
    simp only [List.mem_cons, List.mem_nil_iff, or_false] at hmem
    subst hmem
    exact hb (Finset.mem_image.mpr ⟨2, Finset.mem_univ _, rfl⟩))).trans (congrFun (V3_eq m c) _)

/-- Region 2: the output array at the write-backs' result, each input array as entered. -/
theorem V6_of_in (c : Dev nD) (r : Ref sig .tc) (h : r ∉ ([main_v61] : List (Ref sig .tc))) : U6 m c r = U5 m c r :=
  (Gen.V6_of m (outs m) c r h).trans (congrFun (V5_eq m c) _)
/-- An input array of region 2, named by its reference: as entered. -/
theorem hF2_in (c : Dev nD) (w : Fin cfg2.W) (r : Ref sig .tc) (hr : Pipeline.arrRef spec2 w = r) (hin : (cfg2.win w).isOut = false)
    (hne : r ∉ ([main_v61] : List (Ref sig .tc))) : (dat2 (U5 m) c).arrAt w cfg2.N = U6 m c (Pipeline.arrRef spec2 w) := by
  subst hr
  exact (((dat2 (U5 m) c).arrAt_in w hin _).trans (A_eq2 (U5 m) c w)).trans (V6_of_in m c _ hne).symm
/-- A valuation updated at a reference, read at a reference equal to it, holds the new contents. -/
theorem update_heq (c : Dev nD) (f : Valuation τ sig (Elt F)) (a : Ref sig .tc) (v : Buf (Elt F) ((c : Thread nD τ).loc a))
    (x : Ref sig .tc) (hx : x = a) : HEq (Function.update f a v x) v := by
  subst hx
  rw [Function.update_self]
theorem hF2_0 (c : Dev nD) : (dat2 (U5 m) c).arrAt 0 cfg2.N = U6 m c (Pipeline.arrRef spec2 0) :=
  hF2_in m c 0 main_v49 rfl rfl (by decide)
theorem hF2_1 (c : Dev nD) : (dat2 (U5 m) c).arrAt 1 cfg2.N = U6 m c (Pipeline.arrRef spec2 1) :=
  hF2_in m c 1 main_v56 rfl rfl (by decide)
theorem hF2_2 (c : Dev nD) : (dat2 (U5 m) c).arrAt 2 cfg2.N = U6 m c (Pipeline.arrRef spec2 2) :=
  hF2_in m c 2 main_v42 rfl rfl (by decide)
theorem hF2_3 (c : Dev nD) : (dat2 (U5 m) c).arrAt 3 cfg2.N = U6 m c (Pipeline.arrRef spec2 3) :=
  hF2_in m c 3 main_v57 rfl rfl (by decide)
theorem hF2_4 (c : Dev nD) : (dat2 (U5 m) c).arrAt 4 cfg2.N = U6 m c (Pipeline.arrRef spec2 4) :=
  hF2_in m c 4 main_v59 rfl rfl (by decide)
theorem hF2_5 (c : Dev nD) : (dat2 (U5 m) c).arrAt 5 cfg2.N = U6 m c (Pipeline.arrRef spec2 5) :=
  hF2_in m c 5 main_v58 rfl rfl (by decide)
theorem hF2_6 (c : Dev nD) : (dat2 (U5 m) c).arrAt 6 cfg2.N = U6 m c (Pipeline.arrRef spec2 6) :=
  hF2_in m c 6 main_v60 rfl rfl (by decide)
theorem hF2_7 (c : Dev nD) : (dat2 (U5 m) c).arrAt 7 cfg2.N = U6 m c (Pipeline.arrRef spec2 7) :=
  (outs6_v61 m c).symm.trans
    (eq_of_heq (update_heq c (Gen.V5 m (outs m) c) main_v61 (outs m 6 main_v61 c) (Pipeline.arrRef spec2 7) rfl)).symm
theorem hF2 (c : Dev nD) (w : Fin cfg2.W) : (dat2 (U5 m) c).arrAt w cfg2.N = U6 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
theorem hrest2 (c : Dev nD) : ∀ b, b ∉ Finset.univ.image (Pipeline.arrRef spec2) → U6 m c b = U5 m c b := fun b hb =>
  V6_of_in m c b (by
    intro hmem
    simp only [List.mem_cons, List.mem_nil_iff, or_false] at hmem
    subst hmem
    exact hb (Finset.mem_image.mpr ⟨7, Finset.mem_univ _, rfl⟩))

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state: entered from every unscoped buffer at the contents before it, left at the contents
    after it. Its arrays are taken out of the unscoped buffers and put back at the exit contents; the generator register
    goes into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- The distinct buffers behind region 1's arrays: the shared input and the output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v26) ↦{fullShare} V main_v26) ∗ (((c : Thread nD τ).loc main_v27) ↦{fullShare} V main_v27)) := by
  unfold Pipeline.arrBufs
  rw [show Finset.univ.image (Pipeline.arrRef spec1) = insert main_v26 {main_v27} from by decide,
    BI.bigSep_insert (by decide), BI.bigSep_singleton]
  rfl

/-- Region 1's arrays at contents `G`, window by window: the shared array's buffer at the left half of the full share
    for window 0 and at the right half for window 1, the output's at the full share. -/
theorem arrays1_eq (c : Dev nD) (G : (w : Fin cfg1.W) → Buf (Elt F) ((cfg1.win w).arr.view.loc (c : Thread nD τ))) :
    ((dat1 (U3 m) c).arrays G : sProp 𝕄)
      = iprop((((c : Thread nD τ).loc main_v26) ↦{fullShare.left} G 0) ∗ (((c : Thread nD τ).loc main_v26) ↦{fullShare.right} G 1)
          ∗ (((c : Thread nD τ).loc main_v27) ↦{fullShare} G 2)) := by
  unfold Pipeline.Dat.arrays
  rw [bigSep_W1, (arr_whole1 0).set_eq_univ, (arr_whole1 2).set_eq_univ, share1_0, share1_1, share1_2]

/-- At the entry every window's array holds the entry contents. -/
theorem arrays1_entry (c : Dev nD) :
    ((dat1 (U3 m) c).arrays ((dat1 (U3 m) c).arrAt · 0) : sProp 𝕄)
      = iprop((((c : Thread nD τ).loc main_v26) ↦{fullShare.left} U3 m c main_v26) ∗ (((c : Thread nD τ).loc main_v26) ↦{fullShare.right} U3 m c main_v26)
          ∗ (((c : Thread nD τ).loc main_v27) ↦{fullShare} U3 m c main_v27)) := by
  have hA0 : (dat1 (U3 m) c).arrAt 0 0 = U3 m c main_v26 := A_eq1 (U3 m) c 0
  have hA1 : (dat1 (U3 m) c).arrAt 1 0 = U3 m c main_v26 := A_eq1 (U3 m) c 1
  have hA2 : (dat1 (U3 m) c).arrAt 2 0 = U3 m c main_v27 := A_eq1 (U3 m) c 2
  rw [arrays1_eq, hA0, hA1, hA2]

/-- At the exit the two input windows' array still holds the entry contents, the output's what the write-backs left. -/
theorem arrays1_exit (c : Dev nD) :
    ((dat1 (U3 m) c).arrays ((dat1 (U3 m) c).arrAt · cfg1.N) : sProp 𝕄)
      = iprop((((c : Thread nD τ).loc main_v26) ↦{fullShare.left} U3 m c main_v26) ∗ (((c : Thread nD τ).loc main_v26) ↦{fullShare.right} U3 m c main_v26)
          ∗ (((c : Thread nD τ).loc main_v27) ↦{fullShare} (dat1 (U3 m) c).arrAt 2 cfg1.N)) := by
  have hX0 : (dat1 (U3 m) c).arrAt 0 cfg1.N = U3 m c main_v26 := ((dat1 (U3 m) c).arrAt_in 0 rfl _).trans (A_eq1 (U3 m) c 0)
  have hX1 : (dat1 (U3 m) c).arrAt 1 cfg1.N = U3 m c main_v26 := ((dat1 (U3 m) c).arrAt_in 1 rfl _).trans (A_eq1 (U3 m) c 1)
  rw [arrays1_eq, hX0, hX1]

/-- A core's unscoped buffers at a valuation: the two buffers behind region 1's arrays, and the rest. -/
theorem held_split1 (c : Dev nD) (W : Valuation τ sig (Elt F)) :
    (StableHlo.held (c : Thread nD τ) (Pipeline.ucRefs τ sig) W : sProp 𝕄)
      = iprop(((((c : Thread nD τ).loc main_v26) ↦{fullShare} W main_v26) ∗ (((c : Thread nD τ).loc main_v27) ↦{fullShare} W main_v27))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.unscopedBufs_split₀ cfgs 1 winFacts₀1.arr_unscoped c _]
  show iprop((Pipeline.arrBufs (Ix := Unit) (Name := ℕ) (U := UR sig nD τ) (Lvl := ℕ) spec1 c (fun b => W b) : sProp 𝕄)
      ∗ Pipeline.unscopedRest (Ix := Unit) (Name := ℕ) (U := UR sig nD τ) (Lvl := ℕ) spec1 c (fun b => W b)) = _
  rw [arrBufs1_eq]

-- a library lemma stated over the pinned configuration unifies with the printed one only when unification may unfold
-- plain definitions in a metavariable's type
set_option backward.isDefEq.respectTransparency.types false in
/-- REGION 1 over the thread state. The buffer behind the shared input array is held whole at the full share on entry;
    the share is cut into its two halves, one per window, both at the entry contents. At the exit each half still holds
    the entry contents (an input array is never written), the halves are joined, and the output array's buffer holds what
    the write-backs left. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none, V3_eq, held_split1]
    show iprop((iprop(iprop((((c : Thread nD τ).loc main_v26) ↦{fullShare} U3 m c main_v26) ∗ (((c : Thread nD τ).loc main_v27) ↦{fullShare} U3 m c main_v27))
          ∗ Pipeline.unscopedRest (Ix := Unit) (Name := ℕ) (U := UR sig nD τ) (Lvl := ℕ) spec1 c (U3 m c)) ∗ R c) ∗ BI.emp ∗ levAts L lv)
      ⊢ |={Set.univ}=> iprop((pdats m 1 c).arrays ((pdats m 1 c).arrAt · 0) ∗ Pipeline.prefHeld (pcfgs (F := F) 1).pre c (fun _ => fullShare) (adm (F := F) 1).1
          ∗ (pdats m 1 c).owesAt () 0 ∗ iprop(∃ r, prngReg c r)
          ∗ Pipeline.unscopedRest (Ix := Unit) (Name := ℕ) (U := UR sig nD τ) (Lvl := ℕ) spec1 c (U3 m c))
    rw [show (pdats m 1 c).arrays ((pdats m 1 c).arrAt · 0) = (dat1 (U3 m) c).arrays ((dat1 (U3 m) c).arrAt · 0) from rfl, arrays1_entry]
    have hsp : ((((c : Thread nD τ).loc main_v26) ↦{fullShare} U3 m c main_v26) : sProp 𝕄)
        ⊣⊢ iprop((((c : Thread nD τ).loc main_v26) ↦{fullShare.left} U3 m c main_v26) ∗ (((c : Thread nD τ).loc main_v26) ↦{fullShare.right} U3 m c main_v26)) :=
      Idealize.ShloMosaic.pointsTo_share (PosShare.mem_left_op_right fullShare)
    iintro ⟨⟨⟨⟨H26, H27⟩, Hrest⟩, Hp, HO⟩, -, -⟩
    have hsp1 := hsp.1
    ihave H := hsp1 $$ H26
    icases H with ⟨Hl, Hr⟩
    imodintro
    isplitl [Hl Hr H27]
    · isplitl [Hl]; · iexact Hl
      isplitl [Hr]; · iexact Hr
      iexact H27
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_split1]
    have hrestx : (Pipeline.unscopedRest (Ix := Unit) (Name := ℕ) (U := UR sig nD τ) (Lvl := ℕ) spec1 c (fun b => Gen.V4 m (outs m) c b) : sProp 𝕄)
        = Pipeline.unscopedRest (Ix := Unit) (Name := ℕ) (U := UR sig nD τ) (Lvl := ℕ) spec1 c (U3 m c) := by
      unfold Pipeline.unscopedRest
      exact bigSep_congr fun b hb => by dsimp only; rw [show Gen.V4 m (outs m) c b = U3 m c b from hrest1 m c b (Finset.mem_sdiff.mp hb).2]
    rw [hrestx, show Gen.V4 m (outs m) c main_v26 = U3 m c main_v26 from hF1_in m c,
      show Gen.V4 m (outs m) c main_v27 = (dat1 (U3 m) c).arrAt 2 cfg1.N from hF1_out m c,
      show (pdats m 1 c).arrays ((pdats m 1 c).arrAt · (Pipeline.pin (pcfgs (F := F)) adm 1).N) = (dat1 (U3 m) c).arrays ((dat1 (U3 m) c).arrAt · cfg1.N) from rfl,
      arrays1_exit]
    have hsp : ((((c : Thread nD τ).loc main_v26) ↦{fullShare} U3 m c main_v26) : sProp 𝕄)
        ⊣⊢ iprop((((c : Thread nD τ).loc main_v26) ↦{fullShare.left} U3 m c main_v26) ∗ (((c : Thread nD τ).loc main_v26) ↦{fullShare.right} U3 m c main_v26)) :=
      Idealize.ShloMosaic.pointsTo_share (PosShare.mem_left_op_right fullShare)
    iintro ⟨⟨Hl, Hr, H27⟩, HO, HY, Hrest⟩
    have hsp2 := hsp.2
    ihave H26 := hsp2 $$ [Hl Hr]
    · isplitl [Hl]; · iexact Hl
      iexact Hr
    imodintro
    isplitl [H26 H27 Hrest]
    · isplitl [H26 H27]
      · isplitl [H26]; · iexact H26
        iexact H27
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at the contents before it, left at the contents
    after it. Its arrays are taken out of the unscoped buffers and put back at the exit contents; the generator register
    goes into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame and the run -/

/-- The launch's ghost element is the pipeline library's; no further ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's generator register is at its launch state and the core owes nothing: what rides along. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  have hR : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ R (F := F) c := fun c => by
    iintro ⟨-, HO, -, Hp, -⟩
    isplitl [Hp]; · iexists _; iexact Hp
    iexists ∅; iexact HO
  have hall : ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) : sProp 𝕄)
      ⊢ bigSep Finset.univ (fun c : Dev nD => R (F := F) c) := bigSep_mono fun c _ => hR c
  iintro ⟨H, -⟩
  imodintro
  iapply hall
  iexact H

theorem hE3 (c : Dev nD) : R (F := F) c ⊢ (iprop(∃ W, owes (c : Thread nD τ) (0 : CellTallies nD τ sig Unit) W) : sProp 𝕄) := by
  iintro ⟨-, H⟩; iexact H

/-- THE FRAME: from any memory with zero counters every weakly fair execution of @main terminates, nothing faulting,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) (fun _ => 0) (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

/-- THE RUN: the same executions end with every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) :=
  run_cond m emb₁ () 𝒱₀ L lv (fun _ _ => rfl) ρ (outs m) (pdats m) (fun _ => 0) (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

end Cert.Kernel.Hand

end
-- ==== Proof.KIR0.lean ====
/- The first kernel region of the program, at a parameter `V`: the contents of the core's buffers when the
   region is entered. The kernel reads a block of 1024 rows of the activations and the four parameter arrays
   whole, and writes a block of 1024 rows of each of its two results. This module states, for that region, the
   block each window holds at a grid point, what the kernel body leaves in the two result buffers as a function
   of the five blocks it read, the body's triple, and the pipeline's proof data with its body obligation. -/
import proofs.«156641_j38199439130848_1_alg».proof.Proof.Gen.KernelIdeal.Launch
import proofs.«156641_j38199439130848_1_alg».proof.Proof.Gen.KernelIdeal.Skeleton
import proofs.«156641_j38199439130848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, whether the pipeline
    fetched it at that point (window 0, whose block moves with the point) or left it in place since the first
    point (windows 1 to 4, whose block is the whole array at every point): for ANY proof data whose array is
    `V`'s and whose body leaves the block where it was. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S256x144 := Rect.unit (s := S256x144) ![0, 0] S256x144.size inb_S256x144_S256x144_0_0
abbrev r0_4 : Rect S1x144 := Rect.unit (s := S1x144) ![0, 0] S1x144.size inb_S1x144_S1x144_0_0
abbrev r0_5 : Rect S1024x144 := Rect.unit (s := S1024x144) ![0, 0] S1024x144.size inb_S1024x144_S1024x144_0_0

/-! ## What the body leaves in each output window's buffer -/

/-- Window 5's buffer after the body, from the blocks of windows 0, 1, 2: its one store, of the gated
    activation of the block. -/
def out0_5 (x0 : Vec F S1024x256 .f32) (x1 : Vec F S256x256 .f32) (x2 : Vec F S1x256 .f32) : Vec F S1024x256 .f32 :=
  View.canon [⟨r0_0, k0_pay1 (View.ld x0 r0_0) (View.ld x1 r0_1) (View.ld x2 r0_2)⟩]

/-- Window 6's buffer after the body, from the blocks of the five input windows: its one store, of the second
    affine layer applied to the gated activation. -/
def out0_6 (x0 : Vec F S1024x256 .f32) (x1 : Vec F S256x256 .f32) (x2 : Vec F S1x256 .f32) (x3 : Vec F S256x144 .f32) (x4 : Vec F S1x144 .f32) : Vec F S1024x144 .f32 :=
  View.canon [⟨r0_5, k0_pay2 (View.ld x0 r0_0) (View.ld x1 r0_1) (View.ld x2 r0_2) (View.ld x3 r0_3) (View.ld x4 r0_4)⟩]

/-- The one store into window 5's buffer is of the whole buffer, so it covers it. -/
theorem cover0_5 (p0 : Vec F S1024x256 .f32) (y : S1024x256.Idx) :
    ∃ pc ∈ ([⟨r0_0, p0⟩] : List (View.Piece (Elt F) S1024x256 .f32)), y ∈ pc.1.set :=
  View.cover_of_tiled [⟨r0_0, p0⟩] S1024x256.size (by rfl) y

/-- The one store into window 6's buffer is of the whole buffer, so it covers it. -/
theorem cover0_6 (p0 : Vec F S1024x144 .f32) (y : S1024x144.Idx) :
    ∃ pc ∈ ([⟨r0_5, p0⟩] : List (View.Piece (Elt F) S1024x144 .f32)), y ∈ pc.1.set :=
  View.cover_of_tiled [⟨r0_5, p0⟩] S1024x144.size (by rfl) y

/-! ## The body's triple -/

set_option maxHeartbeats 1000000 in
/-- The kernel body on whole staging buffers, the five inputs' at read contents `xW` and the two outputs' at
    anything, runs to the continuation holding the inputs' as they were and each output's at `out0_W` of the
    inputs'. The body reads each output buffer once before it overwrites it; what it read is used nowhere. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x144 .f32) (harg4 : arg4.IsWhole)
    (arg5 : Memref sig .tc .vmem S1x144 .f32) (harg5 : arg5.IsWhole) (arg6 : Memref sig .tc .vmem S1024x256 .f32) (harg6 : arg6.IsWhole)
    (arg7 : Memref sig .tc .vmem S1024x144 .f32) (harg7 : arg7.IsWhole)
    (x0 : Vec F S1024x256 .f32) (x1 : Vec F S256x256 .f32) (x2 : Vec F S1x256 .f32) (x3 : Vec F S256x144 .f32) (x4 : Vec F S1x144 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__shared_atoms_kernel i arg1 harg1 arg2 harg2 arg3 harg3 arg4 harg4 arg5 harg5 arg6 harg6 arg7 harg7) K := by
  simp only [cc0__shared_atoms_kernel_eq_skeleton]; unfold cc0__shared_atoms_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the region's pipeline on core `c`: the arrays as the region finds them (`V`); after the
    body at point `t` each input's buffer at its block and each output's at `out0_W` of the input blocks; the
    invariant is the untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR1.lean ====
/-
  Region 1 of the program: the kernel that symmetrises a channel-first stack of square matrices, block by block.
  At grid point (ib, jb) it reads block (0, ib, jb) and block (0, jb, ib) of ONE array and writes, to block
  (0, ib, jb) of another, half the sum of the first and the transpose (in the last two axes) of the second.

  This module is the region's resource half, at any float model: the blocks the two input windows hold at a point,
  the body's triple (two loads, one unused load of the output buffer, one store of the whole buffer), the pipeline's
  proof data and its body obligation. Because the two input windows read one array, the proof data holds that array's
  full share dealt in two: the left half for the first window, the right half for the second.
-/
import proofs.«156641_j38199439130848_1_alg».proof.Proof.Gen.KernelIdeal.Launch
import proofs.«156641_j38199439130848_1_alg».proof.Proof.Gen.KernelIdeal.Skeleton
import proofs.«156641_j38199439130848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the symmetrising kernel, on a 16 x 16 grid of 16 x 256 x 256 blocks

Both input windows stage the SAME array, at transposed block positions; the output window stages another.
The proof data therefore deals the full share of the common array between the two input windows
(its left and right halves), so that the two separately conjoined input resources add up to the whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is `V`'s and whose body leaves the block in place: the window is uncut, never idle, and fetched
    at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the transposed block of the same array). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 16 x 256 x 256 buffer as one rectangle: every load and the one store of the body use it. -/
abbrev r1_0 : Rect S16x256x256 := Rect.unit (s := S16x256x256) ![0, 0, 0] S16x256x256.size inb_S16x256x256_S16x256x256_0_0_0

/-! ## What the body leaves in the output window's buffer -/

/-- Window 2's staging buffer after the body, from the two input blocks: its one store, as a piece. -/
def out1_2 (x0 x1 : Vec F S16x256x256 .f32) : Vec F S16x256x256 .f32 :=
  View.canon [⟨r1_0, k1_pay1 (View.ld x0 r1_0) (View.ld x1 r1_0)⟩]

/-- The one store is of the whole buffer, so it covers it. -/
theorem cover1_2 (p0 : Vec F S16x256x256 .f32) (y : S16x256x256.Idx) :
    ∃ pc ∈ ([⟨r1_0, p0⟩] : List (View.Piece (Elt F) S16x256x256 .f32)), y ∈ pc.1.set :=
  View.cover_of_tiled [⟨r1_0, p0⟩] S16x256x256.size (by rfl) y

/-! ## The body's triple -/

set_option maxHeartbeats 1000000 in
/-- The kernel body on whole staging memrefs, the two inputs' at read contents `x0`, `x1` and the output's at
    anything, runs to the continuation holding the inputs' as they were and the output's at `out1_2` of the
    inputs'. The body reads the output buffer once (a value it never uses) before its one store; that load needs
    only that the buffer is held. -/
theorem sound_kernel1 (c : Dev nD) (E : Set ℕ) (i : grid1.Coords)
    (arg2 : Memref sig .tc .vmem S16x256x256 .f32) (harg2 : arg2.IsWhole)
    (arg3 : Memref sig .tc .vmem S16x256x256 .f32) (harg3 : arg3.IsWhole)
    (arg4 : Memref sig .tc .vmem S16x256x256 .f32) (harg4 : arg4.IsWhole)
    (x0 x1 : Vec F S16x256x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__symmetrize_cf_kernel i arg2 harg2 arg3 harg3 arg4 harg4) K := by
  simp only [cc1__symmetrize_cf_kernel_eq_skeleton]; unfold cc1__symmetrize_cf_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the two input blocks; the
    invariant is the scoped rest and the generator register, untouched; nothing owed. The two input windows
    read ONE array, so each holds half of the full share of it (the left half, the right half: together the
    whole); the output's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares the core holds the three windows' arrays at: the two halves for the inputs, the whole for the output. -/
theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KIR2.lean ====
/- Region 2 of the program: the edge head's pipeline (128 points, blocks of 2048 rows). For the pipeline's proof data
   at any entry contents `V`: each window's block at a point, what the body leaves in the output buffer, the body's
   triple, and the body obligation at every point. Generic in the float interpretation. -/
import proofs.«156641_j38199439130848_1_alg».proof.Proof.Gen.KernelIdeal.Launch
import proofs.«156641_j38199439130848_1_alg».proof.Proof.Gen.KernelIdeal.Skeleton
import proofs.«156641_j38199439130848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The third kernel region (the edge head), at the contents `V` its pipeline finds on entry

Eight windows: the row-blocked inputs 0, 1, 2 (two feature blocks of 2048 rows by 256 and one of 2048 rows by 16), the
four whole-array inputs 3..6 (a 16 by 256 weight, a 1 by 256 bias, a 256 by 5 weight, a 1 by 5 bias), and the
row-blocked output 7 (2048 rows by 5). The body reads every input buffer whole, reads the output buffer (a value it
never uses), and overwrites the output buffer whole with one payload of the seven values read. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there or
    not: where it did not, the block index has not moved since the point before (for the row-blocked windows this case
    never occurs; for the whole-array windows it is every point but the first). This holds for ANY proof data whose
    array is `V`'s and whose body hands the block back as found. No window here is cut at an array edge, none idles. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/
abbrev r2_0 : Rect S2048x256 := Rect.unit (s := S2048x256) ![0, 0] S2048x256.size inb_S2048x256_S2048x256_0_0
abbrev r2_1 : Rect S2048x256 := Rect.unit (s := S2048x256) ![0, 0] S2048x256.size inb_S2048x256_S2048x256_0_0
abbrev r2_2 : Rect S2048x16 := Rect.unit (s := S2048x16) ![0, 0] S2048x16.size inb_S2048x16_S2048x16_0_0
abbrev r2_3 : Rect S16x256 := Rect.unit (s := S16x256) ![0, 0] S16x256.size inb_S16x256_S16x256_0_0
abbrev r2_4 : Rect S1x256 := Rect.unit (s := S1x256) ![0, 0] S1x256.size inb_S1x256_S1x256_0_0
abbrev r2_5 : Rect S256x5 := Rect.unit (s := S256x5) ![0, 0] S256x5.size inb_S256x5_S256x5_0_0
abbrev r2_6 : Rect S1x5 := Rect.unit (s := S1x5) ![0, 0] S1x5.size inb_S1x5_S1x5_0_0
abbrev r2_7 : Rect S2048x5 := Rect.unit (s := S2048x5) ![0, 0] S2048x5.size inb_S2048x5_S2048x5_0_0

/-! ## What the body leaves in the output window's buffer -/

/-- Window 7's staging buffer after the body, from the seven input blocks: its single store, which takes the whole
    buffer, of the payload at the seven values loaded. -/
def out2_7 (x0 x1 : Vec F S2048x256 .f32) (x2 : Vec F S2048x16 .f32) (x3 : Vec F S16x256 .f32) (x4 : Vec F S1x256 .f32)
    (x5 : Vec F S256x5 .f32) (x6 : Vec F S1x5 .f32) : Vec F S2048x5 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store's rectangle is the whole buffer (its cell count is the buffer's), so every index is covered. -/
theorem cover2_7 (p0 : Vec F S2048x5 .f32) (y : S2048x5.Idx) :
    ∃ pc ∈ ([⟨r2_7, p0⟩] : List (View.Piece (Elt F) S2048x5 .f32)), y ∈ pc.1.set :=
  View.cover_of_tiled [⟨r2_7, p0⟩] S2048x5.size (by rfl) y

/-! ## The body's triple -/

set_option maxHeartbeats 1000000 in
/-- The kernel body on whole staging memrefs — the seven inputs' at contents `x0 … x6`, the output's at anything —
    runs to a continuation that holds the inputs' as they were and the output's at `out2_7` of them. The body is a
    straight line of eight whole-buffer loads (the last one of the output buffer itself, whose value is dropped) and
    one whole-buffer store. -/
theorem sound_kernel2 (c : Dev nD) (E : Set ℕ) (i : grid2.Coords)
    (arg1 : Memref sig .tc .vmem S2048x256 .f32) (harg1 : arg1.IsWhole) (arg2 : Memref sig .tc .vmem S2048x256 .f32) (harg2 : arg2.IsWhole)
    (arg3 : Memref sig .tc .vmem S2048x16 .f32) (harg3 : arg3.IsWhole) (arg4 : Memref sig .tc .vmem S16x256 .f32) (harg4 : arg4.IsWhole)
    (arg5 : Memref sig .tc .vmem S1x256 .f32) (harg5 : arg5.IsWhole) (arg6 : Memref sig .tc .vmem S256x5 .f32) (harg6 : arg6.IsWhole)
    (arg7 : Memref sig .tc .vmem S1x5 .f32) (harg7 : arg7.IsWhole) (arg8 : Memref sig .tc .vmem S2048x5 .f32) (harg8 : arg8.IsWhole)
    (x0 x1 : Vec F S2048x256 .f32) (x2 : Vec F S2048x16 .f32) (x3 : Vec F S16x256 .f32) (x4 : Vec F S1x256 .f32)
    (x5 : Vec F S256x5 .f32) (x6 : Vec F S1x5 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E
          (cc2__edge_mlp_kernel i arg1 harg1 arg2 harg2 arg3 harg3 arg4 harg4 arg5 harg5 arg6 harg6 arg7 harg7 arg8 harg8) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this pipeline on core `c`: the arrays as the region finds them (`V`); after the body at point
    `t` each input's buffer still at its block and the output's at `out2_7` of the seven input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-! What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and each window's current staging
    buffer at its contents before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRunCond.lean ====
/-
  The run of the program's three kernel regions among its host stretches, with every buffer read at the end.

  Between two items of @main a core holds every unscoped buffer whole at a valuation: the launch contents, then each
  host stretch applied, then what each region leaves, at unknowns `outs`.  Given, for each kernel region, a segment
  record entered from the thread state before it and left at the one after it, every weakly fair execution of @main
  terminates, nothing faulting, and in every final memory every unscoped buffer of every core holds the last
  valuation's contents.  The results of @main are read there, and so are the arguments, which no item writes.
-/
import proofs.«156641_j38199439130848_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN. Under the hypotheses of the conditional frame — per region a segment record entered from the thread
    state before it and left at the one after it — every weakly fair execution of @main from memory `m` with zero counters
    terminates, and every final memory holds EVERY unscoped buffer of every core at the last valuation `V6 m outs c`: the
    results of @main among them, and the arguments, which no item writes. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V6 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

end Cert.KernelIdeal.Hand

end
-- ==== Proof.KIRun.lean ====
/-
  The three kernel regions of the program as segments of its run, and the run.

  Between two items of @main a core holds every unscoped buffer whole at a valuation.  A kernel region takes the
  buffers behind its windows' arrays out of that state, runs its pipeline over them, and puts them back with each output
  array at what the write-backs of all grid points leave.  The first and the last region hold every array at the
  full share.  The middle region hands ONE array to two windows: the full share of the buffer behind it is cut in
  two halves, one for each window, both at the buffer's entry contents, and the halves are joined again at the exit,
  where an input array still holds what it held.
-/
import proofs.«156641_j38199439130848_1_alg».proof.Proof.KIR0
import proofs.«156641_j38199439130848_1_alg».proof.Proof.KIR1
import proofs.«156641_j38199439130848_1_alg».proof.Proof.KIR2
import proofs.«156641_j38199439130848_1_alg».proof.Proof.KIRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Region 0's entry contents, read at the TensorCore's references. -/
abbrev U1 (c : Dev nD) (b : Ref sig .tc) : Buf (Elt F) ((c : Thread nD τ).loc b) := Gen.V1 m c b
/-- After region 0: its two output arrays at what the write-backs of its four points leave. -/
def X2 (c : Dev nD) : Valuation τ sig (Elt F) :=
  Function.update (Function.update (Gen.V1 m c) main_v8_0 ((dat0 (U1 m) c).arrAt 5 cfg0.N)) main_v8_1 ((dat0 (U1 m) c).arrAt 6 cfg0.N)
/-- Region 1's entry contents. -/
abbrev U3 (c : Dev nD) (b : Ref sig .tc) : Buf (Elt F) ((c : Thread nD τ).loc b) := StableHlo.after hostOps1 (X2 m c) b
/-- After region 1: its output array at what the write-backs of its 256 points leave. -/
def X4 (c : Dev nD) : Valuation τ sig (Elt F) :=
  Function.update (StableHlo.after hostOps1 (X2 m c)) main_v27 ((dat1 (U3 m) c).arrAt 2 cfg1.N)
/-- Region 2's entry contents. -/
abbrev U5 (c : Dev nD) (b : Ref sig .tc) : Buf (Elt F) ((c : Thread nD τ).loc b) := StableHlo.after hostOps2 (X4 m c) b
/-- After region 2: its output array at what the write-backs of its 128 points leave. -/
def X6 (c : Dev nD) : Valuation τ sig (Elt F) :=
  Function.update (StableHlo.after hostOps2 (X4 m c)) main_v61 ((dat2 (U5 m) c).arrAt 7 cfg2.N)

/-- What the regions leave, as the unknowns of the generated fold: after item 1 the contents `X2`, after item 3
    `X4`, after item 5 `X6`. -/
def outs : Gen.Outs (F := F) := fun n r c =>
  match n with
  | 2 => X2 m c r
  | 4 => X4 m c r
  | 6 => X6 m c r
  | _ => Gen.V0 m c r

theorem outs2_v8_0 (c : Dev nD) : outs m 2 main_v8_0 c = (dat0 (U1 m) c).arrAt 5 cfg0.N := by
  show X2 m c main_v8_0 = _
  unfold X2
  rw [Function.update_of_ne (StableHlo.devRef_ne_of_ne (by decide)), Function.update_self]
theorem outs2_v8_1 (c : Dev nD) : outs m 2 main_v8_1 c = (dat0 (U1 m) c).arrAt 6 cfg0.N := by
  show X2 m c main_v8_1 = _
  unfold X2
  rw [Function.update_self]

/-- The generated fold at these unknowns is the fold above, item by item. -/
theorem V2_eq (c : Dev nD) : Gen.V2 m (outs m) c = X2 m c := by
  show Function.update (Function.update (Gen.V1 m c) main_v8_0 (outs m 2 main_v8_0 c)) main_v8_1 (outs m 2 main_v8_1 c) = X2 m c
  rw [outs2_v8_0, outs2_v8_1]; rfl
theorem V3_eq (c : Dev nD) : Gen.V3 m (outs m) c = StableHlo.after hostOps1 (X2 m c) := by
  show StableHlo.after hostOps1 (Gen.V2 m (outs m) c) = _
  rw [V2_eq]
theorem outs4_v27 (c : Dev nD) : outs m 4 main_v27 c = (dat1 (U3 m) c).arrAt 2 cfg1.N := by
  show X4 m c main_v27 = _
  unfold X4
  rw [Function.update_self]
theorem V4_eq (c : Dev nD) : Gen.V4 m (outs m) c = X4 m c := by
  show Function.update (Gen.V3 m (outs m) c) main_v27 (outs m 4 main_v27 c) = X4 m c
  rw [outs4_v27, V3_eq]; rfl
theorem V5_eq (c : Dev nD) : Gen.V5 m (outs m) c = StableHlo.after hostOps2 (X4 m c) := by
  show StableHlo.after hostOps2 (Gen.V4 m (outs m) c) = _
  rw [V4_eq]
theorem outs6_v61 (c : Dev nD) : outs m 6 main_v61 c = (dat2 (U5 m) c).arrAt 7 cfg2.N := by
  show X6 m c main_v61 = _
  unfold X6
  rw [Function.update_self]
theorem V6_eq (c : Dev nD) : Gen.V6 m (outs m) c = X6 m c := by
  show Function.update (Gen.V5 m (outs m) c) main_v61 (outs m 6 main_v61 c) = X6 m c
  rw [outs6_v61, V5_eq]; rfl

/-- The contents after each region, read at the TensorCore's references. -/
abbrev U2 (c : Dev nD) (b : Ref sig .tc) : Buf (Elt F) ((c : Thread nD τ).loc b) := Gen.V2 m (outs m) c b
abbrev U4 (c : Dev nD) (b : Ref sig .tc) : Buf (Elt F) ((c : Thread nD τ).loc b) := Gen.V4 m (outs m) c b
abbrev U6 (c : Dev nD) (b : Ref sig .tc) : Buf (Elt F) ((c : Thread nD τ).loc b) := Gen.V6 m (outs m) c b

/-! ## What each region leaves in its arrays, and nothing else -/

/-- Region 0: each output array at the write-backs' result, each input array as entered. -/
theorem hF0 (c : Dev nD) (w : Fin cfg0.W) : (dat0 (U1 m) c).arrAt w cfg0.N = U2 m c (Pipeline.arrRef spec0 w) :=
  match w with
  | ⟨0, _⟩ => (((dat0 (U1 m) c).arrAt_in 0 rfl _).trans (A_eq0 (U1 m) c 0)).trans (Gen.V2_of m (outs m) c main_arg0 (by decide)).symm
  | ⟨1, _⟩ => (((dat0 (U1 m) c).arrAt_in 1 rfl _).trans (A_eq0 (U1 m) c 1)).trans (Gen.V2_of m (outs m) c main_v4 (by decide)).symm
  | ⟨2, _⟩ => (((dat0 (U1 m) c).arrAt_in 2 rfl _).trans (A_eq0 (U1 m) c 2)).trans (Gen.V2_of m (outs m) c main_v6 (by decide)).symm
  | ⟨3, _⟩ => (((dat0 (U1 m) c).arrAt_in 3 rfl _).trans (A_eq0 (U1 m) c 3)).trans (Gen.V2_of m (outs m) c main_v5 (by decide)).symm
  | ⟨4, _⟩ => (((dat0 (U1 m) c).arrAt_in 4 rfl _).trans (A_eq0 (U1 m) c 4)).trans (Gen.V2_of m (outs m) c main_v7 (by decide)).symm
  | ⟨5, _⟩ => (outs2_v8_0 m c).symm.trans (by
      show outs m 2 main_v8_0 c = Function.update (Function.update (Gen.V1 m c) main_v8_0 (outs m 2 main_v8_0 c)) main_v8_1 (outs m 2 main_v8_1 c) main_v8_0
      rw [Function.update_of_ne (StableHlo.devRef_ne_of_ne (by decide)), Function.update_self])
  | ⟨6, _⟩ => (outs2_v8_1 m c).symm.trans (by
      show outs m 2 main_v8_1 c = Function.update (Function.update (Gen.V1 m c) main_v8_0 (outs m 2 main_v8_0 c)) main_v8_1 (outs m 2 main_v8_1 c) main_v8_1
      rw [Function.update_self])
theorem hrest0 (c : Dev nD) : ∀ b, b ∉ Finset.univ.image (Pipeline.arrRef spec0) → U2 m c b = U1 m c b := fun b hb =>
  Gen.V2_of m (outs m) c b (by
    intro hmem
    simp only [List.mem_cons, List.mem_nil_iff, or_false] at hmem
    rcases hmem with rfl | rfl
    · exact hb (Finset.mem_image.mpr ⟨5, Finset.mem_univ _, rfl⟩)
    · exact hb (Finset.mem_image.mpr ⟨6, Finset.mem_univ _, rfl⟩))

/-- Region 1: the output array at the write-backs' result, the shared input array as entered. -/
theorem hF1_in (c : Dev nD) : U4 m c main_v26 = U3 m c main_v26 :=
  (Gen.V4_of m (outs m) c main_v26 (by decide)).trans (congrFun (V3_eq m c) _)
theorem hF1_out (c : Dev nD) : U4 m c main_v27 = (dat1 (U3 m) c).arrAt 2 cfg1.N := by
  show Function.update (Gen.V3 m (outs m) c) main_v27 (outs m 4 main_v27 c) main_v27 = _
  rw [Function.update_self, outs4_v27]
theorem hrest1 (c : Dev nD) : ∀ b, b ∉ Finset.univ.image (Pipeline.arrRef spec1) → U4 m c b = U3 m c b := fun b hb =>
  (Gen.V4_of m (outs m) c b (by
    intro hmem
    simp only [List.mem_cons, List.mem_nil_iff, or_false] at hmem
    subst hmem
    exact hb (Finset.mem_image.mpr ⟨2, Finset.mem_univ _, rfl⟩))).trans (congrFun (V3_eq m c) _)

/-- Region 2: the output array at the write-backs' result, each input array as entered. -/
theorem V6_of_in (c : Dev nD) (r : Ref sig .tc) (h : r ∉ ([main_v61] : List (Ref sig .tc))) : U6 m c r = U5 m c r :=
  (Gen.V6_of m (outs m) c r h).trans (congrFun (V5_eq m c) _)
/-- An input array of region 2, named by its reference: as entered. -/
theorem hF2_in (c : Dev nD) (w : Fin cfg2.W) (r : Ref sig .tc) (hr : Pipeline.arrRef spec2 w = r) (hin : (cfg2.win w).isOut = false)
    (hne : r ∉ ([main_v61] : List (Ref sig .tc))) : (dat2 (U5 m) c).arrAt w cfg2.N = U6 m c (Pipeline.arrRef spec2 w) := by
  subst hr
  exact (((dat2 (U5 m) c).arrAt_in w hin _).trans (A_eq2 (U5 m) c w)).trans (V6_of_in m c _ hne).symm
/-- A valuation updated at a reference, read at a reference equal to it, holds the new contents. -/
theorem update_heq (c : Dev nD) (f : Valuation τ sig (Elt F)) (a : Ref sig .tc) (v : Buf (Elt F) ((c : Thread nD τ).loc a))
    (x : Ref sig .tc) (hx : x = a) : HEq (Function.update f a v x) v := by
  subst hx
  rw [Function.update_self]
theorem hF2_0 (c : Dev nD) : (dat2 (U5 m) c).arrAt 0 cfg2.N = U6 m c (Pipeline.arrRef spec2 0) :=
  hF2_in m c 0 main_v49 rfl rfl (by decide)
theorem hF2_1 (c : Dev nD) : (dat2 (U5 m) c).arrAt 1 cfg2.N = U6 m c (Pipeline.arrRef spec2 1) :=
  hF2_in m c 1 main_v56 rfl rfl (by decide)
theorem hF2_2 (c : Dev nD) : (dat2 (U5 m) c).arrAt 2 cfg2.N = U6 m c (Pipeline.arrRef spec2 2) :=
  hF2_in m c 2 main_v42 rfl rfl (by decide)
theorem hF2_3 (c : Dev nD) : (dat2 (U5 m) c).arrAt 3 cfg2.N = U6 m c (Pipeline.arrRef spec2 3) :=
  hF2_in m c 3 main_v57 rfl rfl (by decide)
theorem hF2_4 (c : Dev nD) : (dat2 (U5 m) c).arrAt 4 cfg2.N = U6 m c (Pipeline.arrRef spec2 4) :=
  hF2_in m c 4 main_v59 rfl rfl (by decide)
theorem hF2_5 (c : Dev nD) : (dat2 (U5 m) c).arrAt 5 cfg2.N = U6 m c (Pipeline.arrRef spec2 5) :=
  hF2_in m c 5 main_v58 rfl rfl (by decide)
theorem hF2_6 (c : Dev nD) : (dat2 (U5 m) c).arrAt 6 cfg2.N = U6 m c (Pipeline.arrRef spec2 6) :=
  hF2_in m c 6 main_v60 rfl rfl (by decide)
theorem hF2_7 (c : Dev nD) : (dat2 (U5 m) c).arrAt 7 cfg2.N = U6 m c (Pipeline.arrRef spec2 7) :=
  (outs6_v61 m c).symm.trans
    (eq_of_heq (update_heq c (Gen.V5 m (outs m) c) main_v61 (outs m 6 main_v61 c) (Pipeline.arrRef spec2 7) rfl)).symm
theorem hF2 (c : Dev nD) (w : Fin cfg2.W) : (dat2 (U5 m) c).arrAt w cfg2.N = U6 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
theorem hrest2 (c : Dev nD) : ∀ b, b ∉ Finset.univ.image (Pipeline.arrRef spec2) → U6 m c b = U5 m c b := fun b hb =>
  V6_of_in m c b (by
    intro hmem
    simp only [List.mem_cons, List.mem_nil_iff, or_false] at hmem
    subst hmem
    exact hb (Finset.mem_image.mpr ⟨7, Finset.mem_univ _, rfl⟩))

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state: entered from every unscoped buffer at the contents before it, left at the contents
    after it. Its arrays are taken out of the unscoped buffers and put back at the exit contents; the generator register
    goes into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- The distinct buffers behind region 1's arrays: the shared input and the output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v26) ↦{fullShare} V main_v26) ∗ (((c : Thread nD τ).loc main_v27) ↦{fullShare} V main_v27)) := by
  unfold Pipeline.arrBufs
  rw [show Finset.univ.image (Pipeline.arrRef spec1) = insert main_v26 {main_v27} from by decide,
    BI.bigSep_insert (by decide), BI.bigSep_singleton]
  rfl

/-- Region 1's arrays at contents `G`, window by window: the shared array's buffer at the left half of the full share
    for window 0 and at the right half for window 1, the output's at the full share. -/
theorem arrays1_eq (c : Dev nD) (G : (w : Fin cfg1.W) → Buf (Elt F) ((cfg1.win w).arr.view.loc (c : Thread nD τ))) :
    ((dat1 (U3 m) c).arrays G : sProp 𝕄)
      = iprop((((c : Thread nD τ).loc main_v26) ↦{fullShare.left} G 0) ∗ (((c : Thread nD τ).loc main_v26) ↦{fullShare.right} G 1)
          ∗ (((c : Thread nD τ).loc main_v27) ↦{fullShare} G 2)) := by
  unfold Pipeline.Dat.arrays
  rw [bigSep_W1, (arr_whole1 0).set_eq_univ, (arr_whole1 2).set_eq_univ, share1_0, share1_1, share1_2]

/-- At the entry every window's array holds the entry contents. -/
theorem arrays1_entry (c : Dev nD) :
    ((dat1 (U3 m) c).arrays ((dat1 (U3 m) c).arrAt · 0) : sProp 𝕄)
      = iprop((((c : Thread nD τ).loc main_v26) ↦{fullShare.left} U3 m c main_v26) ∗ (((c : Thread nD τ).loc main_v26) ↦{fullShare.right} U3 m c main_v26)
          ∗ (((c : Thread nD τ).loc main_v27) ↦{fullShare} U3 m c main_v27)) := by
  have hA0 : (dat1 (U3 m) c).arrAt 0 0 = U3 m c main_v26 := A_eq1 (U3 m) c 0
  have hA1 : (dat1 (U3 m) c).arrAt 1 0 = U3 m c main_v26 := A_eq1 (U3 m) c 1
  have hA2 : (dat1 (U3 m) c).arrAt 2 0 = U3 m c main_v27 := A_eq1 (U3 m) c 2
  rw [arrays1_eq, hA0, hA1, hA2]

/-- At the exit the two input windows' array still holds the entry contents, the output's what the write-backs left. -/
theorem arrays1_exit (c : Dev nD) :
    ((dat1 (U3 m) c).arrays ((dat1 (U3 m) c).arrAt · cfg1.N) : sProp 𝕄)
      = iprop((((c : Thread nD τ).loc main_v26) ↦{fullShare.left} U3 m c main_v26) ∗ (((c : Thread nD τ).loc main_v26) ↦{fullShare.right} U3 m c main_v26)
          ∗ (((c : Thread nD τ).loc main_v27) ↦{fullShare} (dat1 (U3 m) c).arrAt 2 cfg1.N)) := by
  have hX0 : (dat1 (U3 m) c).arrAt 0 cfg1.N = U3 m c main_v26 := ((dat1 (U3 m) c).arrAt_in 0 rfl _).trans (A_eq1 (U3 m) c 0)
  have hX1 : (dat1 (U3 m) c).arrAt 1 cfg1.N = U3 m c main_v26 := ((dat1 (U3 m) c).arrAt_in 1 rfl _).trans (A_eq1 (U3 m) c 1)
  rw [arrays1_eq, hX0, hX1]

/-- A core's unscoped buffers at a valuation: the two buffers behind region 1's arrays, and the rest. -/
theorem held_split1 (c : Dev nD) (W : Valuation τ sig (Elt F)) :
    (StableHlo.held (c : Thread nD τ) (Pipeline.ucRefs τ sig) W : sProp 𝕄)
      = iprop(((((c : Thread nD τ).loc main_v26) ↦{fullShare} W main_v26) ∗ (((c : Thread nD τ).loc main_v27) ↦{fullShare} W main_v27))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.unscopedBufs_split₀ cfgs 1 winFacts₀1.arr_unscoped c _]
  show iprop((Pipeline.arrBufs (Ix := Unit) (Name := ℕ) (U := UR sig nD τ) (Lvl := ℕ) spec1 c (fun b => W b) : sProp 𝕄)
      ∗ Pipeline.unscopedRest (Ix := Unit) (Name := ℕ) (U := UR sig nD τ) (Lvl := ℕ) spec1 c (fun b => W b)) = _
  rw [arrBufs1_eq]

-- a library lemma stated over the pinned configuration unifies with the printed one only when unification may unfold
-- plain definitions in a metavariable's type
set_option backward.isDefEq.respectTransparency.types false in
/-- REGION 1 over the thread state. The buffer behind the shared input array is held whole at the full share on entry;
    the share is cut into its two halves, one per window, both at the entry contents. At the exit each half still holds
    the entry contents (an input array is never written), the halves are joined, and the output array's buffer holds what
    the write-backs left. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none, V3_eq, held_split1]
    show iprop((iprop(iprop((((c : Thread nD τ).loc main_v26) ↦{fullShare} U3 m c main_v26) ∗ (((c : Thread nD τ).loc main_v27) ↦{fullShare} U3 m c main_v27))
          ∗ Pipeline.unscopedRest (Ix := Unit) (Name := ℕ) (U := UR sig nD τ) (Lvl := ℕ) spec1 c (U3 m c)) ∗ R c) ∗ BI.emp ∗ levAts L lv)
      ⊢ |={Set.univ}=> iprop((pdats m 1 c).arrays ((pdats m 1 c).arrAt · 0) ∗ Pipeline.prefHeld (pcfgs (F := F) 1).pre c (fun _ => fullShare) (adm (F := F) 1).1
          ∗ (pdats m 1 c).owesAt () 0 ∗ iprop(∃ r, prngReg c r)
          ∗ Pipeline.unscopedRest (Ix := Unit) (Name := ℕ) (U := UR sig nD τ) (Lvl := ℕ) spec1 c (U3 m c))
    rw [show (pdats m 1 c).arrays ((pdats m 1 c).arrAt · 0) = (dat1 (U3 m) c).arrays ((dat1 (U3 m) c).arrAt · 0) from rfl, arrays1_entry]
    have hsp : ((((c : Thread nD τ).loc main_v26) ↦{fullShare} U3 m c main_v26) : sProp 𝕄)
        ⊣⊢ iprop((((c : Thread nD τ).loc main_v26) ↦{fullShare.left} U3 m c main_v26) ∗ (((c : Thread nD τ).loc main_v26) ↦{fullShare.right} U3 m c main_v26)) :=
      Idealize.ShloMosaic.pointsTo_share (PosShare.mem_left_op_right fullShare)
    iintro ⟨⟨⟨⟨H26, H27⟩, Hrest⟩, Hp, HO⟩, -, -⟩
    have hsp1 := hsp.1
    ihave H := hsp1 $$ H26
    icases H with ⟨Hl, Hr⟩
    imodintro
    isplitl [Hl Hr H27]
    · isplitl [Hl]; · iexact Hl
      isplitl [Hr]; · iexact Hr
      iexact H27
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_split1]
    have hrestx : (Pipeline.unscopedRest (Ix := Unit) (Name := ℕ) (U := UR sig nD τ) (Lvl := ℕ) spec1 c (fun b => Gen.V4 m (outs m) c b) : sProp 𝕄)
        = Pipeline.unscopedRest (Ix := Unit) (Name := ℕ) (U := UR sig nD τ) (Lvl := ℕ) spec1 c (U3 m c) := by
      unfold Pipeline.unscopedRest
      exact bigSep_congr fun b hb => by dsimp only; rw [show Gen.V4 m (outs m) c b = U3 m c b from hrest1 m c b (Finset.mem_sdiff.mp hb).2]
    rw [hrestx, show Gen.V4 m (outs m) c main_v26 = U3 m c main_v26 from hF1_in m c,
      show Gen.V4 m (outs m) c main_v27 = (dat1 (U3 m) c).arrAt 2 cfg1.N from hF1_out m c,
      show (pdats m 1 c).arrays ((pdats m 1 c).arrAt · (Pipeline.pin (pcfgs (F := F)) adm 1).N) = (dat1 (U3 m) c).arrays ((dat1 (U3 m) c).arrAt · cfg1.N) from rfl,
      arrays1_exit]
    have hsp : ((((c : Thread nD τ).loc main_v26) ↦{fullShare} U3 m c main_v26) : sProp 𝕄)
        ⊣⊢ iprop((((c : Thread nD τ).loc main_v26) ↦{fullShare.left} U3 m c main_v26) ∗ (((c : Thread nD τ).loc main_v26) ↦{fullShare.right} U3 m c main_v26)) :=
      Idealize.ShloMosaic.pointsTo_share (PosShare.mem_left_op_right fullShare)
    iintro ⟨⟨Hl, Hr, H27⟩, HO, HY, Hrest⟩
    have hsp2 := hsp.2
    ihave H26 := hsp2 $$ [Hl Hr]
    · isplitl [Hl]; · iexact Hl
      iexact Hr
    imodintro
    isplitl [H26 H27 Hrest]
    · isplitl [H26 H27]
      · isplitl [H26]; · iexact H26
        iexact H27
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at the contents before it, left at the contents
    after it. Its arrays are taken out of the unscoped buffers and put back at the exit contents; the generator register
    goes into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame and the run -/

/-- The launch's ghost element is the pipeline library's; no further ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's generator register is at its launch state and the core owes nothing: what rides along. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R (F := F) c) : sProp 𝕄) := by
  have hR : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ R (F := F) c := fun c => by
    iintro ⟨-, HO, -, Hp, -⟩
    isplitl [Hp]; · iexists _; iexact Hp
    iexists ∅; iexact HO
  have hall : ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) : sProp 𝕄)
      ⊢ bigSep Finset.univ (fun c : Dev nD => R (F := F) c) := bigSep_mono fun c _ => hR c
  iintro ⟨H, -⟩
  imodintro
  iapply hall
  iexact H

theorem hE3 (c : Dev nD) : R (F := F) c ⊢ (iprop(∃ W, owes (c : Thread nD τ) (0 : CellTallies nD τ sig Unit) W) : sProp 𝕄) := by
  iintro ⟨-, H⟩; iexact H

/-- THE FRAME: from any memory with zero counters every weakly fair execution of @main terminates, nothing faulting,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) (fun _ => 0) (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

/-- THE RUN: the same executions end with every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) :=
  run_cond m emb₁ () 𝒱₀ L lv (fun _ _ => rfl) ρ (outs m) (pdats m) (fun _ => 0) (fun _ => iprop(emp))
    (initOf (Pipeline.cells cfgs cellOf_inj) (Pipeline.launchToks cfgs cellOf_inj)) hu₀ (fun _ c => R c) (hE0 ρ) hE3
    (reg0 m) (fun _ => .rfl) (fun _ => .rfl) (reg1 m) (fun _ => .rfl) (fun _ => .rfl) (reg2 m) (fun _ => .rfl) (fun _ => .rfl)

end Cert.KernelIdeal.Hand

end
-- ==== Proof.KIHost.lean ====
/-
  What the host stretches of the program compute, read off the fold of valuations.

  The program's three kernel regions alternate with three lines of host operations. Each line is a list of pure
  operations, each writing one buffer from the buffers before it, so what a buffer holds after a line is a term over
  the contents the line started from. The first line cuts the [2 × E] array of edge ends into its two rows, transposes
  two weight matrices and lays two bias vectors out as one-row matrices. The second line takes the two column blocks of
  region 0's second output, and scatters the edge features into a zero [N × N × C] array at the (row, column) pairs,
  channels moved first. The third line gathers region 1's output at the same pairs and region 0's first output at each
  end's row, and prepares region 2's weights and biases. A negative index counts from the end: every use of a row of
  the index array first adds N to the words that are below 0 read signed; the program does so anew at each use, with
  the same operations, so every use is the same function of the row. An index row, an argument and a region's output
  array survive the regions and lines that do not write them.
-/
import proofs.«156641_j38199439130848_1_alg».proof.Proof.KIRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The index arrays the host computes from the [2 × E] array of edge ends -/

/-- Row 0 of the [2 × E] index array, as a vector of E words: the slice of the row, its unit axis dropped. -/
def kRow0 (x3 : IVec S2x262144 32) : IVec S262144 32 :=
  shapeCast S262144 (extractStridedSlice S1x262144 ![0, 0] x3 slices_S2x262144_S1x262144_0_0) shapeCasts_S1x262144_S262144
/-- Row 1 of the [2 × E] index array, as a vector of E words. -/
def kRow1 (x3 : IVec S2x262144 32) : IVec S262144 32 :=
  shapeCast S262144 (extractStridedSlice S1x262144 ![1, 0] x3 slices_S2x262144_S1x262144_1_0) shapeCasts_S1x262144_S262144
/-- A negative index counts from the end: where the word, read signed, is below 0 it is replaced by itself plus 4096. -/
def kNorm (x : IVec S262144 32) : IVec S262144 32 :=
  select (cmpi .slt x (broadcastInDim S262144 ![] bcast_S_S262144 (constantI S_ 32 0#32)))
    (addi x (broadcastInDim S262144 ![] bcast_S_S262144 (constantI S_ 32 4096#32))) x
/-- A vector of E words as an [E × 1] column. -/
def kCol (x : IVec S262144 32) : IVec S262144x1 32 := broadcastInDim S262144x1 ![0] bcast_S262144_S262144x1_0 x
/-- Two [E × 1] columns side by side: the [E × 2] array of pairs. -/
def kCat (a b : IVec S262144x1 32) : IVec S262144x2 32 :=
  concatenate S262144x2 1 [⟨S262144x1, a⟩, ⟨S262144x1, b⟩] concatenates_S262144x1_S262144x1_S262144x2_d1
/-- The [E × 2] array of (row, column) pairs: both rows of the index array normalised, each as a column. -/
def kPairs (x3 : IVec S2x262144 32) : IVec S262144x2 32 := kCat (kCol (kNorm (kRow0 x3))) (kCol (kNorm (kRow1 x3)))

/-! ## A line of host operations cut in two -/

/-- The contents after a line of operations are the contents after its tail, from the contents after its head. -/
theorem after_cut (n : Nat) (ops : List (HloOp τ sig (Elt F))) (V : Valuation τ sig (Elt F)) :
    StableHlo.after ops V = StableHlo.after (ops.drop n) (StableHlo.after (ops.take n) V) := by
  rw [← StableHlo.after_append, List.take_append_drop]

/-! ## The three host lines, from any contents -/

section Lines
variable (W : Valuation τ sig (Elt F))

/-- The first line: the two rows of the index array. -/
theorem ops0_v1 : (StableHlo.after hostOps0 W (Proc.devRef .tc main_v1) : IVec S262144 32) = kRow0 (W (Proc.devRef .tc main_arg3)) := by
  after_results_simp <;> rfl
theorem ops0_v3 : (StableHlo.after hostOps0 W (Proc.devRef .tc main_v3) : IVec S262144 32) = kRow1 (W (Proc.devRef .tc main_arg3)) := by
  after_results_simp <;> rfl
/-- The first line: the two weight matrices transposed, the two bias vectors as one-row matrices. -/
theorem ops0_v4 : (StableHlo.after hostOps0 W (Proc.devRef .tc main_v4) : Vec F S256x256 .f32)
    = transpose S256x256 [1, 0] (W (Proc.devRef .tc main_arg4) : Vec F S256x256 .f32) transposes_S256x256_S256x256_1_0 := by
  after_results_simp <;> rfl
theorem ops0_v5 : (StableHlo.after hostOps0 W (Proc.devRef .tc main_v5) : Vec F S256x144 .f32)
    = transpose S256x144 [1, 0] (W (Proc.devRef .tc main_arg10) : Vec F S144x256 .f32) transposes_S144x256_S256x144_1_0 := by
  after_results_simp <;> rfl
theorem ops0_v6 : (StableHlo.after hostOps0 W (Proc.devRef .tc main_v6) : Vec F S1x256 .f32)
    = shapeCast S1x256 (W (Proc.devRef .tc main_arg5) : Vec F S256 .f32) shapeCasts_S256_S1x256 := by
  after_results_simp <;> rfl
theorem ops0_v7 : (StableHlo.after hostOps0 W (Proc.devRef .tc main_v7) : Vec F S1x144 .f32)
    = shapeCast S1x144 (W (Proc.devRef .tc main_arg11) : Vec F S144 .f32) shapeCasts_S144_S1x144 := by
  after_results_simp <;> rfl

/-- The second line: the two column blocks of region 0's second output. -/
theorem ops1_v9 : (StableHlo.after hostOps1 W (Proc.devRef .tc main_v9) : Vec F S4096x16 .f32)
    = extractStridedSlice S4096x16 ![0, 0] (W (Proc.devRef .tc main_v8_1) : Vec F S4096x144 .f32) slices_S4096x144_S4096x16_0_0 := by
  after_results_simp <;> rfl
theorem ops1_v10 : (StableHlo.after hostOps1 W (Proc.devRef .tc main_v10) : Vec F S4096x128 .f32)
    = extractStridedSlice S4096x128 ![0, 16] (W (Proc.devRef .tc main_v8_1) : Vec F S4096x144 .f32) slices_S4096x144_S4096x128_0_16 := by
  after_results_simp <;> rfl

/-- The second line: the edge features scattered into a zero [N × N × C] array at the pairs, channels moved first.
    The line is cut before its concatenation: the head makes the two columns and the zero array, the tail joins the
    columns, scatters and transposes. -/
theorem ops1_v26 : (StableHlo.after hostOps1 W (Proc.devRef .tc main_v26) : Vec F S16x4096x4096 .f32)
    = transpose S16x4096x4096 [2, 0, 1] (Host.scatter scatter_S4096x4096x16_S262144x2_S262144x16_1_01_01_1 (fun _ b => b)
        (broadcastInDim S4096x4096x16 ![] bcast_S_S4096x4096x16 (constant (F := F) S_ .f32 0x00000000#32))
        (kCat (kCol (kNorm (W (Proc.devRef .tc main_v1)))) (kCol (kNorm (W (Proc.devRef .tc main_v3)))))
        (W (Proc.devRef .tc main_arg1) : Vec F S262144x16 .f32)) transposes_S4096x4096x16_S16x4096x4096_2_0_1 := by
  have h22 : (StableHlo.after (hostOps1.take 20) W (Proc.devRef .tc main_v22) : IVec S262144x1 32) = kCol (kNorm (W (Proc.devRef .tc main_v1))) := by
    simp only [List.take_succ_cons, List.take_zero]
    after_results_simp <;> rfl
  have h23 : (StableHlo.after (hostOps1.take 20) W (Proc.devRef .tc main_v23) : IVec S262144x1 32) = kCol (kNorm (W (Proc.devRef .tc main_v3))) := by
    simp only [List.take_succ_cons, List.take_zero]
    after_results_simp <;> rfl
  have h11 : (StableHlo.after (hostOps1.take 20) W (Proc.devRef .tc main_v11) : Vec F S4096x4096x16 .f32)
      = broadcastInDim S4096x4096x16 ![] bcast_S_S4096x4096x16 (constant (F := F) S_ .f32 0x00000000#32) := by
    simp only [List.take_succ_cons, List.take_zero]
    after_results_simp <;> rfl
  have ha1 : StableHlo.after (hostOps1.take 20) W (Proc.devRef .tc main_arg1) = W (Proc.devRef .tc main_arg1) := by
    simp only [List.take_succ_cons, List.take_zero]
    after_results_simp <;> rfl
  rw [after_cut 20 hostOps1 W]
  generalize StableHlo.after (hostOps1.take 20) W = W' at h22 h23 h11 ha1
  simp only [List.drop_succ_cons, List.drop_zero]
  after_results_simp
  rw [h22, h23, h11, ha1]
  rfl

/-- The third line: region 1's output gathered at the pairs, edges moved first. Cut before its concatenation. -/
theorem ops2_v42 : (StableHlo.after hostOps2 W (Proc.devRef .tc main_v42) : Vec F S262144x16 .f32)
    = transpose S262144x16 [1, 0] (Host.gather gather_S16x4096x4096_S262144x2_S16x262144_0_12_n_n_12_1_1611
        (W (Proc.devRef .tc main_v27) : Vec F S16x4096x4096 .f32)
        (kCat (kCol (kNorm (W (Proc.devRef .tc main_v1)))) (kCol (kNorm (W (Proc.devRef .tc main_v3)))))) transposes_S16x262144_S262144x16_1_0 := by
  have h38 : (StableHlo.after (hostOps2.take 16) W (Proc.devRef .tc main_v38) : IVec S262144x1 32) = kCol (kNorm (W (Proc.devRef .tc main_v1))) := by
    simp only [List.take_succ_cons, List.take_zero]
    after_results_simp <;> rfl
  have h39 : (StableHlo.after (hostOps2.take 16) W (Proc.devRef .tc main_v39) : IVec S262144x1 32) = kCol (kNorm (W (Proc.devRef .tc main_v3))) := by
    simp only [List.take_succ_cons, List.take_zero]
    after_results_simp <;> rfl
  have h27 : StableHlo.after (hostOps2.take 16) W (Proc.devRef .tc main_v27) = W (Proc.devRef .tc main_v27) := by
    simp only [List.take_succ_cons, List.take_zero]
    after_results_simp <;> rfl
  rw [after_cut 16 hostOps2 W]
  generalize StableHlo.after (hostOps2.take 16) W = W' at h38 h39 h27
  simp only [List.drop_succ_cons, List.drop_zero]
  after_results_simp
  rw [h38, h39, h27]
  rfl

/-- The third line: region 0's first output gathered at the rows the normalised second (first) index row names. -/
theorem ops2_v49 : (StableHlo.after hostOps2 W (Proc.devRef .tc main_v49) : Vec F S262144x256 .f32)
    = Host.gather gather_S4096x256_S262144x1_S262144x256_1_0_n_n_0_1_1256 (W (Proc.devRef .tc main_v8_0) : Vec F S4096x256 .f32)
        (kCol (kNorm (W (Proc.devRef .tc main_v3)))) := by
  after_results_simp <;> rfl
theorem ops2_v56 : (StableHlo.after hostOps2 W (Proc.devRef .tc main_v56) : Vec F S262144x256 .f32)
    = Host.gather gather_S4096x256_S262144x1_S262144x256_1_0_n_n_0_1_1256 (W (Proc.devRef .tc main_v8_0) : Vec F S4096x256 .f32)
        (kCol (kNorm (W (Proc.devRef .tc main_v1)))) := by
  after_results_simp <;> rfl
/-- The third line: the two weight matrices transposed, the two bias vectors as one-row matrices. -/
theorem ops2_v57 : (StableHlo.after hostOps2 W (Proc.devRef .tc main_v57) : Vec F S16x256 .f32)
    = transpose S16x256 [1, 0] (W (Proc.devRef .tc main_arg6) : Vec F S256x16 .f32) transposes_S256x16_S16x256_1_0 := by
  after_results_simp <;> rfl
theorem ops2_v58 : (StableHlo.after hostOps2 W (Proc.devRef .tc main_v58) : Vec F S256x5 .f32)
    = transpose S256x5 [1, 0] (W (Proc.devRef .tc main_arg8) : Vec F S5x256 .f32) transposes_S5x256_S256x5_1_0 := by
  after_results_simp <;> rfl
theorem ops2_v59 : (StableHlo.after hostOps2 W (Proc.devRef .tc main_v59) : Vec F S1x256 .f32)
    = shapeCast S1x256 (W (Proc.devRef .tc main_arg7) : Vec F S256 .f32) shapeCasts_S256_S1x256 := by
  after_results_simp <;> rfl
theorem ops2_v60 : (StableHlo.after hostOps2 W (Proc.devRef .tc main_v60) : Vec F S1x5 .f32)
    = shapeCast S1x5 (W (Proc.devRef .tc main_arg9) : Vec F S5 .f32) shapeCasts_S5_S1x5 := by
  after_results_simp <;> rfl

end Lines

/-! ## What survives a region and a line -/

section Run
variable (m : (ℓ : Loc nD τ sig) → Buf (Elt F) ℓ)

/-- After region 0 a buffer other than its two output arrays holds what it held at the region's entry. -/
theorem X2_of (c : Dev nD) (r : Ref sig .tc) (h : r ∉ ([main_v8_0, main_v8_1] : List (Ref sig .tc))) : X2 m c r = Gen.V1 m c r := by
  rw [← V2_eq m c]; exact Gen.V2_of m (outs m) c r h
/-- After region 1 a buffer the second line does not write, other than the region's output array, holds what it held
    after region 0. -/
theorem X4_of (c : Dev nD) (r : Ref sig .tc) (h1 : r ∉ hostOps1_W) (h2 : r ∉ ([main_v27] : List (Ref sig .tc))) : X4 m c r = X2 m c r := by
  rw [← V4_eq m c, Gen.V4_of m (outs m) c r h2, Gen.V3_of m (outs m) c r h1, V2_eq m c]

/-- The two index rows, made by the first line, are still there after region 0 and after region 1. -/
theorem X2_v1 (c : Dev nD) : (X2 m c main_v1 : IVec S262144 32) = kRow0 (m ((c : Thread nD τ).loc main_arg3)) :=
  (X2_of m c main_v1 (by decide)).trans (ops0_v1 (Gen.V0 m c))
theorem X2_v3 (c : Dev nD) : (X2 m c main_v3 : IVec S262144 32) = kRow1 (m ((c : Thread nD τ).loc main_arg3)) :=
  (X2_of m c main_v3 (by decide)).trans (ops0_v3 (Gen.V0 m c))
theorem X4_v1 (c : Dev nD) : (X4 m c main_v1 : IVec S262144 32) = kRow0 (m ((c : Thread nD τ).loc main_arg3)) :=
  (X4_of m c main_v1 (by decide) (by decide)).trans (X2_v1 m c)
theorem X4_v3 (c : Dev nD) : (X4 m c main_v3 : IVec S262144 32) = kRow1 (m ((c : Thread nD τ).loc main_arg3)) :=
  (X4_of m c main_v3 (by decide) (by decide)).trans (X2_v3 m c)

/-- An argument no line and no region writes holds the launch's contents. -/
theorem X2_arg1 (c : Dev nD) : X2 m c main_arg1 = (m ((c : Thread nD τ).loc main_arg1)) :=
  (X2_of m c main_arg1 (by decide)).trans (Gen.V1_of m c main_arg1 (by decide))
theorem X4_arg6 (c : Dev nD) : X4 m c main_arg6 = (m ((c : Thread nD τ).loc main_arg6)) :=
  ((X4_of m c main_arg6 (by decide) (by decide)).trans (X2_of m c main_arg6 (by decide))).trans (Gen.V1_of m c main_arg6 (by decide))
theorem X4_arg7 (c : Dev nD) : X4 m c main_arg7 = (m ((c : Thread nD τ).loc main_arg7)) :=
  ((X4_of m c main_arg7 (by decide) (by decide)).trans (X2_of m c main_arg7 (by decide))).trans (Gen.V1_of m c main_arg7 (by decide))
theorem X4_arg8 (c : Dev nD) : X4 m c main_arg8 = (m ((c : Thread nD τ).loc main_arg8)) :=
  ((X4_of m c main_arg8 (by decide) (by decide)).trans (X2_of m c main_arg8 (by decide))).trans (Gen.V1_of m c main_arg8 (by decide))
theorem X4_arg9 (c : Dev nD) : X4 m c main_arg9 = (m ((c : Thread nD τ).loc main_arg9)) :=
  ((X4_of m c main_arg9 (by decide) (by decide)).trans (X2_of m c main_arg9 (by decide))).trans (Gen.V1_of m c main_arg9 (by decide))

/-- Region 0's two output arrays after the region, the first still there after region 1; region 1's after it. -/
theorem X2_v8_1 (c : Dev nD) : X2 m c main_v8_1 = (dat0 (U1 m) c).arrAt 6 cfg0.N := outs2_v8_1 m c
theorem X2_v8_0 (c : Dev nD) : X2 m c main_v8_0 = (dat0 (U1 m) c).arrAt 5 cfg0.N := outs2_v8_0 m c
theorem X4_v8_0 (c : Dev nD) : X4 m c main_v8_0 = (dat0 (U1 m) c).arrAt 5 cfg0.N :=
  (X4_of m c main_v8_0 (by decide) (by decide)).trans (X2_v8_0 m c)
theorem X4_v27 (c : Dev nD) : X4 m c main_v27 = (dat1 (U3 m) c).arrAt 2 cfg1.N := outs4_v27 m c

/-! ## Region 0's inputs -/

theorem host_arg0 (c : Dev nD) : U1 m c main_arg0 = (m ((c : Thread nD τ).loc main_arg0)) := Gen.V1_of m c main_arg0 (by decide)
theorem host_v4 (c : Dev nD) : (U1 m c main_v4 : Vec F S256x256 .f32)
    = transpose S256x256 [1, 0] ((m ((c : Thread nD τ).loc main_arg4)) : Vec F S256x256 .f32) transposes_S256x256_S256x256_1_0 := ops0_v4 (Gen.V0 m c)
theorem host_v5 (c : Dev nD) : (U1 m c main_v5 : Vec F S256x144 .f32)
    = transpose S256x144 [1, 0] ((m ((c : Thread nD τ).loc main_arg10)) : Vec F S144x256 .f32) transposes_S144x256_S256x144_1_0 := ops0_v5 (Gen.V0 m c)
theorem host_v6 (c : Dev nD) : (U1 m c main_v6 : Vec F S1x256 .f32)
    = shapeCast S1x256 ((m ((c : Thread nD τ).loc main_arg5)) : Vec F S256 .f32) shapeCasts_S256_S1x256 := ops0_v6 (Gen.V0 m c)
theorem host_v7 (c : Dev nD) : (U1 m c main_v7 : Vec F S1x144 .f32)
    = shapeCast S1x144 ((m ((c : Thread nD τ).loc main_arg11)) : Vec F S144 .f32) shapeCasts_S144_S1x144 := ops0_v7 (Gen.V0 m c)

/-! ## Region 1's input -/

/-- The array both windows of region 1 read: the edge features scattered into a zero [N × N × C] array at the
    (row, column) pairs, channels moved first. -/
theorem host_v26 (c : Dev nD) : (U3 m c main_v26 : Vec F S16x4096x4096 .f32)
    = transpose S16x4096x4096 [2, 0, 1] (Host.scatter scatter_S4096x4096x16_S262144x2_S262144x16_1_01_01_1 (fun _ b => b)
        (broadcastInDim S4096x4096x16 ![] bcast_S_S4096x4096x16 (constant (F := F) S_ .f32 0x00000000#32))
        (kPairs (m ((c : Thread nD τ).loc main_arg3))) ((m ((c : Thread nD τ).loc main_arg1)) : Vec F S262144x16 .f32)) transposes_S4096x4096x16_S16x4096x4096_2_0_1 := by
  refine (ops1_v26 (X2 m c)).trans ?_
  rw [X2_v1 m c, X2_v3 m c, X2_arg1 m c]
  rfl

/-! ## Region 2's inputs -/

theorem host_v49 (c : Dev nD) : (U5 m c main_v49 : Vec F S262144x256 .f32)
    = Host.gather gather_S4096x256_S262144x1_S262144x256_1_0_n_n_0_1_1256 ((dat0 (U1 m) c).arrAt 5 cfg0.N : Vec F S4096x256 .f32) (kCol (kNorm (kRow1 (m ((c : Thread nD τ).loc main_arg3))))) := by
  refine (ops2_v49 (X4 m c)).trans ?_
  rw [X4_v3 m c, X4_v8_0 m c]
theorem host_v56 (c : Dev nD) : (U5 m c main_v56 : Vec F S262144x256 .f32)
    = Host.gather gather_S4096x256_S262144x1_S262144x256_1_0_n_n_0_1_1256 ((dat0 (U1 m) c).arrAt 5 cfg0.N : Vec F S4096x256 .f32) (kCol (kNorm (kRow0 (m ((c : Thread nD τ).loc main_arg3))))) := by
  refine (ops2_v56 (X4 m c)).trans ?_
  rw [X4_v1 m c, X4_v8_0 m c]
/-- Region 1's output gathered at the (row, column) pairs, edges moved first. -/
theorem host_v42 (c : Dev nD) : (U5 m c main_v42 : Vec F S262144x16 .f32)
    = transpose S262144x16 [1, 0] (Host.gather gather_S16x4096x4096_S262144x2_S16x262144_0_12_n_n_12_1_1611 ((dat1 (U3 m) c).arrAt 2 cfg1.N : Vec F S16x4096x4096 .f32)
        (kPairs (m ((c : Thread nD τ).loc main_arg3)))) transposes_S16x262144_S262144x16_1_0 := by
  refine (ops2_v42 (X4 m c)).trans ?_
  rw [X4_v1 m c, X4_v3 m c, X4_v27 m c]
  rfl
theorem host_v57 (c : Dev nD) : (U5 m c main_v57 : Vec F S16x256 .f32)
    = transpose S16x256 [1, 0] ((m ((c : Thread nD τ).loc main_arg6)) : Vec F S256x16 .f32) transposes_S256x16_S16x256_1_0 := by
  refine (ops2_v57 (X4 m c)).trans ?_
  rw [X4_arg6 m c]
theorem host_v58 (c : Dev nD) : (U5 m c main_v58 : Vec F S256x5 .f32)
    = transpose S256x5 [1, 0] ((m ((c : Thread nD τ).loc main_arg8)) : Vec F S5x256 .f32) transposes_S5x256_S256x5_1_0 := by
  refine (ops2_v58 (X4 m c)).trans ?_
  rw [X4_arg8 m c]
theorem host_v59 (c : Dev nD) : (U5 m c main_v59 : Vec F S1x256 .f32)
    = shapeCast S1x256 ((m ((c : Thread nD τ).loc main_arg7)) : Vec F S256 .f32) shapeCasts_S256_S1x256 := by
  refine (ops2_v59 (X4 m c)).trans ?_
  rw [X4_arg7 m c]
theorem host_v60 (c : Dev nD) : (U5 m c main_v60 : Vec F S1x5 .f32)
    = shapeCast S1x5 ((m ((c : Thread nD τ).loc main_arg9)) : Vec F S5 .f32) shapeCasts_S5_S1x5 := by
  refine (ops2_v60 (X4 m c)).trans ?_
  rw [X4_arg9 m c]

/-! ## The results -/

/-- The first two results: the two column blocks of region 0's second output. -/
theorem res_v9 (c : Dev nD) : (Gen.V6 m (outs m) c main_v9 : Vec F S4096x16 .f32)
    = extractStridedSlice S4096x16 ![0, 0] ((dat0 (U1 m) c).arrAt 6 cfg0.N : Vec F S4096x144 .f32) slices_S4096x144_S4096x16_0_0 := by
  rw [Gen.V6_of m (outs m) c main_v9 (by decide), Gen.V5_of m (outs m) c main_v9 (by decide), Gen.V4_of m (outs m) c main_v9 (by decide), V3_eq m c]
  refine (ops1_v9 (X2 m c)).trans ?_
  rw [X2_v8_1 m c]
theorem res_v10 (c : Dev nD) : (Gen.V6 m (outs m) c main_v10 : Vec F S4096x128 .f32)
    = extractStridedSlice S4096x128 ![0, 16] ((dat0 (U1 m) c).arrAt 6 cfg0.N : Vec F S4096x144 .f32) slices_S4096x144_S4096x128_0_16 := by
  rw [Gen.V6_of m (outs m) c main_v10 (by decide), Gen.V5_of m (outs m) c main_v10 (by decide), Gen.V4_of m (outs m) c main_v10 (by decide), V3_eq m c]
  refine (ops1_v10 (X2 m c)).trans ?_
  rw [X2_v8_1 m c]
/-- The third result: region 2's output array. -/
theorem res_v61 (c : Dev nD) : Gen.V6 m (outs m) c main_v61 = (dat2 (U5 m) c).arrAt 7 cfg2.N := by
  rw [V6_eq m c]; exact outs6_v61 m c

end Run

/-! ## Axiom pins -/

/-- info: 'Cert.KernelIdeal.Hand.host_v26' depends on axioms: [propext, Classical.choice, Quot.sound] -/
#guard_msgs (whitespace := lax) in #print axioms host_v26
/-- info: 'Cert.KernelIdeal.Hand.host_v42' depends on axioms: [propext, Classical.choice, Quot.sound] -/
#guard_msgs (whitespace := lax) in #print axioms host_v42
/-- info: 'Cert.KernelIdeal.Hand.host_v49' depends on axioms: [propext, Classical.choice, Quot.sound] -/
#guard_msgs (whitespace := lax) in #print axioms host_v49
/-- info: 'Cert.KernelIdeal.Hand.res_v9' depends on axioms: [propext, Classical.choice, Quot.sound] -/
#guard_msgs (whitespace := lax) in #print axioms res_v9
/-- info: 'Cert.KernelIdeal.Hand.res_v61' depends on axioms: [propext, Classical.choice, Quot.sound] -/
#guard_msgs (whitespace := lax) in #print axioms res_v61

end Cert.KernelIdeal.Hand

end
-- ==== Proof.Spec.lean ====
/-
  What the two programs compute, over the extended reals, entry by entry.

  A dense layer with the weights already transposed, `X · WT + b`, has entry (n, d) equal to the sum over k of
  X (n, k) · WT (k, d) plus b d.  The gate is x · σ(x) with σ the logistic function.  The node head is one gated dense
  layer followed by a plain one; the symmetrised edge array is half the sum of an entry and its mirror image in the
  two node axes; the edge head gates the sum of two gathered node rows and a dense layer of the gathered edge row and
  applies a last dense layer.  The kernel adds the edge layer's bias before the node rows are added, the reference after:
  addition of extended reals is associative, so the two agree without any finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The gate x · σ(x). -/
def silu (x : EReal) : EReal := x * Ideal.logistic x

/-- Entry (n, d) of X · WT + b: the sum over k of X (n, k) · WT (k, d), plus b d. -/
def dense {N K D : Nat} (X : (⟨2, ![N, K]⟩ : Shape).Idx → EReal) (WT : (⟨2, ![K, D]⟩ : Shape).Idx → EReal)
    (b : Fin D → EReal) : (⟨2, ![N, D]⟩ : Shape).Idx → EReal :=
  fun i => (∑ k : Fin K, X (ix2 (i 0) k) * WT (ix2 k (i 1))) + b (i 1)

theorem dense_apply {N K D : Nat} (X : (⟨2, ![N, K]⟩ : Shape).Idx → EReal) (WT : (⟨2, ![K, D]⟩ : Shape).Idx → EReal)
    (b : Fin D → EReal) (n : Fin N) (d : Fin D) :
    dense X WT b (ix2 n d) = (∑ k : Fin K, X (ix2 n k) * WT (ix2 k d)) + b d := rfl

/-- A gated dense layer. -/
def gated {N K D : Nat} (X : (⟨2, ![N, K]⟩ : Shape).Idx → EReal) (WT : (⟨2, ![K, D]⟩ : Shape).Idx → EReal)
    (b : Fin D → EReal) : (⟨2, ![N, D]⟩ : Shape).Idx → EReal :=
  fun i => silu (dense X WT b i)

theorem gated_apply {N K D : Nat} (X : (⟨2, ![N, K]⟩ : Shape).Idx → EReal) (WT : (⟨2, ![K, D]⟩ : Shape).Idx → EReal)
    (b : Fin D → EReal) (n : Fin N) (d : Fin D) :
    gated X WT b (ix2 n d) = silu ((∑ k : Fin K, X (ix2 n k) * WT (ix2 k d)) + b d) := rfl

/-- Half the sum of an entry and its mirror image in the last two axes (channel-first layout), the half kept as the
    word the programs print. -/
def symCF {C N : Nat} (T : (⟨3, ![C, N, N]⟩ : Shape).Idx → EReal) : (⟨3, ![C, N, N]⟩ : Shape).Idx → EReal :=
  fun i => Ideal.ofBits .f32 0x3F000000#32 * (T (ix3 (i 0) (i 1) (i 2)) + T (ix3 (i 0) (i 2) (i 1)))

theorem symCF_apply {C N : Nat} (T : (⟨3, ![C, N, N]⟩ : Shape).Idx → EReal) (c : Fin C) (a b : Fin N) :
    symCF T (ix3 c a b) = Ideal.ofBits .f32 0x3F000000#32 * (T (ix3 c a b) + T (ix3 c b a)) := rfl

/-- The edge head as the kernel groups it: the gate of (SI + SJ) + (ES · W1 + b1), then a dense layer. -/
def edgeHead {E C D T : Nat} (SI SJ : (⟨2, ![E, D]⟩ : Shape).Idx → EReal) (ES : (⟨2, ![E, C]⟩ : Shape).Idx → EReal)
    (W1 : (⟨2, ![C, D]⟩ : Shape).Idx → EReal) (b1 : Fin D → EReal) (W2 : (⟨2, ![D, T]⟩ : Shape).Idx → EReal)
    (b2 : Fin T → EReal) : (⟨2, ![E, T]⟩ : Shape).Idx → EReal :=
  dense (fun i => silu ((SI i + SJ i) + dense ES W1 b1 i)) W2 b2

/-- The edge head as the reference groups it: the gate of ((SI + SJ) + ES · W1) + b1, then a dense layer. -/
def edgeHeadRef {E C D T : Nat} (SI SJ : (⟨2, ![E, D]⟩ : Shape).Idx → EReal) (ES : (⟨2, ![E, C]⟩ : Shape).Idx → EReal)
    (W1 : (⟨2, ![C, D]⟩ : Shape).Idx → EReal) (b1 : Fin D → EReal) (W2 : (⟨2, ![D, T]⟩ : Shape).Idx → EReal)
    (b2 : Fin T → EReal) : (⟨2, ![E, T]⟩ : Shape).Idx → EReal :=
  dense (fun i => silu (((SI i + SJ i) + (∑ k : Fin C, ES (ix2 (i 0) k) * W1 (ix2 k (i 1)))) + b1 (i 1))) W2 b2

/-- The two groupings are one function: addition of extended reals is associative. -/
theorem edgeHead_eq_ref {E C D T : Nat} (SI SJ : (⟨2, ![E, D]⟩ : Shape).Idx → EReal) (ES : (⟨2, ![E, C]⟩ : Shape).Idx → EReal)
    (W1 : (⟨2, ![C, D]⟩ : Shape).Idx → EReal) (b1 : Fin D → EReal) (W2 : (⟨2, ![D, T]⟩ : Shape).Idx → EReal)
    (b2 : Fin T → EReal) : edgeHead SI SJ ES W1 b1 W2 b2 = edgeHeadRef SI SJ ES W1 b1 W2 b2 := by
  unfold edgeHead edgeHeadRef
  congr 1
  funext i
  unfold dense
  simp only [add_assoc]

/-- The host's expansion of the logistic function into negate, exponential, add and divide is the logistic function. -/
theorem host_logistic (x : EReal) :
    FloatOps.hostDivf (F := Ideal) (φ := .f32) (1 : EReal) (FloatOps.addf (F := Ideal) (φ := .f32) (1 : EReal)
      (FloatOps.hostUnary (F := Ideal) (φ := .f32) .exp (FloatOps.hostNegf (F := Ideal) (φ := .f32) x))) = Ideal.logistic x := rfl

end Cert.Spec

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KIVal0.lean ====
/- The value of the first kernel region over the extended reals. Its first result array is the gated dense layer
   of the activations, its second the plain dense layer of that: at entry (n, d) the first is g(∑ₖ X(n,k)·W(k,d) + b(d))
   with g(x) = x·σ(x), the second is ∑ₖ (first)(n,k)·W'(k,d) + b'(d).

   The kernel computes a block of 1024 rows per grid point. Read at an entry, the body's two stored values are the
   sums above over the block's rows (the narrowing casts are the identity at the extended reals, the matrix product
   into a zero accumulator is the plain contraction, the one-row bias is repeated down the rows). Row p of the block
   of point t is row 1024·t + p of the array, the four parameter arrays are read whole at every point, and the blocks
   of the four points tile each result array: row r lies in the block of point r / 1024. -/
import proofs.«156641_j38199439130848_1_alg».proof.Proof.KIR0
import proofs.«156641_j38199439130848_1_alg».proof.Proof.Spec
import proofs.«156641_j38199439130848_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.HandVal
open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's two stored values at an entry

The two contraction records the program prints are the plain [M, K] by [K, N] product. -/

theorem dot0_1_plain : dot_S1024x256_S256x256_S1024x256_1_0_0_1_n_n = DotDims.plain 1024 256 256 := rfl
theorem dot0_2_plain : dot_S1024x256_S256x144_S1024x144_1_0_0_1_n_n = DotDims.plain 1024 256 144 := rfl

/-- A matrix product into the zero accumulator, at entry (p, q): the sum over k of lhs (p, k) · rhs (k, q). -/
theorem matmul_plain0_apply {φ₁ φ₂ : FTy} (M K N : Nat) (lhs : FVec Ideal ⟨2, ![M, K]⟩ φ₁) (rhs : FVec Ideal ⟨2, ![K, N]⟩ φ₂) (p : Fin M) (q : Fin N) :
    matmul (DotDims.plain M K N) none lhs rhs (constant ⟨2, ![M, N]⟩ .f32 0x00000000#32) (ix2 p q) = ∑ k : Fin K, lhs (ix2 p k) * rhs (ix2 k q) :=
  Cert.Lib.PlainDot.matmul_zero_apply M K N none lhs rhs p q

/-- The first stored value at entry (p, q): the gate of the row-by-column sum plus the bias of column q. -/
theorem pay0_1_apply (x0 : S1024x256.Idx → EReal) (x1 : S256x256.Idx → EReal) (x2 : S1x256.Idx → EReal) (p : Fin 1024) (q : Fin 256) :
    k0_pay1 (F := Ideal) x0 x1 x2 (ix2 p q) = Cert.Spec.silu ((∑ k : Fin 256, x0 (ix2 p k) * x1 (ix2 k q)) + x2 (ix2 (0 : Fin 1) q)) := by
  unfold k0_pay1
  simp only [shapeCast_self, dot0_1_plain]
  show (mulf _ _) (ix2 p q) = _
  rw [mulf_apply]
  unfold Cert.Spec.silu
  rw [show ∀ (v : FVec Ideal S1024x256 .f32) (i : S1024x256.Idx), logistic v i = Ideal.logistic (v i) from fun _ _ => rfl]
  rw [addf_apply, matmul_plain0_apply, broadcastTo_1b_ab_apply]
  rfl

/-- The second stored value at entry (p, q): the sum over k of the first stored value at (p, k) times the second
    weight at (k, q), plus the second bias of column q. -/
theorem pay0_2_apply (x0 : S1024x256.Idx → EReal) (x1 : S256x256.Idx → EReal) (x2 : S1x256.Idx → EReal) (x3 : S256x144.Idx → EReal) (x4 : S1x144.Idx → EReal) (p : Fin 1024) (q : Fin 144) :
    k0_pay2 (F := Ideal) x0 x1 x2 x3 x4 (ix2 p q) = (∑ k : Fin 256, k0_pay1 (F := Ideal) x0 x1 x2 (ix2 p k) * x3 (ix2 k q)) + x4 (ix2 (0 : Fin 1) q) := by
  unfold k0_pay2
  simp only [shapeCast_self, dot0_2_plain]
  show (addf _ _) (ix2 p q) = _
  rw [addf_apply, matmul_plain0_apply, broadcastTo_1b_ab_apply]
  rfl

/-- When the block of activations is rows 1024·n … 1024·n + 1023 of the array `A`, the first stored value at
    (p, q) is the gated dense layer of `A` at (1024·n + p, q). -/
theorem pay0_1_block (A : S4096x256.Idx → EReal) (W : S256x256.Idx → EReal) (B : S1x256.Idx → EReal)
    (n : Nat) (hn : n < 4) (x0 : S1024x256.Idx → EReal)
    (h0 : ∀ (p : Fin 1024) (k : Fin 256), x0 (ix2 p k) = A (ix2 (⟨n * 1024 + p.val, by have := p.isLt; omega⟩ : Fin 4096) k))
    (p : Fin 1024) (q : Fin 256) :
    k0_pay1 (F := Ideal) x0 W B (ix2 p q)
      = Cert.Spec.gated A W (fun q => B (ix2 (0 : Fin 1) q)) (ix2 (⟨n * 1024 + p.val, by have := p.isLt; omega⟩ : Fin 4096) q) := by
  rw [pay0_1_apply, Cert.Spec.gated_apply]
  simp only [h0]

/-- And the second stored value at (p, q) is the dense layer of that gated layer at (1024·n + p, q). -/
theorem pay0_2_block (A : S4096x256.Idx → EReal) (W : S256x256.Idx → EReal) (B : S1x256.Idx → EReal)
    (W2 : S256x144.Idx → EReal) (B2 : S1x144.Idx → EReal)
    (n : Nat) (hn : n < 4) (x0 : S1024x256.Idx → EReal)
    (h0 : ∀ (p : Fin 1024) (k : Fin 256), x0 (ix2 p k) = A (ix2 (⟨n * 1024 + p.val, by have := p.isLt; omega⟩ : Fin 4096) k))
    (p : Fin 1024) (q : Fin 144) :
    k0_pay2 (F := Ideal) x0 W B W2 B2 (ix2 p q)
      = Cert.Spec.dense (Cert.Spec.gated A W (fun q => B (ix2 (0 : Fin 1) q))) W2 (fun q => B2 (ix2 (0 : Fin 1) q))
          (ix2 (⟨n * 1024 + p.val, by have := p.isLt; omega⟩ : Fin 4096) q) := by
  rw [pay0_2_apply, Cert.Spec.dense_apply]
  simp only [pay0_1_block A W B n hn x0 h0]

/-! ## Where each window's block sits in its array

The printed index maps, decided once over the four grid points: the activations' window and the two result windows
are at block row t, block column 0; the four parameter windows are at block (0, 0) at every point. -/

theorem hz0 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt0 (t : Fin cfg0.N) : t.val < 4 := by
  have h : t.val < grid0.N := t.isLt
  rwa [N_0] at h

theorem emb0_0 (t : Fin cfg0.N) (p : Fin 1024) (k : Fin 256) :
    ((cfg0.win 0).blk t).view.emb (ix2 p k) = (ix2 (⟨t.val * 1024 + p.val, by have := point_lt0 t; omega⟩ : Fin 4096) k : S4096x256.Idx) := by
  obtain ⟨e0, e1, -⟩ := idx_facts0 t
  funext a; apply Fin.ext
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

theorem emb0_1 (t : Fin cfg0.N) (j : S256x256.Idx) : ((cfg0.win 1).blk t).view.emb j = j := by
  obtain ⟨-, -, e0, e1, -⟩ := idx_facts0 t
  funext a; apply Fin.ext
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega

theorem emb0_2 (t : Fin cfg0.N) (j : S1x256.Idx) : ((cfg0.win 2).blk t).view.emb j = j := by
  obtain ⟨-, -, -, -, e0, e1, -⟩ := idx_facts0 t
  funext a; apply Fin.ext
  match a with
  | ⟨0, _⟩ => show win0_2.index t (0 : Fin 2) * 1 + 1 * (j 0).val = (j 0).val; rw [e0]; omega
  | ⟨1, _⟩ => show win0_2.index t (1 : Fin 2) * 256 + 1 * (j 1).val = (j 1).val; rw [e1]; omega

theorem emb0_3 (t : Fin cfg0.N) (j : S256x144.Idx) : ((cfg0.win 3).blk t).view.emb j = j := by
  obtain ⟨-, -, -, -, -, -, e0, e1, -⟩ := idx_facts0 t
  funext a; apply Fin.ext
  match a with
  | ⟨0, _⟩ => show win0_3.index t (0 : Fin 2) * 256 + 1 * (j 0).val = (j 0).val; rw [e0]; omega
  | ⟨1, _⟩ => show win0_3.index t (1 : Fin 2) * 144 + 1 * (j 1).val = (j 1).val; rw [e1]; omega

theorem emb0_4 (t : Fin cfg0.N) (j : S1x144.Idx) : ((cfg0.win 4).blk t).view.emb j = j := by
  obtain ⟨-, -, -, -, -, -, -, -, e0, e1, -⟩ := idx_facts0 t
  funext a; apply Fin.ext
  match a with
  | ⟨0, _⟩ => show win0_4.index t (0 : Fin 2) * 1 + 1 * (j 0).val = (j 0).val; rw [e0]; omega
  | ⟨1, _⟩ => show win0_4.index t (1 : Fin 2) * 144 + 1 * (j 1).val = (j 1).val; rw [e1]; omega

theorem emb0_5 (t : Fin cfg0.N) (p : Fin 1024) (q : Fin 256) :
    ((cfg0.win 5).blk t).view.emb (ix2 p q) = (ix2 (⟨t.val * 1024 + p.val, by have := point_lt0 t; omega⟩ : Fin 4096) q : S4096x256.Idx) := by
  obtain ⟨-, -, -, -, -, -, -, -, -, -, e0, e1, -⟩ := idx_facts0 t
  funext a; apply Fin.ext
  match a with
  | ⟨0, _⟩ => show win0_5.index t (0 : Fin 2) * 1024 + 1 * p.val = t.val * 1024 + p.val; rw [e0]; omega
  | ⟨1, _⟩ => show win0_5.index t (1 : Fin 2) * 256 + 1 * q.val = q.val; rw [e1]; omega

theorem emb0_6 (t : Fin cfg0.N) (p : Fin 1024) (q : Fin 144) :
    ((cfg0.win 6).blk t).view.emb (ix2 p q) = (ix2 (⟨t.val * 1024 + p.val, by have := point_lt0 t; omega⟩ : Fin 4096) q : S4096x144.Idx) := by
  obtain ⟨-, -, -, -, -, -, -, -, -, -, -, -, e0, e1⟩ := idx_facts0 t
  funext a; apply Fin.ext
  match a with
  | ⟨0, _⟩ => show win0_6.index t (0 : Fin 2) * 1024 + 1 * p.val = t.val * 1024 + p.val; rw [e0]; omega
  | ⟨1, _⟩ => show win0_6.index t (1 : Fin 2) * 144 + 1 * q.val = q.val; rw [e1]; omega

theorem mem_blk0_5 (t : Fin cfg0.N) (i : S4096x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v8_0).slice (win0_5.rect t)).set ↔ _
  rw [View.set_slice_whole, Rect.mem_set_unit]
  exact Iff.rfl

theorem mem_blk0_6 (t : Fin cfg0.N) (i : S4096x144.Idx) :
    i ∈ ((cfg0.win 6).blk t).view.set ↔ ∀ a : Fin 2, win0_6.index t a * S1024x144.size a ≤ (i a).val ∧ (i a).val < win0_6.index t a * S1024x144.size a + S1024x144.size a := by
  show i ∈ ((View.whole main_v8_1).slice (win0_6.rect t)).set ↔ _
  rw [View.set_slice_whole, Rect.mem_set_unit]
  exact Iff.rfl

theorem covered0_5 (i : S4096x256.Idx) : ∃ t : Fin cfg0.N, (cfg0.win 5).flush t = true ∧ i ∈ ((cfg0.win 5).blk t).view.set := by
  have hi0 : (i 0).val < 4096 := (i 0).isLt
  have hi1 : (i 1).val < 256 := (i 1).isLt
  have hN : (i 0).val / 1024 < grid0.N := by rw [N_0]; omega
  refine ⟨⟨(i 0).val / 1024, hN⟩, flush0_5 _, ?_⟩
  rw [mem_blk0_5]
  obtain ⟨-, -, -, -, -, -, -, -, -, -, e0, e1, -⟩ := idx_facts0 ⟨(i 0).val / 1024, hN⟩
  intro a
  match a with
  | ⟨0, _⟩ => show win0_5.index ⟨(i 0).val / 1024, hN⟩ (0 : Fin 2) * 1024 ≤ (i 0).val ∧ (i 0).val < win0_5.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win0_5.index ⟨(i 0).val / 1024, hN⟩ (1 : Fin 2) * 256 ≤ (i 1).val ∧ (i 1).val < win0_5.index ⟨(i 0).val / 1024, hN⟩ (1 : Fin 2) * 256 + 256; rw [e1]; omega

theorem covered0_6 (i : S4096x144.Idx) : ∃ t : Fin cfg0.N, (cfg0.win 6).flush t = true ∧ i ∈ ((cfg0.win 6).blk t).view.set := by
  have hi0 : (i 0).val < 4096 := (i 0).isLt
  have hi1 : (i 1).val < 144 := (i 1).isLt
  have hN : (i 0).val / 1024 < grid0.N := by rw [N_0]; omega
  refine ⟨⟨(i 0).val / 1024, hN⟩, flush0_6 _, ?_⟩
  rw [mem_blk0_6]
  obtain ⟨-, -, -, -, -, -, -, -, -, -, -, -, e0, e1⟩ := idx_facts0 ⟨(i 0).val / 1024, hN⟩
  intro a
  match a with
  | ⟨0, _⟩ => show win0_6.index ⟨(i 0).val / 1024, hN⟩ (0 : Fin 2) * 1024 ≤ (i 0).val ∧ (i 0).val < win0_6.index ⟨(i 0).val / 1024, hN⟩ (0 : Fin 2) * 1024 + 1024; rw [e0]; show (i 0).val / 1024 * 1024 ≤ (i 0).val ∧ (i 0).val < (i 0).val / 1024 * 1024 + 1024; omega
  | ⟨1, _⟩ => show win0_6.index ⟨(i 0).val / 1024, hN⟩ (1 : Fin 2) * 144 ≤ (i 1).val ∧ (i 1).val < win0_6.index ⟨(i 0).val / 1024, hN⟩ (1 : Fin 2) * 144 + 144; rw [e1]; omega

/-! ## From the blocks to the arrays -/

variable (V : (c : Dev nD) → (b : Ref sig .tc) → Buf (Elt Ideal) ((c : Thread nD τ).loc b))

/-- The block of activations at point `t` is rows 1024·t … of the array. -/
theorem iblk0_0_apply (c : Dev nD) (t : Fin cfg0.N) (p : Fin 1024) (k : Fin 256) :
    (iblk0 V c 0 t : S1024x256.Idx → EReal) (ix2 p k)
      = (V c main_arg0 : S4096x256.Idx → EReal) (ix2 (⟨t.val * 1024 + p.val, by have := point_lt0 t; have := p.isLt; omega⟩ : Fin 4096) k) :=
  congrArg (V c main_arg0 : S4096x256.Idx → EReal) (emb0_0 t p k)

/-- The blocks of the four parameter windows are their arrays, at every point. -/
theorem iblk0_1_eq (c : Dev nD) (t : Fin cfg0.N) : (iblk0 V c 1 t : S256x256.Idx → EReal) = V c main_v4 :=
  funext fun j => congrArg (V c main_v4 : S256x256.Idx → EReal) (emb0_1 t j)
theorem iblk0_2_eq (c : Dev nD) (t : Fin cfg0.N) : (iblk0 V c 2 t : S1x256.Idx → EReal) = V c main_v6 :=
  funext fun j => congrArg (V c main_v6 : S1x256.Idx → EReal) (emb0_2 t j)
theorem iblk0_3_eq (c : Dev nD) (t : Fin cfg0.N) : (iblk0 V c 3 t : S256x144.Idx → EReal) = V c main_v5 :=
  funext fun j => congrArg (V c main_v5 : S256x144.Idx → EReal) (emb0_3 t j)
theorem iblk0_4_eq (c : Dev nD) (t : Fin cfg0.N) : (iblk0 V c 4 t : S1x144.Idx → EReal) = V c main_v7 :=
  funext fun j => congrArg (V c main_v7 : S1x144.Idx → EReal) (emb0_4 t j)

/-- What point `t` writes back to the first result array is block `t` of the gated dense layer of the arrays as
    the region finds them. -/
theorem flushed0_5_eq (c : Dev nD) (t : Fin cfg0.N) :
    (dat0 (F := Ideal) V c).flushed 5 t = ((cfg0.win 5).blk t).view.read (Elt Ideal)
      (Cert.Spec.gated (V c main_arg0 : S4096x256.Idx → EReal) (V c main_v4 : S256x256.Idx → EReal) (fun q => (V c main_v6 : S1x256.Idx → EReal) (ix2 (0 : Fin 1) q))) := by
  show (cfg0.win 5).cut (grid0.coords t) ((dat0 (F := Ideal) V c).after 5 t) = _
  rw [after0_5]
  unfold out0_5
  rw [View.canon_unit_zero hz0]
  simp only [View.ld_unit_zero (S := S1024x256) hz0, View.ld_unit_zero (S := S256x256) hz0, View.ld_unit_zero (S := S1x256) hz0]
  funext j
  obtain ⟨p, q, rfl⟩ : ∃ (p : Fin 1024) (q : Fin 256), j = ix2 p q := ⟨j 0, j 1, eq_ix2 j⟩
  show k0_pay1 (F := Ideal) (iblk0 V c 0 t) (iblk0 V c 1 t) (iblk0 V c 2 t) (ix2 p q)
    = Cert.Spec.gated (V c main_arg0 : S4096x256.Idx → EReal) (V c main_v4 : S256x256.Idx → EReal) (fun q => (V c main_v6 : S1x256.Idx → EReal) (ix2 (0 : Fin 1) q))
        (((cfg0.win 5).blk t).view.emb (ix2 p q))
  rw [emb0_5 t p q, iblk0_1_eq, iblk0_2_eq]
  exact pay0_1_block _ _ _ t.val (point_lt0 t) _ (iblk0_0_apply V c t) p q

/-- What point `t` writes back to the second result array is block `t` of the dense layer of that gated layer. -/
theorem flushed0_6_eq (c : Dev nD) (t : Fin cfg0.N) :
    (dat0 (F := Ideal) V c).flushed 6 t = ((cfg0.win 6).blk t).view.read (Elt Ideal)
      (Cert.Spec.dense (Cert.Spec.gated (V c main_arg0 : S4096x256.Idx → EReal) (V c main_v4 : S256x256.Idx → EReal) (fun q => (V c main_v6 : S1x256.Idx → EReal) (ix2 (0 : Fin 1) q)))
        (V c main_v5 : S256x144.Idx → EReal) (fun q => (V c main_v7 : S1x144.Idx → EReal) (ix2 (0 : Fin 1) q))) := by
  show (cfg0.win 6).cut (grid0.coords t) ((dat0 (F := Ideal) V c).after 6 t) = _
  rw [after0_6]
  unfold out0_6
  rw [View.canon_unit_zero hz0]
  simp only [View.ld_unit_zero (S := S1024x256) hz0, View.ld_unit_zero (S := S256x256) hz0, View.ld_unit_zero (S := S1x256) hz0,
    View.ld_unit_zero (S := S256x144) hz0, View.ld_unit_zero (S := S1x144) hz0]
  funext j
  obtain ⟨p, q, rfl⟩ : ∃ (p : Fin 1024) (q : Fin 144), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = Cert.Spec.dense (Cert.Spec.gated (V c main_arg0 : S4096x256.Idx → EReal) (V c main_v4 : S256x256.Idx → EReal) (fun q => (V c main_v6 : S1x256.Idx → EReal) (ix2 (0 : Fin 1) q)))
        (V c main_v5 : S256x144.Idx → EReal) (fun q => (V c main_v7 : S1x144.Idx → EReal) (ix2 (0 : Fin 1) q))
        (((cfg0.win 6).blk t).view.emb (ix2 p q))
  rw [emb0_6 t p q, iblk0_1_eq, iblk0_2_eq, iblk0_3_eq, iblk0_4_eq]
  exact pay0_2_block _ _ _ _ _ t.val (point_lt0 t) _ (iblk0_0_apply V c t) p q

/-- The first result array after the region: the gated dense layer of the activations. -/
theorem final0_5 (c : Dev nD) : (dat0 (F := Ideal) V c).arrAt 5 cfg0.N
    = Cert.Spec.gated (V c main_arg0) (V c main_v4) (fun q => V c main_v6 (ValueIdx.ix2 0 q)) :=
  (dat0 (F := Ideal) V c).arrAt_eq_of_cover 5 _ (fun t _ => flushed0_5_eq V c t) covered0_5

/-- The second result array after the region: the dense layer of the gated dense layer. -/
theorem final0_6 (c : Dev nD) : (dat0 (F := Ideal) V c).arrAt 6 cfg0.N
    = Cert.Spec.dense (Cert.Spec.gated (V c main_arg0) (V c main_v4) (fun q => V c main_v6 (ValueIdx.ix2 0 q))) (V c main_v5)
        (fun q => V c main_v7 (ValueIdx.ix2 0 q)) :=
  (dat0 (F := Ideal) V c).arrAt_eq_of_cover 6 _ (fun t _ => flushed0_6_eq V c t) covered0_6

end Cert.KernelIdeal.HandVal

end
-- ==== Proof.RefVal.lean ====
/-
  The reference's stages read as the layers they are, over the extended reals.

  The node head's first stage is a gated dense layer of the node features against the transposed shared weight; its
  second stage is a plain dense layer of the first against the transposed atom weight, and the two outputs are column
  slices of it. The symmetrised edge array is half the sum of the scattered array and its mirror image in the two node
  axes. The edge head gates the sum of two gathered node rows, a dense layer of the gathered symmetrised edge row and a
  bias, and applies a last dense layer. The transposed weights, the scatter and the three gathers are left as they
  stand: only their names are needed to say what the later stages compute.
-/
import proofs.«156641_j38199439130848_1_alg».proof.Proof.Gen.ReferenceIdeal.Run
import proofs.«156641_j38199439130848_1_alg».proof.Proof.Gen.ReferenceIdeal.Read
import proofs.«156641_j38199439130848_1_alg».proof.Proof.Spec
import proofs.«156641_j38199439130848_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The index functions of the layout operations, at coordinates -/

/-- The first product reads its left operand at (row, k). -/
theorem lidx_v1 (n : Fin 4096) (d k : Fin 256) : lidx_main_v1 (ix2 n d) k = ix2 n k :=
  funext fun a => Fin.ext (by match a with | ⟨0, _⟩ => rfl | ⟨1, _⟩ => rfl)

/-- The first product reads its right operand at (k, column). -/
theorem ridx_v1 (n : Fin 4096) (d k : Fin 256) : ridx_main_v1 (ix2 n d) k = ix2 k d :=
  funext fun a => Fin.ext (by match a with | ⟨0, _⟩ => rfl | ⟨1, _⟩ => rfl)

/-- The shared bias, broadcast along the rows, is read at the column. -/
theorem idx_v3_v2 (n : Fin 4096) (d : Fin 256) : idx_main_v2 (idx_main_v3 (ix2 n d)) = ix1 d :=
  funext fun a => Fin.ext (by match a with | ⟨0, _⟩ => rfl)

/-- The atom product reads its left operand at (row, k). -/
theorem lidx_v11 (n : Fin 4096) (d : Fin 144) (k : Fin 256) : lidx_main_v11 (ix2 n d) k = ix2 n k :=
  funext fun a => Fin.ext (by match a with | ⟨0, _⟩ => rfl | ⟨1, _⟩ => rfl)

/-- The atom product reads its right operand at (k, column). -/
theorem ridx_v11 (n : Fin 4096) (d : Fin 144) (k : Fin 256) : ridx_main_v11 (ix2 n d) k = ix2 k d :=
  funext fun a => Fin.ext (by match a with | ⟨0, _⟩ => rfl | ⟨1, _⟩ => rfl)

/-- The atom bias, broadcast along the rows, is read at the column. -/
theorem idx_v13_v12 (n : Fin 4096) (d : Fin 144) : idx_main_v12 (idx_main_v13 (ix2 n d)) = ix1 d :=
  funext fun a => Fin.ext (by match a with | ⟨0, _⟩ => rfl)

/-- The transpose of the two node axes reads the mirror entry. -/
theorem idx_v32 (a b : Fin 4096) (c : Fin 16) : idx_main_v32 (ix3 a b c) = ix3 b a c :=
  funext fun t => Fin.ext (by match t with | ⟨0, _⟩ => rfl | ⟨1, _⟩ => rfl | ⟨2, _⟩ => rfl)

/-- The bond product reads its left operand at (edge, k). -/
theorem lidx_v66 (e : Fin 262144) (d : Fin 256) (k : Fin 16) : lidx_main_v66 (ix2 e d) k = ix2 e k :=
  funext fun a => Fin.ext (by match a with | ⟨0, _⟩ => rfl | ⟨1, _⟩ => rfl)

/-- The bond product reads its right operand at (k, column). -/
theorem ridx_v66 (e : Fin 262144) (d : Fin 256) (k : Fin 16) : ridx_main_v66 (ix2 e d) k = ix2 k d :=
  funext fun a => Fin.ext (by match a with | ⟨0, _⟩ => rfl | ⟨1, _⟩ => rfl)

/-- The bond bias, broadcast along the edges, is read at the column. -/
theorem idx_v69_v68 (e : Fin 262144) (d : Fin 256) : idx_main_v68 (idx_main_v69 (ix2 e d)) = ix1 d :=
  funext fun a => Fin.ext (by match a with | ⟨0, _⟩ => rfl)

/-- The last product reads its left operand at (edge, k). -/
theorem lidx_v73 (e : Fin 262144) (t : Fin 5) (k : Fin 256) : lidx_main_v73 (ix2 e t) k = ix2 e k :=
  funext fun a => Fin.ext (by match a with | ⟨0, _⟩ => rfl | ⟨1, _⟩ => rfl)

/-- The last product reads its right operand at (k, column). -/
theorem ridx_v73 (e : Fin 262144) (t : Fin 5) (k : Fin 256) : ridx_main_v73 (ix2 e t) k = ix2 k t :=
  funext fun a => Fin.ext (by match a with | ⟨0, _⟩ => rfl | ⟨1, _⟩ => rfl)

/-- The last bias, broadcast along the edges, is read at the column. -/
theorem idx_v75_v74 (e : Fin 262144) (t : Fin 5) : idx_main_v74 (idx_main_v75 (ix2 e t)) = ix1 t :=
  funext fun a => Fin.ext (by match a with | ⟨0, _⟩ => rfl)

/-! ## The node head -/

/-- %5 = silu(s · W_sharedᵀ + b_shared): a gated dense layer against the transposed weight. -/
theorem ref_v5 (x0 : (⟨S4096x256, .f32⟩ : BufTy).Contents (Elt Ideal)) (x4 : (⟨S256x256, .f32⟩ : BufTy).Contents (Elt Ideal))
    (x5 : (⟨S256, .f32⟩ : BufTy).Contents (Elt Ideal)) :
    val_main_v5 (F := Ideal) x0 x4 x5 = Cert.Spec.gated x0 (val_main_v0 (F := Ideal) x4) (fun q => x5 (ix1 q)) := by
  funext i
  obtain ⟨n, d, rfl⟩ : ∃ (n : Fin 4096) (d : Fin 256), i = ix2 n d := ⟨i 0, i 1, eq_ix2 i⟩
  rw [val_main_v5_apply, val_main_call0_v5_apply, val_main_call0_v4_apply, val_main_call0_cst_0_apply,
    val_main_call0_v3_apply, val_main_call0_v2_apply, val_main_call0_cst_apply, val_main_call0_v1_apply,
    val_main_call0_v0_apply, val_main_v4_apply, val_main_v1_apply, val_main_v3_apply, val_main_v2_apply,
    Cert.Spec.gated_apply]
  simp only [lidx_v1, ridx_v1, idx_v3_v2, Ideal.mulf_def, Ideal.hostDivf_def, Ideal.addf_def, Ideal.hostUnary_exp_def,
    Ideal.hostNegf_def, Ideal.negf_def, Ideal.ofBits_def, Ideal.ofBits_one_f32, Cert.Spec.silu]
  rfl

/-- %14 = %5 · W_atomsᵀ + b_atoms: a dense layer of the first stage against the transposed weight. -/
theorem ref_v14 (x0 : (⟨S4096x256, .f32⟩ : BufTy).Contents (Elt Ideal)) (x4 : (⟨S256x256, .f32⟩ : BufTy).Contents (Elt Ideal))
    (x5 : (⟨S256, .f32⟩ : BufTy).Contents (Elt Ideal)) (x10 : (⟨S144x256, .f32⟩ : BufTy).Contents (Elt Ideal))
    (x11 : (⟨S144, .f32⟩ : BufTy).Contents (Elt Ideal)) :
    val_main_v14 (F := Ideal) x0 x4 x5 x10 x11
      = Cert.Spec.dense (val_main_v5 (F := Ideal) x0 x4 x5) (val_main_v10 (F := Ideal) x10) (fun q => x11 (ix1 q)) := by
  funext i
  obtain ⟨n, d, rfl⟩ : ∃ (n : Fin 4096) (d : Fin 144), i = ix2 n d := ⟨i 0, i 1, eq_ix2 i⟩
  rw [val_main_v14_apply, val_main_v11_apply, val_main_v13_apply, val_main_v12_apply, Cert.Spec.dense_apply]
  simp only [lidx_v11, ridx_v11, idx_v13_v12, Ideal.addf_def]

/-- %15: the first sixteen columns of %14. -/
theorem ref_v15_def (x0 : (⟨S4096x256, .f32⟩ : BufTy).Contents (Elt Ideal)) (x4 : (⟨S256x256, .f32⟩ : BufTy).Contents (Elt Ideal))
    (x5 : (⟨S256, .f32⟩ : BufTy).Contents (Elt Ideal)) (x10 : (⟨S144x256, .f32⟩ : BufTy).Contents (Elt Ideal))
    (x11 : (⟨S144, .f32⟩ : BufTy).Contents (Elt Ideal)) :
    val_main_v15 (F := Ideal) x0 x4 x5 x10 x11
      = extractStridedSlice S4096x16 ![0, 0] (val_main_v14 (F := Ideal) x0 x4 x5 x10 x11) slices_S4096x144_S4096x16_0_0 := rfl

/-- %16: the remaining 128 columns of %14. -/
theorem ref_v16_def (x0 : (⟨S4096x256, .f32⟩ : BufTy).Contents (Elt Ideal)) (x4 : (⟨S256x256, .f32⟩ : BufTy).Contents (Elt Ideal))
    (x5 : (⟨S256, .f32⟩ : BufTy).Contents (Elt Ideal)) (x10 : (⟨S144x256, .f32⟩ : BufTy).Contents (Elt Ideal))
    (x11 : (⟨S144, .f32⟩ : BufTy).Contents (Elt Ideal)) :
    val_main_v16 (F := Ideal) x0 x4 x5 x10 x11
      = extractStridedSlice S4096x128 ![0, 16] (val_main_v14 (F := Ideal) x0 x4 x5 x10 x11) slices_S4096x144_S4096x128_0_16 := rfl

/-! ## The symmetrised edge array -/

/-- %31: the scatter of the edge rows into the zero array, at the index pairs %30. -/
theorem ref_v31_def (x1 : (⟨S262144x16, .f32⟩ : BufTy).Contents (Elt Ideal)) (x3 : (⟨S2x262144, .i32⟩ : BufTy).Contents (Elt Ideal)) :
    val_main_v31 (F := Ideal) x1 x3
      = Host.scatter scatter_S4096x4096x16_S262144x2_S262144x16_1_01_01_1 (fun _ b => b) (val_main_v17 (F := Ideal))
          (val_main_v30 (F := Ideal) x3) x1 := rfl

/-- %35 = 0.5 · (%31 + %31 with its node axes exchanged), entry by entry. -/
theorem ref_v35_apply (x1 : (⟨S262144x16, .f32⟩ : BufTy).Contents (Elt Ideal)) (x3 : (⟨S2x262144, .i32⟩ : BufTy).Contents (Elt Ideal))
    (a b : Fin 4096) (c : Fin 16) :
    val_main_v35 (F := Ideal) x1 x3 (ix3 a b c)
      = Ideal.ofBits .f32 0x3F000000#32
          * (val_main_v31 (F := Ideal) x1 x3 (ix3 a b c) + val_main_v31 (F := Ideal) x1 x3 (ix3 b a c)) := by
  rw [val_main_v35_apply, val_main_v34_apply, val_main_cst_3_apply, val_main_v33_apply, val_main_v32_apply, idx_v32]
  simp only [Ideal.mulf_def, Ideal.addf_def, Ideal.ofBits_def]

/-- %49: the gather of the symmetrised array's rows at the index pairs %48. -/
theorem ref_v49_def (x1 : (⟨S262144x16, .f32⟩ : BufTy).Contents (Elt Ideal)) (x3 : (⟨S2x262144, .i32⟩ : BufTy).Contents (Elt Ideal)) :
    val_main_v49 (F := Ideal) x1 x3
      = Host.gather gather_S4096x4096x16_S262144x2_S262144x16_1_01_n_n_01_1_1116 (val_main_v35 (F := Ideal) x1 x3)
          (val_main_v48 (F := Ideal) x3) := rfl

/-! ## The edge head -/

/-- %56: the gather of the first stage's rows at the indices %55. -/
theorem ref_v56_def (x0 : (⟨S4096x256, .f32⟩ : BufTy).Contents (Elt Ideal)) (x3 : (⟨S2x262144, .i32⟩ : BufTy).Contents (Elt Ideal))
    (x4 : (⟨S256x256, .f32⟩ : BufTy).Contents (Elt Ideal)) (x5 : (⟨S256, .f32⟩ : BufTy).Contents (Elt Ideal)) :
    val_main_v56 (F := Ideal) x0 x3 x4 x5
      = Host.gather gather_S4096x256_S262144x1_S262144x256_1_0_n_n_0_1_1256 (val_main_v5 (F := Ideal) x0 x4 x5)
          (val_main_v55 (F := Ideal) x3) := rfl

/-- %63: the gather of the first stage's rows at the indices %62. -/
theorem ref_v63_def (x0 : (⟨S4096x256, .f32⟩ : BufTy).Contents (Elt Ideal)) (x3 : (⟨S2x262144, .i32⟩ : BufTy).Contents (Elt Ideal))
    (x4 : (⟨S256x256, .f32⟩ : BufTy).Contents (Elt Ideal)) (x5 : (⟨S256, .f32⟩ : BufTy).Contents (Elt Ideal)) :
    val_main_v63 (F := Ideal) x0 x3 x4 x5
      = Host.gather gather_S4096x256_S262144x1_S262144x256_1_0_n_n_0_1_1256 (val_main_v5 (F := Ideal) x0 x4 x5)
          (val_main_v62 (F := Ideal) x3) := rfl

/-- %71 at (edge, column): the gate of ((%56 + %63) + %49 · W_bondᵀ) + b_bond. -/
theorem ref_v71_apply (x0 : (⟨S4096x256, .f32⟩ : BufTy).Contents (Elt Ideal)) (x1 : (⟨S262144x16, .f32⟩ : BufTy).Contents (Elt Ideal))
    (x3 : (⟨S2x262144, .i32⟩ : BufTy).Contents (Elt Ideal)) (x4 : (⟨S256x256, .f32⟩ : BufTy).Contents (Elt Ideal))
    (x5 : (⟨S256, .f32⟩ : BufTy).Contents (Elt Ideal)) (x6 : (⟨S256x16, .f32⟩ : BufTy).Contents (Elt Ideal))
    (x7 : (⟨S256, .f32⟩ : BufTy).Contents (Elt Ideal)) (e : Fin 262144) (d : Fin 256) :
    val_main_v71 (F := Ideal) x0 x1 x3 x4 x5 x6 x7 (ix2 e d)
      = Cert.Spec.silu (((val_main_v56 (F := Ideal) x0 x3 x4 x5 (ix2 e d) + val_main_v63 (F := Ideal) x0 x3 x4 x5 (ix2 e d))
          + (∑ k : Fin 16, val_main_v49 (F := Ideal) x1 x3 (ix2 e k) * val_main_v65 (F := Ideal) x6 (ix2 k d)))
          + x7 (ix1 d)) := by
  rw [val_main_v71_apply, val_main_call1_v5_apply, val_main_call1_v4_apply, val_main_call1_cst_0_apply,
    val_main_call1_v3_apply, val_main_call1_v2_apply, val_main_call1_cst_apply, val_main_call1_v1_apply,
    val_main_call1_v0_apply, val_main_v70_apply, val_main_v67_apply, val_main_v64_apply, val_main_v66_apply,
    val_main_v69_apply, val_main_v68_apply]
  simp only [lidx_v66, ridx_v66, idx_v69_v68, Ideal.mulf_def, Ideal.hostDivf_def, Ideal.addf_def, Ideal.hostUnary_exp_def,
    Ideal.hostNegf_def, Ideal.negf_def, Ideal.ofBits_def, Ideal.ofBits_one_f32, Cert.Spec.silu]
  rfl

/-- %76 = silu(((%56 + %63) + %49 · W_bondᵀ) + b_bond) · W_bondsᵀ + b_bonds: the edge head in the reference's grouping. -/
theorem ref_v76 (x0 : (⟨S4096x256, .f32⟩ : BufTy).Contents (Elt Ideal)) (x1 : (⟨S262144x16, .f32⟩ : BufTy).Contents (Elt Ideal))
    (x3 : (⟨S2x262144, .i32⟩ : BufTy).Contents (Elt Ideal)) (x4 : (⟨S256x256, .f32⟩ : BufTy).Contents (Elt Ideal))
    (x5 : (⟨S256, .f32⟩ : BufTy).Contents (Elt Ideal)) (x6 : (⟨S256x16, .f32⟩ : BufTy).Contents (Elt Ideal))
    (x7 : (⟨S256, .f32⟩ : BufTy).Contents (Elt Ideal)) (x8 : (⟨S5x256, .f32⟩ : BufTy).Contents (Elt Ideal))
    (x9 : (⟨S5, .f32⟩ : BufTy).Contents (Elt Ideal)) :
    val_main_v76 (F := Ideal) x0 x1 x3 x4 x5 x6 x7 x8 x9
      = Cert.Spec.edgeHeadRef (val_main_v56 (F := Ideal) x0 x3 x4 x5) (val_main_v63 (F := Ideal) x0 x3 x4 x5)
          (val_main_v49 (F := Ideal) x1 x3) (val_main_v65 (F := Ideal) x6) (fun q => x7 (ix1 q))
          (val_main_v72 (F := Ideal) x8) (fun q => x9 (ix1 q)) := by
  funext i
  obtain ⟨e, t, rfl⟩ : ∃ (e : Fin 262144) (t : Fin 5), i = ix2 e t := ⟨i 0, i 1, eq_ix2 i⟩
  unfold Cert.Spec.edgeHeadRef
  rw [val_main_v76_apply, val_main_v73_apply, val_main_v75_apply, val_main_v74_apply, Cert.Spec.dense_apply]
  simp only [lidx_v73, ridx_v73, idx_v75_v74, ref_v71_apply, Ideal.addf_def]

end Cert.ReferenceIdeal.RefValue

end
-- ==== Proof.BridgeA.lean ====
/- The node head of the two programs is one function of the arguments, over the extended reals.

   The kernel's first region leaves, in its two result arrays, the gated dense layer of the node features against the
   transposed shared weight with the shared bias, and the plain dense layer of that against the transposed atom weight
   with the atom bias. The reference's stages %5 and %14 are the same two layers. The weights the kernel's region reads
   were transposed on the host by the same operation the reference applies; the one-row biases the region reads are
   reshapes of the bias vectors, and a [D] vector reshaped to [1, D] reads at (0, q) what the vector reads at q. The two
   results returned to the caller are the same two column slices of the second layer in both programs. -/
import proofs.«156641_j38199439130848_1_alg».proof.Proof.KIHost
import proofs.«156641_j38199439130848_1_alg».proof.Proof.KIVal0
import proofs.«156641_j38199439130848_1_alg».proof.Proof.RefVal
import Idealize.ShloMosaic.Lib.ValueLayout
import Idealize.ShloMosaic.Lib.Pipeline.Value
set_option maxRecDepth 16384
noncomputable section
namespace Cert.Bridge
open Idealize.ShloMosaic Idealize.ShloMosaic.TcCoe Idealize.SL.Sem Idealize.ShloMosaic.ValueIdx
open Cert.KernelIdeal.Hand Cert.KernelIdeal.HandVal Cert.ReferenceIdeal.Read Cert.ReferenceIdeal.RefValue

variable [Cert.KernelIdeal.Facts] [Cert.ReferenceIdeal.Facts]

/-! ## The two layers, with the weights and biases named by what they are -/

/-- A gated dense layer whose weight is the reference's transposed shared weight and whose one-row bias reads the
    bias vector is the reference's stage %5. -/
theorem gated_eq_v5 (x0 : Cert.ReferenceIdeal.S4096x256.Idx → EReal) (x4 : Cert.ReferenceIdeal.S256x256.Idx → EReal)
    (x5 : Cert.ReferenceIdeal.S256.Idx → EReal)
    (A : Cert.ReferenceIdeal.S4096x256.Idx → EReal) (hA : A = x0)
    (W : Cert.ReferenceIdeal.S256x256.Idx → EReal) (hW : W = val_main_v0 (F := Ideal) x4)
    (B : Cert.KernelIdeal.S1x256.Idx → EReal) (hB : ∀ q : Fin 256, B (ix2 (0 : Fin 1) q) = x5 (ix1 q)) :
    Cert.Spec.gated A W (fun q => B (ix2 (0 : Fin 1) q)) = val_main_v5 (F := Ideal) x0 x4 x5 := by
  subst hA hW
  rw [ref_v5]
  exact congrArg (Cert.Spec.gated A (val_main_v0 (F := Ideal) x4)) (funext hB)

/-- A dense layer of the reference's stage %5 whose weight is the reference's transposed atom weight and whose
    one-row bias reads the bias vector is the reference's stage %14. -/
theorem dense_eq_v14 (x0 : Cert.ReferenceIdeal.S4096x256.Idx → EReal) (x4 : Cert.ReferenceIdeal.S256x256.Idx → EReal)
    (x5 : Cert.ReferenceIdeal.S256.Idx → EReal) (x10 : Cert.ReferenceIdeal.S144x256.Idx → EReal) (x11 : Cert.ReferenceIdeal.S144.Idx → EReal)
    (G : Cert.ReferenceIdeal.S4096x256.Idx → EReal) (hG : G = val_main_v5 (F := Ideal) x0 x4 x5)
    (W : Cert.ReferenceIdeal.S256x144.Idx → EReal) (hW : W = val_main_v10 (F := Ideal) x10)
    (B : Cert.KernelIdeal.S1x144.Idx → EReal) (hB : ∀ q : Fin 144, B (ix2 (0 : Fin 1) q) = x11 (ix1 q)) :
    Cert.Spec.dense G W (fun q => B (ix2 (0 : Fin 1) q)) = val_main_v14 (F := Ideal) x0 x4 x5 x10 x11 := by
  subst hG hW
  rw [ref_v14]
  exact congrArg (Cert.Spec.dense (val_main_v5 (F := Ideal) x0 x4 x5) (val_main_v10 (F := Ideal) x10)) (funext hB)

/-! ## The kernel's arrays against the reference's stages -/

variable (m : (ℓ : Loc Cert.KernelIdeal.nD Cert.KernelIdeal.τ Cert.KernelIdeal.sig) → Buf (Elt Ideal) ℓ)

/-- The region's transposed shared weight is the reference's stage %0. -/
theorem host_v4_ref (c : Dev Cert.KernelIdeal.nD) :
    (U1 m c Cert.KernelIdeal.main_v4 : Cert.ReferenceIdeal.S256x256.Idx → EReal)
      = val_main_v0 (F := Ideal) (m ((c : Thread Cert.KernelIdeal.nD Cert.KernelIdeal.τ).loc Cert.KernelIdeal.main_arg4)) :=
  (host_v4 m c).trans (by unfold val_main_v0; rfl)

/-- The region's transposed atom weight is the reference's stage %10. -/
theorem host_v5_ref (c : Dev Cert.KernelIdeal.nD) :
    (U1 m c Cert.KernelIdeal.main_v5 : Cert.ReferenceIdeal.S256x144.Idx → EReal)
      = val_main_v10 (F := Ideal) (m ((c : Thread Cert.KernelIdeal.nD Cert.KernelIdeal.τ).loc Cert.KernelIdeal.main_arg10)) :=
  (host_v5 m c).trans (by unfold val_main_v10; rfl)

/-- The region's one-row shared bias reads the bias vector. -/
theorem host_v6_apply (c : Dev Cert.KernelIdeal.nD) (q : Fin 256) :
    (U1 m c Cert.KernelIdeal.main_v6 : Cert.KernelIdeal.S1x256.Idx → EReal) (ix2 (0 : Fin 1) q)
      = (m ((c : Thread Cert.KernelIdeal.nD Cert.KernelIdeal.τ).loc Cert.KernelIdeal.main_arg5) : Cert.ReferenceIdeal.S256.Idx → EReal) (ix1 q) := by
  rw [host_v6 m c]
  exact shapeCast_a_1a_apply _ _ (0 : Fin 1) q

/-- The region's one-row atom bias reads the bias vector. -/
theorem host_v7_apply (c : Dev Cert.KernelIdeal.nD) (q : Fin 144) :
    (U1 m c Cert.KernelIdeal.main_v7 : Cert.KernelIdeal.S1x144.Idx → EReal) (ix2 (0 : Fin 1) q)
      = (m ((c : Thread Cert.KernelIdeal.nD Cert.KernelIdeal.τ).loc Cert.KernelIdeal.main_arg11) : Cert.ReferenceIdeal.S144.Idx → EReal) (ix1 q) := by
  rw [host_v7 m c]
  exact shapeCast_a_1a_apply _ _ (0 : Fin 1) q

/-- The region's first result array is the reference's stage %5. -/
theorem sact_eq (c : Dev Cert.KernelIdeal.nD) :
    (dat0 (U1 m) c).arrAt 5 Cert.KernelIdeal.cfg0.N
      = val_main_v5 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg4))
          (m ((c : Thread Cert.KernelIdeal.nD Cert.KernelIdeal.τ).loc Cert.KernelIdeal.main_arg5)) :=
  (final0_5 (U1 m) c).trans
    (gated_eq_v5 _ _ _ _ (host_arg0 m c) _ (host_v4_ref m c) _ (host_v6_apply m c))

/-- The region's second result array is the reference's stage %14. -/
theorem atoms_eq (c : Dev Cert.KernelIdeal.nD) :
    (dat0 (U1 m) c).arrAt 6 Cert.KernelIdeal.cfg0.N
      = val_main_v14 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg10))
          (m ((c : Thread Cert.KernelIdeal.nD Cert.KernelIdeal.τ).loc Cert.KernelIdeal.main_arg11)) :=
  (final0_6 (U1 m) c).trans
    (dense_eq_v14 _ _ _ _ _ _ ((final0_5 (U1 m) c).symm.trans (sact_eq m c)) _ (host_v5_ref m c) _ (host_v7_apply m c))

/-- The first returned array: the first sixteen columns of the second layer, in both programs. -/
theorem res_v9_eq (c : Dev Cert.KernelIdeal.nD) :
    Cert.KernelIdeal.Gen.V6 m (outs m) c Cert.KernelIdeal.main_v9
      = val_main_v15 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg10))
          (m ((c : Thread Cert.KernelIdeal.nD Cert.KernelIdeal.τ).loc Cert.KernelIdeal.main_arg11)) := by
  rw [res_v9 m c, atoms_eq m c]
  exact (ref_v15_def _ _ _ _ _).symm

/-- The second returned array: the remaining 128 columns of the second layer, in both programs. -/
theorem res_v10_eq (c : Dev Cert.KernelIdeal.nD) :
    Cert.KernelIdeal.Gen.V6 m (outs m) c Cert.KernelIdeal.main_v10
      = val_main_v16 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg10))
          (m ((c : Thread Cert.KernelIdeal.nD Cert.KernelIdeal.τ).loc Cert.KernelIdeal.main_arg11)) := by
  rw [res_v10 m c, atoms_eq m c]
  exact (ref_v16_def _ _ _ _ _).symm

end Cert.Bridge

end
-- ==== Proof.KIVal2.lean ====
/- The value of region 2 (the edge head's pipeline) at the extended reals: the payload of a block read entry by entry,
   each input block read off its array, and the output array after the region's 128 points as one function of the seven
   input arrays, the edge head of the specification. -/
import proofs.«156641_j38199439130848_1_alg».proof.Proof.KIR2
import proofs.«156641_j38199439130848_1_alg».proof.Proof.Spec
import proofs.«156641_j38199439130848_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.HandVal
open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The payload at an index -/

/-- The first product of the payload (a 2048 by 16 block against the 16 by 256 weight, into a zero accumulator) at an
    entry: the textbook contraction. The printed dimension numbers are the plain ones. -/
theorem matmul2_16_apply (a : FVec Ideal S2048x16 .bf16) (b : FVec Ideal S16x256 .bf16) (p : Fin 2048) (d : Fin 256) :
    matmul dot_S2048x16_S16x256_S2048x256_1_0_0_1_n_n none a b (constant S2048x256 .f32 0x00000000#32) (ix2 p d)
      = ∑ k : Fin 16, a (ix2 p k) * b (ix2 k d) :=
  Cert.Lib.PlainDot.matmul_zero_apply 2048 16 256 none a b p d

/-- The second product (a 2048 by 256 block against the 256 by 5 weight, into a zero accumulator) at an entry. -/
theorem matmul2_256_apply (a : FVec Ideal S2048x256 .bf16) (b : FVec Ideal S256x5 .bf16) (p : Fin 2048) (t : Fin 5) :
    matmul dot_S2048x256_S256x5_S2048x5_1_0_0_1_n_n none a b (constant S2048x5 .f32 0x00000000#32) (ix2 p t)
      = ∑ d : Fin 256, a (ix2 p d) * b (ix2 d t) :=
  Cert.Lib.PlainDot.matmul_zero_apply 2048 256 5 none a b p t

/-- The logistic function of a vector, at an index. -/
theorem logistic2_apply {s : Shape} (a : FVec Ideal s .f32) (i : s.Idx) : logistic a i = Ideal.logistic (a i) := rfl

/-- The edge head's payload at row `p`, column `t` of a block: the gate of the two node rows added to a dense layer
    of the edge row, then the last dense layer. A narrowing format change is the identity on extended reals, so the
    two products are taken of the very values the block holds. -/
theorem pay2_apply (v0 v2 : Vec Ideal S2048x256 .f32) (v4 : Vec Ideal S2048x16 .f32) (v7 : Vec Ideal S16x256 .f32)
    (v11 : Vec Ideal S1x256 .f32) (v20 : Vec Ideal S256x5 .f32) (v24 : Vec Ideal S1x5 .f32) (p : Fin 2048) (t : Fin 5) :
    k2_pay1 v0 v2 v4 v7 v11 v20 v24 (ix2 p t)
      = (∑ d : Fin 256, Cert.Spec.silu ((v0 (ix2 p d) + v2 (ix2 p d)) + ((∑ k : Fin 16, v4 (ix2 p k) * v7 (ix2 k d)) + v11 (ix2 0 d)))
            * v20 (ix2 d t)) + v24 (ix2 0 t) := by
  unfold k2_pay1
  simp only [shapeCast_self]
  rw [addf_apply, matmul2_256_apply, broadcastTo_1b_ab_apply]
  congr 1
  refine Finset.sum_congr rfl fun d _ => ?_
  rw [truncf_apply, truncf_apply, mulf_apply, logistic2_apply, addf_apply, addf_apply, addf_apply, matmul2_16_apply,
    broadcastTo_1b_ab_apply]
  simp only [truncf_apply]
  rfl

/-! ## The windows' block indices, decided once over the 128 points

At point `t` the three row-blocked inputs and the output sit at block `t` of the rows and block 0 of the columns; the
four whole-array inputs at block 0 of both axes. -/

theorem index_facts2_0 : ∀ t : Fin cfg2.N, win2_0.index t (0 : Fin 2) = t.val ∧ win2_0.index t (1 : Fin 2) = 0 :=
  (by decide +kernel : ∀ t : Fin grid2.N, _)
theorem index_facts2_1 : ∀ t : Fin cfg2.N, win2_1.index t (0 : Fin 2) = t.val ∧ win2_1.index t (1 : Fin 2) = 0 :=
  (by decide +kernel : ∀ t : Fin grid2.N, _)
theorem index_facts2_2 : ∀ t : Fin cfg2.N, win2_2.index t (0 : Fin 2) = t.val ∧ win2_2.index t (1 : Fin 2) = 0 :=
  (by decide +kernel : ∀ t : Fin grid2.N, _)
theorem index_facts2_3 : ∀ t : Fin cfg2.N, win2_3.index t (0 : Fin 2) = 0 ∧ win2_3.index t (1 : Fin 2) = 0 :=
  (by decide +kernel : ∀ t : Fin grid2.N, _)
theorem index_facts2_4 : ∀ t : Fin cfg2.N, win2_4.index t (0 : Fin 2) = 0 ∧ win2_4.index t (1 : Fin 2) = 0 :=
  (by decide +kernel : ∀ t : Fin grid2.N, _)
theorem index_facts2_5 : ∀ t : Fin cfg2.N, win2_5.index t (0 : Fin 2) = 0 ∧ win2_5.index t (1 : Fin 2) = 0 :=
  (by decide +kernel : ∀ t : Fin grid2.N, _)
theorem index_facts2_6 : ∀ t : Fin cfg2.N, win2_6.index t (0 : Fin 2) = 0 ∧ win2_6.index t (1 : Fin 2) = 0 :=
  (by decide +kernel : ∀ t : Fin grid2.N, _)
theorem index_facts2_7 : ∀ t : Fin cfg2.N, win2_7.index t (0 : Fin 2) = t.val ∧ win2_7.index t (1 : Fin 2) = 0 :=
  (by decide +kernel : ∀ t : Fin grid2.N, _)

/-- A point's number is below 128. -/
theorem point2_lt (t : Fin cfg2.N) : t.val < 128 := lt_of_lt_of_eq t.isLt N_2

theorem hz_region2 : (![0, 0] : Fin 2 → Nat) = fun _ => 0 := funext fun a => by fin_cases a <;> rfl

/-! ## Each input block, read off its array

An element of a block sits in the array at block index times block size plus its coordinate inside the block: row
`p` of a row-blocked window's block at point `t` is row `2048 t + p` of the array; a whole-array window's block is the
array. -/

theorem blk2_0_apply (c : Dev nD) (t : Fin cfg2.N) (p : Fin 2048) (d : Fin 256) (r : Fin 262144) (hr : r.val = t.val * 2048 + p.val) :
    (iblk2 V c 0 t : Vec Ideal S2048x256 .f32) (ix2 p d) = (V c main_v49 : S262144x256.Idx → EReal) (ix2 r d) := by
  obtain ⟨e0, e1⟩ := index_facts2_0 t
  unfold iblk2
  rw [View.read_apply]
  show V c main_v49 _ = V c main_v49 _
  congr 1
  funext a
  apply Fin.ext
  match a with
  | ⟨0, _⟩ => show win2_0.index t (0 : Fin 2) * 2048 + 1 * p.val = r.val; rw [e0, hr]; omega
  | ⟨1, _⟩ => show win2_0.index t (1 : Fin 2) * 256 + 1 * d.val = d.val; rw [e1]; omega

theorem blk2_1_apply (c : Dev nD) (t : Fin cfg2.N) (p : Fin 2048) (d : Fin 256) (r : Fin 262144) (hr : r.val = t.val * 2048 + p.val) :
    (iblk2 V c 1 t : Vec Ideal S2048x256 .f32) (ix2 p d) = (V c main_v56 : S262144x256.Idx → EReal) (ix2 r d) := by
  obtain ⟨e0, e1⟩ := index_facts2_1 t
  unfold iblk2
  rw [View.read_apply]
  show V c main_v56 _ = V c main_v56 _
  congr 1
  funext a
  apply Fin.ext
  match a with
  | ⟨0, _⟩ => show win2_1.index t (0 : Fin 2) * 2048 + 1 * p.val = r.val; rw [e0, hr]; omega
  | ⟨1, _⟩ => show win2_1.index t (1 : Fin 2) * 256 + 1 * d.val = d.val; rw [e1]; omega

theorem blk2_2_apply (c : Dev nD) (t : Fin cfg2.N) (p : Fin 2048) (k : Fin 16) (r : Fin 262144) (hr : r.val = t.val * 2048 + p.val) :
    (iblk2 V c 2 t : Vec Ideal S2048x16 .f32) (ix2 p k) = (V c main_v42 : S262144x16.Idx → EReal) (ix2 r k) := by
  obtain ⟨e0, e1⟩ := index_facts2_2 t
  unfold iblk2
  rw [View.read_apply]
  show V c main_v42 _ = V c main_v42 _
  congr 1
  funext a
  apply Fin.ext
  match a with
  | ⟨0, _⟩ => show win2_2.index t (0 : Fin 2) * 2048 + 1 * p.val = r.val; rw [e0, hr]; omega
  | ⟨1, _⟩ => show win2_2.index t (1 : Fin 2) * 16 + 1 * k.val = k.val; rw [e1]; omega

theorem blk2_3_apply (c : Dev nD) (t : Fin cfg2.N) (a : Fin 16) (b : Fin 256) :
    (iblk2 V c 3 t : Vec Ideal S16x256 .f32) (ix2 a b) = (V c main_v57 : S16x256.Idx → EReal) (ix2 a b) := by
  obtain ⟨e0, e1⟩ := index_facts2_3 t
  unfold iblk2
  rw [View.read_apply]
  show V c main_v57 _ = V c main_v57 _
  congr 1
  funext x
  apply Fin.ext
  match x with
  | ⟨0, _⟩ => show win2_3.index t (0 : Fin 2) * 16 + 1 * a.val = a.val; rw [e0]; omega
  | ⟨1, _⟩ => show win2_3.index t (1 : Fin 2) * 256 + 1 * b.val = b.val; rw [e1]; omega

theorem blk2_4_apply (c : Dev nD) (t : Fin cfg2.N) (a : Fin 1) (b : Fin 256) :
    (iblk2 V c 4 t : Vec Ideal S1x256 .f32) (ix2 a b) = (V c main_v59 : S1x256.Idx → EReal) (ix2 a b) := by
  obtain ⟨e0, e1⟩ := index_facts2_4 t
  unfold iblk2
  rw [View.read_apply]
  show V c main_v59 _ = V c main_v59 _
  congr 1
  funext x
  apply Fin.ext
  match x with
  | ⟨0, _⟩ => show win2_4.index t (0 : Fin 2) * 1 + 1 * a.val = a.val; rw [e0]; omega
  | ⟨1, _⟩ => show win2_4.index t (1 : Fin 2) * 256 + 1 * b.val = b.val; rw [e1]; omega

theorem blk2_5_apply (c : Dev nD) (t : Fin cfg2.N) (a : Fin 256) (b : Fin 5) :
    (iblk2 V c 5 t : Vec Ideal S256x5 .f32) (ix2 a b) = (V c main_v58 : S256x5.Idx → EReal) (ix2 a b) := by
  obtain ⟨e0, e1⟩ := index_facts2_5 t
  unfold iblk2
  rw [View.read_apply]
  show V c main_v58 _ = V c main_v58 _
  congr 1
  funext x
  apply Fin.ext
  match x with
  | ⟨0, _⟩ => show win2_5.index t (0 : Fin 2) * 256 + 1 * a.val = a.val; rw [e0]; omega
  | ⟨1, _⟩ => show win2_5.index t (1 : Fin 2) * 5 + 1 * b.val = b.val; rw [e1]; omega

theorem blk2_6_apply (c : Dev nD) (t : Fin cfg2.N) (a : Fin 1) (b : Fin 5) :
    (iblk2 V c 6 t : Vec Ideal S1x5 .f32) (ix2 a b) = (V c main_v60 : S1x5.Idx → EReal) (ix2 a b) := by
  obtain ⟨e0, e1⟩ := index_facts2_6 t
  unfold iblk2
  rw [View.read_apply]
  show V c main_v60 _ = V c main_v60 _
  congr 1
  funext x
  apply Fin.ext
  match x with
  | ⟨0, _⟩ => show win2_6.index t (0 : Fin 2) * 1 + 1 * a.val = a.val; rw [e0]; omega
  | ⟨1, _⟩ => show win2_6.index t (1 : Fin 2) * 5 + 1 * b.val = b.val; rw [e1]; omega

/-- Where the output block's element (`p`, `q`) at point `t` lands in the output array: row `2048 t + p`, column `q`. -/
theorem emb2_7_apply (t : Fin cfg2.N) (p : Fin 2048) (q : Fin 5) (r : Fin 262144) (hr : r.val = t.val * 2048 + p.val) :
    (((cfg2.win 7).blk t).view.emb (ix2 p q) : S262144x5.Idx) = ix2 r q := by
  obtain ⟨e0, e1⟩ := index_facts2_7 t
  funext a
  apply Fin.ext
  match a with
  | ⟨0, _⟩ => show win2_7.index t (0 : Fin 2) * 2048 + 1 * p.val = r.val; rw [e0, hr]; omega
  | ⟨1, _⟩ => show win2_7.index t (1 : Fin 2) * 5 + 1 * q.val = q.val; rw [e1]; omega

/-! ## From the blocks to the array -/

/-- What the output array ends holding: the edge head of the seven input arrays as the region finds them. -/
abbrev G2_7 (c : Dev nD) : S262144x5.Idx → EReal :=
  Cert.Spec.edgeHead (V c main_v49 : S262144x256.Idx → EReal) (V c main_v56 : S262144x256.Idx → EReal)
    (V c main_v42 : S262144x16.Idx → EReal) (V c main_v57 : S16x256.Idx → EReal)
    (fun q => (V c main_v59 : S1x256.Idx → EReal) (ix2 0 q)) (V c main_v58 : S256x5.Idx → EReal)
    (fun q => (V c main_v60 : S1x5.Idx → EReal) (ix2 0 q))

/-- What point `t` writes back is block `t` of the edge head of the input arrays. -/
theorem flushed2_7_eq (c : Dev nD) (t : Fin cfg2.N) :
    (dat2 (F := Ideal) V c).flushed 7 t = ((cfg2.win 7).blk t).view.read (Elt Ideal) (G2_7 V c) := by
  show (cfg2.win 7).cut (grid2.coords t) ((dat2 V c).after 7 t) = _
  rw [after2_7]
  unfold out2_7
  rw [View.canon_unit_zero hz_region2]
  simp only [View.ld_unit_zero (S := S2048x256) hz_region2, View.ld_unit_zero (S := S2048x16) hz_region2, View.ld_unit_zero (S := S16x256) hz_region2,
    View.ld_unit_zero (S := S1x256) hz_region2, View.ld_unit_zero (S := S256x5) hz_region2, View.ld_unit_zero (S := S1x5) hz_region2]
  funext j
  obtain ⟨p, q, rfl⟩ : ∃ (p : Fin 2048) (q : Fin 5), j = ix2 p q := ⟨j 0, j 1, eq_ix2 j⟩
  have hr : t.val * 2048 + p.val < 262144 := by have := point2_lt t; have := p.isLt; omega
  show k2_pay1 (F := Ideal) _ _ _ _ _ _ _ (ix2 p q) = G2_7 V c (((cfg2.win 7).blk t).view.emb (ix2 p q))
  rw [emb2_7_apply t p q ⟨_, hr⟩ rfl, pay2_apply]
  simp only [blk2_0_apply V c t p _ ⟨_, hr⟩ rfl, blk2_1_apply V c t p _ ⟨_, hr⟩ rfl, blk2_2_apply V c t p _ ⟨_, hr⟩ rfl,
    blk2_3_apply, blk2_4_apply, blk2_5_apply, blk2_6_apply]
  rfl

/-- An index of the output array is in point `t`'s block iff each coordinate is in the block's range on its axis. -/
theorem mem_blk2_7 (t : Fin cfg2.N) (i : S262144x5.Idx) :
    i ∈ ((cfg2.win 7).blk t).view.set ↔ ∀ a : Fin 2, win2_7.index t a * S2048x5.size a ≤ (i a).val ∧ (i a).val < win2_7.index t a * S2048x5.size a + S2048x5.size a := by
  show i ∈ ((View.whole main_v61).slice (win2_7.rect t)).set ↔ _
  rw [View.set_slice_whole, Rect.mem_set_unit]
  exact Iff.rfl

/-- Every index of the output array is in the block of a point that writes back: row `r` is in the block of point
    `r / 2048`. -/
theorem covered2_7 (i : S262144x5.Idx) : ∃ t : Fin cfg2.N, (cfg2.win 7).flush t = true ∧ i ∈ ((cfg2.win 7).blk t).view.set := by
  have h0 : (i 0).val < 262144 := idx2_lt0 i
  have h1 : (i 1).val < 5 := idx2_lt1 i
  have hlt : (i 0).val / 2048 < cfg2.N := lt_of_lt_of_eq (show (i 0).val / 2048 < 128 by omega) N_2.symm
  obtain ⟨e0, e1⟩ := index_facts2_7 ⟨(i 0).val / 2048, hlt⟩
  refine ⟨⟨(i 0).val / 2048, hlt⟩, flush2_7 _, ?_⟩
  rw [mem_blk2_7]
  intro a
  match a with
  | ⟨0, _⟩ =>
    show win2_7.index ⟨(i 0).val / 2048, hlt⟩ (0 : Fin 2) * 2048 ≤ (i 0).val
      ∧ (i 0).val < win2_7.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win2_7.index ⟨(i 0).val / 2048, hlt⟩ (1 : Fin 2) * 5 ≤ (i 1).val
      ∧ (i 1).val < win2_7.index ⟨(i 0).val / 2048, hlt⟩ (1 : Fin 2) * 5 + 5
    rw [e1]
    omega

/-- The output array after the run of the region: the edge head of the seven input arrays as the region finds them. -/
theorem final2_7 (c : Dev nD) : (dat2 (F := Ideal) V c).arrAt 7 cfg2.N
    = Cert.Spec.edgeHead (V c main_v49 : S262144x256.Idx → EReal) (V c main_v56 : S262144x256.Idx → EReal)
        (V c main_v42 : S262144x16.Idx → EReal) (V c main_v57 : S16x256.Idx → EReal)
        (fun q => (V c main_v59 : S1x256.Idx → EReal) (ix2 0 q)) (V c main_v58 : S256x5.Idx → EReal)
        (fun q => (V c main_v60 : S1x5.Idx → EReal) (ix2 0 q)) :=
  (dat2 V c).arrAt_eq_of_cover 7 (G2_7 V c) (fun t _ => flushed2_7_eq V c t) covered2_7

end Cert.KernelIdeal.HandVal

end
-- ==== Proof.KIVal1.lean ====
/-
  The value of region 1 over the extended reals: after the symmetrising kernel has run over its 16 x 16 grid, the
  output array holds, at entry (k, a, b), half (the half kept as the printed 32-bit word) of the sum of the input
  array's entries (k, a, b) and (k, b, a).

  The steps: the body's payload at an entry (a sum of the first block's entry and the second block's mirrored entry,
  times the constant); the printed index maps at a point t (blocks (0, t / 16, t % 16) and, for the second input
  window, the mirrored (0, t % 16, t / 16)), decided once over the grid; what a point writes back is its block of the
  symmetrised array; the output's blocks tile the array; hence the whole array.
-/
import proofs.«156641_j38199439130848_1_alg».proof.Proof.KIR1
import proofs.«156641_j38199439130848_1_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section

namespace Cert.KernelIdeal.HandVal
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The whole-buffer rectangle's offsets are zero on every axis. -/
theorem hz3 : (![0, 0, 0] : Fin 3 → Nat) = fun _ => 0 := funext fun a => by fin_cases a <;> rfl

/-- The body's payload at an entry: half (as the printed word) of the first block's entry plus the second
    block's mirrored entry. -/
theorem pay1_apply (v0 v2 : Vec Ideal S16x256x256 .f32) (k : Fin 16) (a b : Fin 256) :
    k1_pay1 v0 v2 (ix3 k a b) = Ideal.ofBits .f32 0x3F000000#32 * (v0 (ix3 k a b) + v2 (ix3 k b a)) := by
  unfold k1_pay1
  dsimp only
  rw [mulf_apply, broadcast_apply, addf_apply, shapeCast_self, shapeCast_self, transpose_ix3_021_apply]
  rfl

/-- Half the sum of an array's entries at two positions, the second the mirror image of the first, is the
    symmetrised array's entry at the first. -/
theorem symCF_of_positions (T : S16x4096x4096.Idx → EReal) (p0 p1 e : S16x4096x4096.Idx)
    (h0 : p0 = ix3 (e 0) (e 1) (e 2)) (h1 : p1 = ix3 (e 0) (e 2) (e 1)) :
    Ideal.ofBits .f32 0x3F000000#32 * (T p0 + T p1) = Cert.Spec.symCF T e := by
  subst h0; subst h1; rfl

variable (V : (c : Dev nD) → (b : Ref sig .tc) → Buf (Elt Ideal) ((c : Thread nD τ).loc b))

/-! ## From blocks to the array -/

/-- The printed index maps, decided over the 256 grid points: at point `t`, with `ib = t / 16` and `jb = t % 16`,
    windows 0 and 2 sit at block `(0, ib, jb)` and window 1 at the mirrored block `(0, jb, ib)`. -/
theorem idx_facts1 : ∀ t : Fin cfg1.N,
    win1_0.index t (0 : Fin 3) = 0 ∧ win1_0.index t (1 : Fin 3) = t.val / 16 ∧ win1_0.index t (2 : Fin 3) = t.val % 16
    ∧ win1_1.index t (0 : Fin 3) = 0 ∧ win1_1.index t (1 : Fin 3) = t.val % 16 ∧ win1_1.index t (2 : Fin 3) = t.val / 16
    ∧ win1_2.index t (0 : Fin 3) = 0 ∧ win1_2.index t (1 : Fin 3) = t.val / 16 ∧ win1_2.index t (2 : Fin 3) = t.val % 16 :=
  (by decide +kernel : ∀ t : Fin grid1.N, _)

/-- WHAT POINT `t` WRITES BACK is block `t` of the symmetrised array. -/
theorem flushed1_2_eq (c : Dev nD) (t : Fin cfg1.N) :
    (dat1 (F := Ideal) V c).flushed 2 t
      = ((cfg1.win 2).blk t).view.read (Elt Ideal) (Cert.Spec.symCF (V c main_v26 : S16x4096x4096.Idx → EReal)) := by
  show (cfg1.win 2).cut (grid1.coords t) ((dat1 V c).after 2 t) = _
  rw [after1_2]
  unfold out1_2
  rw [View.canon_unit_zero hz3]
  simp only [View.ld_unit_zero (S := S16x256x256) hz3]
  obtain ⟨e00, e01, e02, e10, e11, e12, e20, e21, e22⟩ := idx_facts1 t
  funext j
  obtain ⟨k, a, b, rfl⟩ : ∃ (k : Fin 16) (a b : Fin 256), j = ix3 k a b := ⟨j 0, j 1, j 2, eq_ix3 j⟩
  show k1_pay1 (iblk1 V c 0 t) (iblk1 V c 1 t) (ix3 k a b) = Cert.Spec.symCF (V c main_v26 : S16x4096x4096.Idx → EReal) (((cfg1.win 2).blk t).view.emb (ix3 k a b))
  rw [pay1_apply]
  have hk : k.val < 16 := k.isLt
  have ha : a.val < 256 := a.isLt
  have hb : b.val < 256 := b.isLt
  refine symCF_of_positions (V c main_v26) (((cfg1.win 0).blk t).view.emb (ix3 k a b))
    (((cfg1.win 1).blk t).view.emb (ix3 k b a)) (((cfg1.win 2).blk t).view.emb (ix3 k a b)) ?_ ?_
  · funext x; apply Fin.ext
    match x with
    | ⟨0, _⟩ => show win1_0.index t (0 : Fin 3) * 16 + 1 * k.val = win1_2.index t (0 : Fin 3) * 16 + 1 * k.val; omega
    | ⟨1, _⟩ => show win1_0.index t (1 : Fin 3) * 256 + 1 * a.val = win1_2.index t (1 : Fin 3) * 256 + 1 * a.val; omega
    | ⟨2, _⟩ => show win1_0.index t (2 : Fin 3) * 256 + 1 * b.val = win1_2.index t (2 : Fin 3) * 256 + 1 * b.val; omega
  · funext x; apply Fin.ext
    match x with
    | ⟨0, _⟩ => show win1_1.index t (0 : Fin 3) * 16 + 1 * k.val = win1_2.index t (0 : Fin 3) * 16 + 1 * k.val; omega
    | ⟨1, _⟩ => show win1_1.index t (1 : Fin 3) * 256 + 1 * b.val = win1_2.index t (2 : Fin 3) * 256 + 1 * b.val; omega
    | ⟨2, _⟩ => show win1_1.index t (2 : Fin 3) * 256 + 1 * a.val = win1_2.index t (1 : Fin 3) * 256 + 1 * a.val; omega

/-- An index of the array is in point `t`'s block iff each coordinate is in the block's range on its axis. -/
theorem mem_blk1_2 (t : Fin cfg1.N) (i : S16x4096x4096.Idx) :
    i ∈ ((cfg1.win 2).blk t).view.set ↔ ∀ a : Fin 3, win1_2.index t a * S16x256x256.size a ≤ (i a).val ∧ (i a).val < win1_2.index t a * S16x256x256.size a + S16x256x256.size a := by
  show i ∈ ((View.whole main_v27).slice (win1_2.rect t)).set ↔ _
  rw [View.set_slice_whole, Rect.mem_set_unit]
  exact Iff.rfl

/-- The output's blocks tile its array: entry `(k, a, b)` lies in the block of the point with `ib = a / 256` and
    `jb = b / 256`, the point number `(a / 256) * 16 + b / 256`. -/
theorem cover1_2_arr (i : S16x4096x4096.Idx) :
    ∃ t : Fin cfg1.N, (cfg1.win 2).flush t = true ∧ i ∈ ((cfg1.win 2).blk t).view.set := by
  have hi0 : (i 0).val < 16 := (i 0).isLt
  have hi1 : (i 1).val < 4096 := (i 1).isLt
  have hi2 : (i 2).val < 4096 := (i 2).isLt
  have hN : cfg1.N = 256 := N_1
  let t : Fin cfg1.N := ⟨(i 1).val / 256 * 16 + (i 2).val / 256, by rw [hN]; omega⟩
  have htv : t.val = (i 1).val / 256 * 16 + (i 2).val / 256 := rfl
  obtain ⟨e00, e01, e02, e10, e11, e12, e20, e21, e22⟩ := idx_facts1 t
  refine ⟨t, flush1_2 t, ?_⟩
  rw [mem_blk1_2]
  intro a
  match a with
  | ⟨0, _⟩ => show win1_2.index t (0 : Fin 3) * 16 ≤ (i 0).val ∧ (i 0).val < win1_2.index t (0 : Fin 3) * 16 + 16; omega
  | ⟨1, _⟩ => show win1_2.index t (1 : Fin 3) * 256 ≤ (i 1).val ∧ (i 1).val < win1_2.index t (1 : Fin 3) * 256 + 256; omega
  | ⟨2, _⟩ => show win1_2.index t (2 : Fin 3) * 256 ≤ (i 2).val ∧ (i 2).val < win1_2.index t (2 : Fin 3) * 256 + 256; omega

/-- THE ARRAY after the region: the symmetrised array of what the region found in the common input array. -/
theorem final1_2 (c : Dev nD) :
    (dat1 (F := Ideal) V c).arrAt 2 cfg1.N = Cert.Spec.symCF (V c main_v26 : S16x4096x4096.Idx → EReal) :=
  (dat1 (F := Ideal) V c).arrAt_eq_of_cover 2 (Cert.Spec.symCF (V c main_v26 : S16x4096x4096.Idx → EReal))
    (fun t _ => flushed1_2_eq V c t) cover1_2_arr

end Cert.KernelIdeal.HandVal
end
-- ==== Proof.LibGatherPairs.lean ====
/-
  ELEMENTS BY A PAIR OF INDICES. jnp's `x[:, rows, cols]` on a channel-first [C × N × N] array and `x[rows, cols]` on a
  channel-last [N × N × C] array both print as a `stablehlo.gather` whose start indices are an [E × 2] array of
  (row, column) pairs: the two square axes collapsed and start-indexed, the channel axis the result's one offset axis
  at its full width, no batching axes, the index vector on axis 1. This file reads both at ONE element, at any
  extents: result element (c, e) (channel-first) or (e, c) (channel-last) is the operand at channel c of the
  (row, column) position pair e names, each of the pair's two index words read SIGNED and CLAMPED into [0, N − 1]:
  a negative index reads position 0, one past the end reads the last position.
-/
import Idealize.ShloMosaic.Lib.ValueIdx
import Idealize.ShloMosaic.PureOps.Contract

noncomputable section

namespace Idealize.ShloMosaic.GatherPairs

open Idealize.ShloMosaic Idealize.ShloMosaic.ValueIdx

/-! ## Lists of axes -/

/-- A list with the one entry `x` reads `x` at every position it has. -/
theorem getElem_of_eq_singleton {α : Type} {l : List α} {x : α} (hl : l = [x]) (i : Nat) (h : i < l.length) : l[i] = x := by
  subst hl
  have hi : i = 0 := by simpa using h
  subst hi; rfl

/-- Of a rank-2 shape's two axes, the ones other than axis 0 are axis 1 alone. -/
theorem kept_zero (f : Fin 2 → Nat) : Shape.kept ⟨2, f⟩ [0] = [1] := by
  show (List.finRange 2).filter (· ∉ ([0] : List (Fin 2))) = [1]
  decide

/-- Of a rank-2 shape's two axes, the ones other than axis 1 are axis 0 alone. -/
theorem kept_one (f : Fin 2 → Nat) : Shape.kept ⟨2, f⟩ [1] = [0] := by
  show (List.finRange 2).filter (· ∉ ([1] : List (Fin 2))) = [0]
  decide

/-- A rank-2 index read at two names of the same axis has the same value. -/
theorem val_at {n0 n1 : Nat} (j : (⟨2, ![n0, n1]⟩ : Shape).Idx) (X Y : Fin 2) (h : X = Y) : (j X).val = (j Y).val := by
  subst h; rfl

/-! ## The start-indices position of one component of a pair -/

section SiIdx
variable {s : Shape} {C E K : Nat}

/-- Offset axis 0, batch axis 1 (the channel-first result [C × E]): result element (c, e) reads component k of its
    start index at position (e, k) of the [E × K] start indices. -/
theorem gather_siIdx_cf (d : GatherDims s ⟨2, ![E, K]⟩ ⟨2, ![C, E]⟩) (hoff : d.offsetDims = [0]) (hivd : d.indexVectorDim = 1)
    (j : (⟨2, ![C, E]⟩ : Shape).Idx) (c : Fin d.startIndexMap.length) (k : Fin K) (hc : c.val = k.val) :
    d.siIdx j c = ix2 (j 1) k := by
  funext b
  match b with
  | ⟨0, _⟩ =>
    unfold GatherDims.siIdx
    rw [dif_neg (by rw [hivd]; simp)]
    unfold GatherDims.siCoord
    apply Fin.ext
    simp only [Fin.val_cast]
    have hbd : d.batchDims = [1] := by
      show Shape.kept _ d.offsetDims = [1]
      rw [hoff]; exact kept_zero _
    exact val_at j _ _ (getElem_of_eq_singleton hbd _ _)
  | ⟨1, _⟩ =>
    unfold GatherDims.siIdx
    rw [dif_pos (by rw [hivd])]
    apply Fin.ext
    exact hc

/-- Offset axis 1, batch axis 0 (the channel-last result [E × C]): result element (e, c) reads component k of its
    start index at position (e, k) of the [E × K] start indices. -/
theorem gather_siIdx_cl (d : GatherDims s ⟨2, ![E, K]⟩ ⟨2, ![E, C]⟩) (hoff : d.offsetDims = [1]) (hivd : d.indexVectorDim = 1)
    (j : (⟨2, ![E, C]⟩ : Shape).Idx) (c : Fin d.startIndexMap.length) (k : Fin K) (hc : c.val = k.val) :
    d.siIdx j c = ix2 (j 0) k := by
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show Shape.kept _ d.offsetDims = [0]
      rw [hoff]; exact kept_one _
    exact val_at j _ _ (getElem_of_eq_singleton hbd _ _)
  | ⟨1, _⟩ =>
    unfold GatherDims.siIdx
    rw [dif_pos (by rw [hivd])]
    apply Fin.ext
    exact hc

end SiIdx

/-! ## The gather by pairs, channel-first -/

section ChannelFirst
variable {α : Type} {C N E w : Nat} (d : GatherDims ⟨3, ![C, N, N]⟩ ⟨2, ![E, 2]⟩ ⟨2, ![C, E]⟩)

/-- THE GATHER BY PAIRS, CHANNEL-FIRST. Result element (c, e) of `x[:, rows, cols]` is the operand at channel c, at the
    row the first word of pair e names and the column its second word names, each read signed and clamped into
    [0, N − 1]. -/
theorem gather_pairs_cf (hoff : d.offsetDims = [0]) (hcoll : d.collapsedSliceDims = [1, 2]) (hob : d.operandBatchingDims = [])
    (hsim : d.startIndexMap = [1, 2]) (hivd : d.indexVectorDim = 1)
    (x : (⟨3, ![C, N, N]⟩ : Shape).Idx → α) (idx : IVec ⟨2, ![E, 2]⟩ w) (c : Fin C) (e : Fin E) (hN : 0 < N) :
    Host.gather d x idx (ix2 c e)
      = x (ix3 c ⟨min (idx (ix2 e 0)).toInt.toNat (N - 1), by omega⟩ ⟨min (idx (ix2 e 1)).toInt.toNat (N - 1), by omega⟩) := by
  unfold Host.gather
  congr 1
  funext a
  have hb : ∀ a : Fin 3, a ∉ d.operandBatchingDims := fun a => by rw [hob]; exact List.not_mem_nil
  match a with
  | ⟨0, _⟩ =>
    apply Fin.ext
    have hk : (0 : Fin 3) ∈ d.sKept := by
      rw [GatherDims.mem_sKept, hcoll, hob]
      exact ⟨by show (0 : Fin 3) ∉ ([1, 2] : List (Fin 3)); decide, List.not_mem_nil⟩
    have hm : (0 : Fin 3) ∉ d.startIndexMap := by
      rw [hsim]; show (0 : Fin 3) ∉ ([1, 2] : List (Fin 3)); decide
    show d.start (ix2 c e) idx 0 + d.batchCoord (ix2 c e) 0 + d.offCoord (ix2 c e) 0 = c.val
    rw [GatherDims.batchCoord_eq_zero _ _ _ (hb 0)]
    unfold GatherDims.start GatherDims.offCoord
    rw [dif_neg hm, dif_pos hk]
    simp only [Nat.zero_add]
    exact val_at (ix2 c e) _ 0 (getElem_of_eq_singleton hoff _ _)
  | ⟨1, _⟩ =>
    apply Fin.ext
    have hk : (1 : Fin 3) ∉ d.sKept := by rw [GatherDims.mem_sKept, hcoll]; simp
    have hm : (1 : Fin 3) ∈ d.startIndexMap := by rw [hsim]; simp
    have hsl : d.sliceSizes 1 = 1 := d.slice_collapsed 1 (by rw [hcoll]; simp)
    show d.start (ix2 c e) idx 1 + d.batchCoord (ix2 c e) 1 + d.offCoord (ix2 c e) 1 = min (idx (ix2 e 0)).toInt.toNat (N - 1)
    rw [GatherDims.batchCoord_eq_zero _ _ _ (hb 1), GatherDims.offCoord_eq_zero _ _ _ hk]
    simp only [Nat.add_zero]
    unfold GatherDims.start
    rw [dif_pos hm, gather_siIdx_cf d hoff hivd _ _ 0 (by
      show List.idxOf (1 : Fin 3) d.startIndexMap = 0
      rw [hsim]; simp)]
    show min (idx (ix2 e 0)).toInt.toNat (N - d.sliceSizes 1) = min (idx (ix2 e 0)).toInt.toNat (N - 1)
    rw [hsl]
  | ⟨2, _⟩ =>
    apply Fin.ext
    have hk : (2 : Fin 3) ∉ d.sKept := by rw [GatherDims.mem_sKept, hcoll]; simp
    have hm : (2 : Fin 3) ∈ d.startIndexMap := by rw [hsim]; simp
    have hsl : d.sliceSizes 2 = 1 := d.slice_collapsed 2 (by rw [hcoll]; simp)
    show d.start (ix2 c e) idx 2 + d.batchCoord (ix2 c e) 2 + d.offCoord (ix2 c e) 2 = min (idx (ix2 e 1)).toInt.toNat (N - 1)
    rw [GatherDims.batchCoord_eq_zero _ _ _ (hb 2), GatherDims.offCoord_eq_zero _ _ _ hk]
    simp only [Nat.add_zero]
    unfold GatherDims.start
    rw [dif_pos hm, gather_siIdx_cf d hoff hivd _ _ 1 (by
      show List.idxOf (2 : Fin 3) d.startIndexMap = 1
      rw [hsim]; show List.idxOf (2 : Fin 3) ([1, 2] : List (Fin 3)) = 1; decide)]
    show min (idx (ix2 e 1)).toInt.toNat (N - d.sliceSizes 2) = min (idx (ix2 e 1)).toInt.toNat (N - 1)
    rw [hsl]

end ChannelFirst

/-! ## The gather by pairs, channel-last -/

section ChannelLast
variable {α : Type} {C N E w : Nat} (d : GatherDims ⟨3, ![N, N, C]⟩ ⟨2, ![E, 2]⟩ ⟨2, ![E, C]⟩)

/-- THE GATHER BY PAIRS, CHANNEL-LAST. Result element (e, c) of `x[rows, cols]` is the operand at the row the first
    word of pair e names and the column its second word names, each read signed and clamped into [0, N − 1], at
    channel c. -/
theorem gather_pairs_cl (hoff : d.offsetDims = [1]) (hcoll : d.collapsedSliceDims = [0, 1]) (hob : d.operandBatchingDims = [])
    (hsim : d.startIndexMap = [0, 1]) (hivd : d.indexVectorDim = 1)
    (x : (⟨3, ![N, N, C]⟩ : Shape).Idx → α) (idx : IVec ⟨2, ![E, 2]⟩ w) (e : Fin E) (c : Fin C) (hN : 0 < N) :
    Host.gather d x idx (ix2 e c)
      = x (ix3 ⟨min (idx (ix2 e 0)).toInt.toNat (N - 1), by omega⟩ ⟨min (idx (ix2 e 1)).toInt.toNat (N - 1), by omega⟩ c) := by
  unfold Host.gather
  congr 1
  funext a
  have hb : ∀ a : Fin 3, a ∉ d.operandBatchingDims := fun a => by rw [hob]; exact List.not_mem_nil
  match a with
  | ⟨0, _⟩ =>
    apply Fin.ext
    have hk : (0 : Fin 3) ∉ d.sKept := by rw [GatherDims.mem_sKept, hcoll]; simp
    have hm : (0 : Fin 3) ∈ d.startIndexMap := by rw [hsim]; simp
    have hsl : d.sliceSizes 0 = 1 := d.slice_collapsed 0 (by rw [hcoll]; simp)
    show d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, gather_siIdx_cl d hoff hivd _ _ 0 (by
      show List.idxOf (0 : Fin 3) d.startIndexMap = 0
      rw [hsim]; simp)]
    show min (idx (ix2 e 0)).toInt.toNat (N - d.sliceSizes 0) = min (idx (ix2 e 0)).toInt.toNat (N - 1)
    rw [hsl]
  | ⟨1, _⟩ =>
    apply Fin.ext
    have hk : (1 : Fin 3) ∉ d.sKept := by rw [GatherDims.mem_sKept, hcoll]; simp
    have hm : (1 : Fin 3) ∈ d.startIndexMap := by rw [hsim]; simp
    have hsl : d.sliceSizes 1 = 1 := d.slice_collapsed 1 (by rw [hcoll]; simp)
    show d.start (ix2 e c) idx 1 + d.batchCoord (ix2 e c) 1 + d.offCoord (ix2 e c) 1 = min (idx (ix2 e 1)).toInt.toNat (N - 1)
    rw [GatherDims.batchCoord_eq_zero _ _ _ (hb 1), GatherDims.offCoord_eq_zero _ _ _ hk]
    simp only [Nat.add_zero]
    unfold GatherDims.start
    rw [dif_pos hm, gather_siIdx_cl d hoff hivd _ _ 1 (by
      show List.idxOf (1 : Fin 3) d.startIndexMap = 1
      rw [hsim]; show List.idxOf (1 : Fin 3) ([0, 1] : List (Fin 3)) = 1; decide)]
    show min (idx (ix2 e 1)).toInt.toNat (N - d.sliceSizes 1) = min (idx (ix2 e 1)).toInt.toNat (N - 1)
    rw [hsl]
  | ⟨2, _⟩ =>
    apply Fin.ext
    have hk : (2 : Fin 3) ∈ d.sKept := by
      rw [GatherDims.mem_sKept, hcoll, hob]
      exact ⟨by show (2 : Fin 3) ∉ ([0, 1] : List (Fin 3)); decide, List.not_mem_nil⟩
    have hm : (2 : Fin 3) ∉ d.startIndexMap := by
      rw [hsim]; show (2 : Fin 3) ∉ ([0, 1] : List (Fin 3)); decide
    show d.start (ix2 e c) idx 2 + d.batchCoord (ix2 e c) 2 + d.offCoord (ix2 e c) 2 = c.val
    rw [GatherDims.batchCoord_eq_zero _ _ _ (hb 2)]
    unfold GatherDims.start GatherDims.offCoord
    rw [dif_neg hm, dif_pos hk]
    simp only [Nat.zero_add]
    exact val_at (ix2 e c) _ 1 (getElem_of_eq_singleton hoff _ _)

end ChannelLast

/-! ## Axiom pins -/

/-- info: 'Idealize.ShloMosaic.GatherPairs.gather_siIdx_cf' depends on axioms: [propext, Classical.choice, Quot.sound] -/
#guard_msgs (whitespace := lax) in #print axioms gather_siIdx_cf
/-- info: 'Idealize.ShloMosaic.GatherPairs.gather_siIdx_cl' depends on axioms: [propext, Classical.choice, Quot.sound] -/
#guard_msgs (whitespace := lax) in #print axioms gather_siIdx_cl
/-- info: 'Idealize.ShloMosaic.GatherPairs.gather_pairs_cf' depends on axioms: [propext, Classical.choice, Quot.sound] -/
#guard_msgs (whitespace := lax) in #print axioms gather_pairs_cf
/-- info: 'Idealize.ShloMosaic.GatherPairs.gather_pairs_cl' depends on axioms: [propext, Classical.choice, Quot.sound] -/
#guard_msgs (whitespace := lax) in #print axioms gather_pairs_cl

end Idealize.ShloMosaic.GatherPairs

end
-- ==== Proof.BridgeB.lean ====
/-
  The gathered symmetrised edge rows agree between the two programs.

  The kernel's program scatters the edge rows into a dense [4096, 4096, 16] array D, moves the channel axis to the
  front (T (c, a, b) = D (a, b, c)), symmetrises T in its two node axes, gathers at the (row, column) index pairs
  and transposes the result to [262144, 16]. The reference scatters the same rows at the same pairs into the same D,
  symmetrises it with the channel axis last and gathers at the same pairs. At entry (e, c), with (p, q) the clamped
  pair that edge e names, both are the printed half times D (p, q, c) + D (q, p, c).
-/
import proofs.«156641_j38199439130848_1_alg».proof.Proof.KIHost
import proofs.«156641_j38199439130848_1_alg».proof.Proof.KIVal1
import proofs.«156641_j38199439130848_1_alg».proof.Proof.RefVal
import proofs.«156641_j38199439130848_1_alg».proof.Proof.LibGatherPairs
import Idealize.ShloMosaic.Lib.ValueLayout
import Idealize.ShloMosaic.Lib.Pipeline.Value
noncomputable section
namespace Cert.Bridge
open Idealize.ShloMosaic Idealize.ShloMosaic.TcCoe Idealize.ShloMosaic.ValueIdx Idealize.SL.Sem
open Idealize.ShloMosaic.GatherPairs
open Cert.KernelIdeal.Hand Cert.KernelIdeal.HandVal
open Cert.ReferenceIdeal.Read Cert.ReferenceIdeal.RefValue

variable [Cert.KernelIdeal.Facts] [Cert.ReferenceIdeal.Facts]

/-! ## Layout and index facts -/

/-- An array with its last axis moved to the front (permutation [2, 0, 1]) reads, at (k, i, j), the operand at (i, j, k). -/
theorem transpose_ix3_201_apply {α : Type} {a b c : ℕ} (x : (⟨3, ![a, b, c]⟩ : Shape).Idx → α)
    (h : (⟨3, ![a, b, c]⟩ : Shape).Transposes [2, 0, 1] ⟨3, ![c, a, b]⟩) (k : Fin c) (i : Fin a) (j : Fin b) :
    transpose ⟨3, ![c, a, b]⟩ [2, 0, 1] x h (ix3 k i j) = x (ix3 i j k) :=
  transpose_apply _ x h _ _ fun q => match q with | ⟨0, _⟩ => rfl | ⟨1, _⟩ => rfl | ⟨2, _⟩ => rfl

/-- The position a 32-bit index word names on an axis of 4096 entries: read signed, clamped into [0, 4095]. -/
def pos (w : BitVec 32) : Fin 4096 := ⟨min w.toInt.toNat (4096 - 1), by omega⟩

/-! ## The two sides at an entry -/

/-- THE KERNEL'S SIDE at an entry: a dense channel-last array D moved channel-first, symmetrised, gathered at the
    pairs P and transposed reads, at (e, c), the half of D (p, q, c) + D (q, p, c), (p, q) the pair edge e names. -/
theorem kernel_side (D : (⟨3, ![4096, 4096, 16]⟩ : Shape).Idx → EReal) (P : IVec (⟨2, ![262144, 2]⟩ : Shape) 32)
    (h1 : (⟨3, ![4096, 4096, 16]⟩ : Shape).Transposes [2, 0, 1] ⟨3, ![16, 4096, 4096]⟩)
    (h2 : (⟨2, ![16, 262144]⟩ : Shape).Transposes [1, 0] ⟨2, ![262144, 16]⟩) (e : Fin 262144) (ch : Fin 16) :
    transpose ⟨2, ![262144, 16]⟩ [1, 0]
        (Host.gather Cert.KernelIdeal.gather_S16x4096x4096_S262144x2_S16x262144_0_12_n_n_12_1_1611
          (Cert.Spec.symCF (transpose ⟨3, ![16, 4096, 4096]⟩ [2, 0, 1] D h1)) P) h2 (ix2 e ch)
      = Ideal.ofBits .f32 0x3F000000#32
          * (D (ix3 (pos (P (ix2 e 0))) (pos (P (ix2 e 1))) ch) + D (ix3 (pos (P (ix2 e 1))) (pos (P (ix2 e 0))) ch)) := by
  rw [transpose_ix2_apply, gather_pairs_cf _ rfl rfl rfl rfl rfl _ P ch e (by norm_num), Cert.Spec.symCF_apply,
    transpose_ix3_201_apply, transpose_ix3_201_apply]
  rfl

/-- The reference computes the index pairs twice (once for the scatter, once for the gather), by the same operations. -/
theorem ref_pairs_twice (x3 : (⟨Cert.ReferenceIdeal.S2x262144, .i32⟩ : BufTy).Contents (Elt Ideal)) :
    val_main_v48 (F := Ideal) x3 = val_main_v30 (F := Ideal) x3 := rfl

/-- THE REFERENCE'S SIDE at an entry: the scattered array symmetrised channel-last and gathered at the pairs reads, at
    (e, c), the half of D (p, q, c) + D (q, p, c), D the scattered array and (p, q) the pair edge e names. -/
theorem reference_side (x1 : (⟨Cert.ReferenceIdeal.S262144x16, .f32⟩ : BufTy).Contents (Elt Ideal))
    (x3 : (⟨Cert.ReferenceIdeal.S2x262144, .i32⟩ : BufTy).Contents (Elt Ideal)) (e : Fin 262144) (ch : Fin 16) :
    val_main_v49 (F := Ideal) x1 x3 (ix2 e ch)
      = Ideal.ofBits .f32 0x3F000000#32
          * (val_main_v31 (F := Ideal) x1 x3 (ix3 (pos (val_main_v30 (F := Ideal) x3 (ix2 e 0))) (pos (val_main_v30 (F := Ideal) x3 (ix2 e 1))) ch)
            + val_main_v31 (F := Ideal) x1 x3 (ix3 (pos (val_main_v30 (F := Ideal) x3 (ix2 e 1))) (pos (val_main_v30 (F := Ideal) x3 (ix2 e 0))) ch)) := by
  rw [ref_v49_def, ref_pairs_twice, gather_pairs_cl _ rfl rfl rfl rfl rfl _ _ e ch (by norm_num)]
  exact ref_v35_apply x1 x3 _ _ ch

/-! ## The same pairs, the same scattered array -/

/-- The two programs compute the (row, column) pairs from the index array by the same operations. -/
theorem pairs_eq (x3 : IVec Cert.KernelIdeal.S2x262144 32) : kPairs x3 = val_main_v30 (F := Ideal) x3 := rfl

open Cert.KernelIdeal.Facts₀ in
/-- The two programs scatter the same rows at the same pairs into the same zero array. -/
theorem scattered_eq (x1 : Vec Ideal Cert.KernelIdeal.S262144x16 .f32) (x3 : IVec Cert.KernelIdeal.S2x262144 32) :
    Host.scatter Cert.KernelIdeal.scatter_S4096x4096x16_S262144x2_S262144x16_1_01_01_1 (fun _ b => b)
        (broadcastInDim Cert.KernelIdeal.S4096x4096x16 ![] bcast_S_S4096x4096x16 (constant (F := Ideal) Cert.KernelIdeal.S_ .f32 0x00000000#32))
        (kPairs x3) x1
      = val_main_v31 (F := Ideal) x1 x3 := rfl

/-! ## The bridge -/

variable (m : (ℓ : Loc Cert.KernelIdeal.nD Cert.KernelIdeal.τ Cert.KernelIdeal.sig) → Buf (Elt Ideal) ℓ)

/-- The kernel's gathered symmetrised edge rows, as region 2 finds them, are the reference's. -/
theorem esym_eq (c : Dev Cert.KernelIdeal.nD) :
    (U5 m c Cert.KernelIdeal.main_v42 : Vec Ideal Cert.KernelIdeal.S262144x16 .f32)
      = val_main_v49 (F := Ideal) (m ((c : Thread Cert.KernelIdeal.nD Cert.KernelIdeal.τ).loc Cert.KernelIdeal.main_arg1))
          (m ((c : Thread Cert.KernelIdeal.nD Cert.KernelIdeal.τ).loc Cert.KernelIdeal.main_arg3)) := by
  rw [host_v42 m c, final1_2 (U3 m) c, host_v26 m c, scattered_eq]
  funext i
  obtain ⟨e, ch, rfl⟩ : ∃ (e : Fin 262144) (ch : Fin 16), i = ix2 e ch := ⟨i 0, i 1, eq_ix2 i⟩
  rw [reference_side]
  refine (kernel_side _ _ _ _ e ch).trans ?_
  rw [pairs_eq]

end Cert.Bridge
end
-- ==== Proof.BridgeC.lean ====
/- The edge head of the two programs is one function of the arguments, over the extended reals.

   The kernel's third region leaves in its result array the edge head of its seven input arrays: the gate of the sum of
   two gathered node rows and a dense layer of the gathered edge row, then a last dense layer. The two node-row arrays
   are gathers of the first region's first result at the two rows of the index array, each index normalised and set as
   a column: the same gathers of the same table at the same index columns as the reference's stages %56 and %63. The
   edge-row array is the reference's stage %49. The two weights the region reads were transposed on the host by the
   operations the reference applies (its stages %65 and %72); the one-row biases are reshapes of the bias vectors, and a
   [D] vector reshaped to [1, D] reads at (0, q) what the vector reads at q. The kernel adds the first bias before the
   node rows, the reference after: the two groupings agree because addition of extended reals is associative. -/
import proofs.«156641_j38199439130848_1_alg».proof.Proof.KIHost
import proofs.«156641_j38199439130848_1_alg».proof.Proof.KIVal2
import proofs.«156641_j38199439130848_1_alg».proof.Proof.RefVal
import proofs.«156641_j38199439130848_1_alg».proof.Proof.BridgeA
import proofs.«156641_j38199439130848_1_alg».proof.Proof.BridgeB
import Idealize.ShloMosaic.Lib.ValueLayout
import Idealize.ShloMosaic.Lib.Pipeline.Value
set_option maxRecDepth 16384
noncomputable section
namespace Cert.Bridge
open Idealize.ShloMosaic Idealize.ShloMosaic.TcCoe Idealize.SL.Sem Idealize.ShloMosaic.ValueIdx
open Cert.KernelIdeal.Hand Cert.KernelIdeal.HandVal Cert.ReferenceIdeal.Read Cert.ReferenceIdeal.RefValue

variable [Cert.KernelIdeal.Facts] [Cert.ReferenceIdeal.Facts]

/-! ## The index columns and the gather's dimension numbers, in the two programs' spellings -/

/-- Row 1 of the index array, each index normalised, as a column: the reference's stage %55. -/
theorem row1_col_ref (x3 : Cert.ReferenceIdeal.S2x262144.Idx → BitVec 32) : kCol (kNorm (kRow1 x3)) = val_main_v55 (F := Ideal) x3 := rfl

/-- Row 0 of the index array, each index normalised, as a column: the reference's stage %62. -/
theorem row0_col_ref (x3 : Cert.ReferenceIdeal.S2x262144.Idx → BitVec 32) : kCol (kNorm (kRow0 x3)) = val_main_v62 (F := Ideal) x3 := rfl

/-- The row gather's dimension numbers are the same record in both programs. -/
theorem gather_rows_dims : Cert.KernelIdeal.gather_S4096x256_S262144x1_S262144x256_1_0_n_n_0_1_1256
    = Cert.ReferenceIdeal.gather_S4096x256_S262144x1_S262144x256_1_0_n_n_0_1_1256 := rfl

/-- A row gather of the reference's stage %5 at the reference's column %55 is its stage %56 … -/
theorem gather_eq_v56 (x0 : Cert.ReferenceIdeal.S4096x256.Idx → EReal) (x3 : Cert.ReferenceIdeal.S2x262144.Idx → BitVec 32) (x4 : Cert.ReferenceIdeal.S256x256.Idx → EReal) (x5 : Cert.ReferenceIdeal.S256.Idx → EReal)
    (A : Cert.ReferenceIdeal.S4096x256.Idx → EReal) (hA : A = val_main_v5 (F := Ideal) x0 x4 x5)
    (I : Cert.ReferenceIdeal.S262144x1.Idx → BitVec 32) (hI : I = val_main_v55 (F := Ideal) x3) :
    Host.gather Cert.KernelIdeal.gather_S4096x256_S262144x1_S262144x256_1_0_n_n_0_1_1256 A I = val_main_v56 (F := Ideal) x0 x3 x4 x5 := by
  subst hA hI
  rw [gather_rows_dims, ref_v56_def]

/-- … and at the column %62 its stage %63. -/
theorem gather_eq_v63 (x0 : Cert.ReferenceIdeal.S4096x256.Idx → EReal) (x3 : Cert.ReferenceIdeal.S2x262144.Idx → BitVec 32) (x4 : Cert.ReferenceIdeal.S256x256.Idx → EReal) (x5 : Cert.ReferenceIdeal.S256.Idx → EReal)
    (A : Cert.ReferenceIdeal.S4096x256.Idx → EReal) (hA : A = val_main_v5 (F := Ideal) x0 x4 x5)
    (I : Cert.ReferenceIdeal.S262144x1.Idx → BitVec 32) (hI : I = val_main_v62 (F := Ideal) x3) :
    Host.gather Cert.KernelIdeal.gather_S4096x256_S262144x1_S262144x256_1_0_n_n_0_1_1256 A I = val_main_v63 (F := Ideal) x0 x3 x4 x5 := by
  subst hA hI
  rw [gather_rows_dims, ref_v63_def]

/-! ## The edge head, with its inputs named by what they are -/

/-- The edge head, in the kernel's grouping, of the reference's two gathered node-row arrays, its gathered edge-row
    array, its two transposed weights and two one-row biases that read the bias vectors, is the reference's stage %76. -/
theorem edgeHead_eq_v76 (x0 : Cert.ReferenceIdeal.S4096x256.Idx → EReal) (x1 : Cert.ReferenceIdeal.S262144x16.Idx → EReal) (x3 : Cert.ReferenceIdeal.S2x262144.Idx → BitVec 32) (x4 : Cert.ReferenceIdeal.S256x256.Idx → EReal) (x5 : Cert.ReferenceIdeal.S256.Idx → EReal)
    (x6 : Cert.ReferenceIdeal.S256x16.Idx → EReal) (x7 : Cert.ReferenceIdeal.S256.Idx → EReal) (x8 : Cert.ReferenceIdeal.S5x256.Idx → EReal) (x9 : Cert.ReferenceIdeal.S5.Idx → EReal)
    (SI : Cert.ReferenceIdeal.S262144x256.Idx → EReal) (hSI : SI = val_main_v56 (F := Ideal) x0 x3 x4 x5)
    (SJ : Cert.ReferenceIdeal.S262144x256.Idx → EReal) (hSJ : SJ = val_main_v63 (F := Ideal) x0 x3 x4 x5)
    (ES : Cert.ReferenceIdeal.S262144x16.Idx → EReal) (hES : ES = val_main_v49 (F := Ideal) x1 x3)
    (W1 : Cert.ReferenceIdeal.S16x256.Idx → EReal) (hW1 : W1 = val_main_v65 (F := Ideal) x6)
    (B1 : Cert.KernelIdeal.S1x256.Idx → EReal) (hB1 : ∀ q : Fin 256, B1 (ix2 (0 : Fin 1) q) = x7 (ix1 q))
    (W2 : Cert.ReferenceIdeal.S256x5.Idx → EReal) (hW2 : W2 = val_main_v72 (F := Ideal) x8)
    (B2 : Cert.KernelIdeal.S1x5.Idx → EReal) (hB2 : ∀ q : Fin 5, B2 (ix2 (0 : Fin 1) q) = x9 (ix1 q)) :
    Cert.Spec.edgeHead SI SJ ES W1 (fun q => B1 (ix2 (0 : Fin 1) q)) W2 (fun q => B2 (ix2 (0 : Fin 1) q))
      = val_main_v76 (F := Ideal) x0 x1 x3 x4 x5 x6 x7 x8 x9 := by
  subst hSI hSJ hES hW1 hW2
  rw [ref_v76, Cert.Spec.edgeHead_eq_ref, show (fun q => B1 (ix2 (0 : Fin 1) q)) = fun q => x7 (ix1 q) from funext hB1,
    show (fun q => B2 (ix2 (0 : Fin 1) q)) = fun q => x9 (ix1 q) from funext hB2]

/-! ## The region's input arrays against the reference's stages -/

variable (m : (ℓ : Loc Cert.KernelIdeal.nD Cert.KernelIdeal.τ Cert.KernelIdeal.sig) → Buf (Elt Ideal) ℓ)

/-- The first node-row array the region reads (the rows at the index array's row 1) is the reference's stage %56. -/
theorem host_v49_ref (c : Dev Cert.KernelIdeal.nD) :
    (U5 m c Cert.KernelIdeal.main_v49 : Cert.ReferenceIdeal.S262144x256.Idx → EReal)
      = val_main_v56 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) :=
  (host_v49 m c).trans (gather_eq_v56 _ _ _ _ _ (sact_eq m c) _ (row1_col_ref _))

/-- The second node-row array (the rows at the index array's row 0) is the reference's stage %63. -/
theorem host_v56_ref (c : Dev Cert.KernelIdeal.nD) :
    (U5 m c Cert.KernelIdeal.main_v56 : Cert.ReferenceIdeal.S262144x256.Idx → EReal)
      = val_main_v63 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) :=
  (host_v56 m c).trans (gather_eq_v63 _ _ _ _ _ (sact_eq m c) _ (row0_col_ref _))

/-- The region's transposed first weight is the reference's stage %65. -/
theorem host_v57_ref (c : Dev Cert.KernelIdeal.nD) :
    (U5 m c Cert.KernelIdeal.main_v57 : Cert.ReferenceIdeal.S16x256.Idx → EReal) = val_main_v65 (F := Ideal) (m ((c : Thread Cert.KernelIdeal.nD Cert.KernelIdeal.τ).loc Cert.KernelIdeal.main_arg6)) :=
  (host_v57 m c).trans (by unfold val_main_v65; rfl)

/-- The region's transposed last weight is the reference's stage %72. -/
theorem host_v58_ref (c : Dev Cert.KernelIdeal.nD) :
    (U5 m c Cert.KernelIdeal.main_v58 : Cert.ReferenceIdeal.S256x5.Idx → EReal) = val_main_v72 (F := Ideal) (m ((c : Thread Cert.KernelIdeal.nD Cert.KernelIdeal.τ).loc Cert.KernelIdeal.main_arg8)) :=
  (host_v58 m c).trans (by unfold val_main_v72; rfl)

/-- The region's one-row first bias reads the bias vector. -/
theorem host_v59_apply (c : Dev Cert.KernelIdeal.nD) (q : Fin 256) :
    (U5 m c Cert.KernelIdeal.main_v59 : Cert.KernelIdeal.S1x256.Idx → EReal) (ix2 (0 : Fin 1) q)
      = ((m ((c : Thread Cert.KernelIdeal.nD Cert.KernelIdeal.τ).loc Cert.KernelIdeal.main_arg7)) : Cert.ReferenceIdeal.S256.Idx → EReal) (ix1 q) := by
  rw [host_v59 m c]
  exact shapeCast_a_1a_apply _ _ (0 : Fin 1) q

/-- The region's one-row last bias reads the bias vector. -/
theorem host_v60_apply (c : Dev Cert.KernelIdeal.nD) (q : Fin 5) :
    (U5 m c Cert.KernelIdeal.main_v60 : Cert.KernelIdeal.S1x5.Idx → EReal) (ix2 (0 : Fin 1) q)
      = ((m ((c : Thread Cert.KernelIdeal.nD Cert.KernelIdeal.τ).loc Cert.KernelIdeal.main_arg9)) : Cert.ReferenceIdeal.S5.Idx → EReal) (ix1 q) := by
  rw [host_v60 m c]
  exact shapeCast_a_1a_apply _ _ (0 : Fin 1) q

/-! ## The returned edge array -/

/-- The third returned array: the region's result array, the edge head of its inputs, is the reference's stage %76. -/
theorem res_v61_eq (c : Dev Cert.KernelIdeal.nD) :
    Cert.KernelIdeal.Gen.V6 m (outs m) c Cert.KernelIdeal.main_v61
      = val_main_v76 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9)) :=
  (res_v61 m c).trans ((final2_7 (U5 m) c).trans
    (edgeHead_eq_v76 _ _ _ _ _ _ _ _ _ _ (host_v49_ref m c) _ (host_v56_ref m c) _ (esym_eq m c) _ (host_v57_ref m c)
      _ (host_v59_apply m c) _ (host_v58_ref m c) _ (host_v60_apply m c)))

end Cert.Bridge

end
-- ==== Proof.lean ====
/-
  The kernel and its reference compute the same three arrays over the extended reals.

  The kernel's program runs three pipelined regions among host operations: a gated dense layer and the atoms head on
  blocks of node rows; the symmetrisation of the scattered edge array, tile by tile against the mirrored tile; the edge
  head on blocks of edges, over node rows and symmetrised edge rows the host gathers. Each region leaves in its output
  array what the body computes from the blocks of its input arrays, and the blocks cover the array; the host operations
  in between are read off the fold of buffer contents. The reference computes the same dense layers by whole-array
  products, the same gate by its expansion into negate, exponential, add and divide, the same scatter, the same
  symmetrisation in the channel-last layout, the same gathers. Entry by entry the two agree; the one regrouping, the edge
  layer's bias added before or after the node rows, is associativity of addition. No finiteness is used: the
  precondition is never opened.
-/
import proofs.«156641_j38199439130848_1_alg».proof.Defs
import proofs.«156641_j38199439130848_1_alg».proof.Proof.Gen.Kernel
import proofs.«156641_j38199439130848_1_alg».proof.Proof.Gen.KernelIdeal
import proofs.«156641_j38199439130848_1_alg».proof.Proof.Gen.ReferenceIdeal
import proofs.«156641_j38199439130848_1_alg».proof.Proof.Gen.Pre_finite_inputs
import proofs.«156641_j38199439130848_1_alg».proof.Proof.Gen.ReferenceIdeal.Run
import proofs.«156641_j38199439130848_1_alg».proof.Proof.Gen.ReferenceIdeal.Read
import proofs.«156641_j38199439130848_1_alg».proof.Proof.KRun
import proofs.«156641_j38199439130848_1_alg».proof.Proof.KIRun
import proofs.«156641_j38199439130848_1_alg».proof.Proof.BridgeA
import proofs.«156641_j38199439130848_1_alg».proof.Proof.BridgeC
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- An unscoped TensorCore reference is among those the last thread state holds. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Both idealized programs run, from memories agreeing on the arguments, to the same three results: the kernel's run
    ends every buffer at the last valuation of its fold; the reference's results are its stages; the bridge lemmas say
    the two are equal. -/
theorem algebraic : Cert.algebraic_KernelIdeal_ReferenceIdeal := by
  intro m ρ m' ρ' _ hagree
  refine ⟨fun c => Cert.KernelIdeal.Gen.V6 m (Cert.KernelIdeal.Hand.outs m) c Cert.KernelIdeal.main_v10,
    fun c => Cert.KernelIdeal.Gen.V6 m (Cert.KernelIdeal.Hand.outs m) c Cert.KernelIdeal.main_v9,
    fun c => Cert.KernelIdeal.Gen.V6 m (Cert.KernelIdeal.Hand.outs m) c Cert.KernelIdeal.main_v61, ?_, ?_⟩
  · refine (θ_run Cert.KernelIdeal.defs _ _).mono (fun r h c => ?_) (Cert.KernelIdeal.Hand.run_all m ρ)
    exact ⟨h c _ (mem_uc Cert.KernelIdeal.main_v10 (by decide)), h c _ (mem_uc Cert.KernelIdeal.main_v9 (by decide)),
      h c _ (mem_uc Cert.KernelIdeal.main_v61 (by decide)),
      (h c _ (mem_uc Cert.KernelIdeal.main_arg0 (by decide))).trans (Cert.KernelIdeal.Gen.V6_main_arg0 m _ c),
      (h c _ (mem_uc Cert.KernelIdeal.main_arg1 (by decide))).trans (Cert.KernelIdeal.Gen.V6_main_arg1 m _ c),
      (h c _ (mem_uc Cert.KernelIdeal.main_arg2 (by decide))).trans (Cert.KernelIdeal.Gen.V6_main_arg2 m _ c),
      (h c _ (mem_uc Cert.KernelIdeal.main_arg3 (by decide))).trans (Cert.KernelIdeal.Gen.V6_main_arg3 m _ c),
      (h c _ (mem_uc Cert.KernelIdeal.main_arg4 (by decide))).trans (Cert.KernelIdeal.Gen.V6_main_arg4 m _ c),
      (h c _ (mem_uc Cert.KernelIdeal.main_arg5 (by decide))).trans (Cert.KernelIdeal.Gen.V6_main_arg5 m _ c),
      (h c _ (mem_uc Cert.KernelIdeal.main_arg6 (by decide))).trans (Cert.KernelIdeal.Gen.V6_main_arg6 m _ c),
      (h c _ (mem_uc Cert.KernelIdeal.main_arg7 (by decide))).trans (Cert.KernelIdeal.Gen.V6_main_arg7 m _ c),
      (h c _ (mem_uc Cert.KernelIdeal.main_arg8 (by decide))).trans (Cert.KernelIdeal.Gen.V6_main_arg8 m _ c),
      (h c _ (mem_uc Cert.KernelIdeal.main_arg9 (by decide))).trans (Cert.KernelIdeal.Gen.V6_main_arg9 m _ c),
      (h c _ (mem_uc Cert.KernelIdeal.main_arg10 (by decide))).trans (Cert.KernelIdeal.Gen.V6_main_arg10 m _ c),
      (h c _ (mem_uc Cert.KernelIdeal.main_arg11 (by decide))).trans (Cert.KernelIdeal.Gen.V6_main_arg11 m _ c)⟩
  · refine (θ_run Cert.ReferenceIdeal.defs _ _).mono (fun r h c => ?_) (Cert.ReferenceIdeal.Value.run (F := Ideal) m' ρ')
    obtain ⟨h16, h15, h76, hargs⟩ := h c
    obtain ⟨e0, e1, e2, e3, e4, e5, e6, e7, e8, e9, e10, e11⟩ := hagree c
    refine ⟨h16.trans ?_, h15.trans ?_, h76.trans ?_, hargs⟩
    · refine (Cert.ReferenceIdeal.Read.val_main_v16_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
      rw [e0, e4, e5, e10, e11]
      exact (Cert.Bridge.res_v10_eq m c).symm
    · refine (Cert.ReferenceIdeal.Read.val_main_v15_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
      rw [e0, e4, e5, e10, e11]
      exact (Cert.Bridge.res_v9_eq m c).symm
    · refine (Cert.ReferenceIdeal.Read.val_main_v76_eq m' c).trans ?_
      rw [e0, e1, e3, e4, e5, e6, e7, e8, e9]
      exact (Cert.Bridge.res_v61_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
